-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 32 := constantI S_ 32 10000#32
  let main_v26 : IVec S2x640000 32 := broadcastInDim S2x640000 ![] bcast_S_S2x640000 main_c_9
  let main_v27 : IVec S2x640000 1 := cmpi .slt main_arg1 main_v26
  let main_v28 : IVec S2x640000 1 := andi main_v25 main_v27
  let main_c_10 : IVec S_ 1 := constantI S_ 1 1#1
  let main_v29 : IVec S_ 1 := (fun x v => Host.reduce IntOp.andi x v reducesTo_S2x640000_S_d0_1 h_S_) main_v28 main_c_10
  let main_v30 : IVec S_ 1 := andi main_v23 main_v29
  main_v30

def fn {F : FTy → Type} [FloatOps F] (main_arg0 : FVec F S10000x128 .f32) (main_arg1 : IVec S2x640000 32) (main_arg2 : FVec F S128x128 .f32) (main_arg3 : FVec F S128 .f32) (main_arg4 : FVec F S128x40 .f32) (main_arg5 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg1 main_arg5 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S104857600 : Shape := ⟨1, ![104857600]⟩
abbrev S10240x10240 : Shape := ⟨2, ![10240, 10240]⟩
abbrev S10240x128 : Shape := ⟨2, ![10240, 128]⟩
abbrev S1x128 : Shape := ⟨2, ![1, 128]⟩
abbrev S1280x2048 : Shape := ⟨2, ![1280, 2048]⟩
abbrev S2048x128 : Shape := ⟨2, ![2048, 128]⟩
abbrev S1280x128 : Shape := ⟨2, ![1280, 128]⟩
abbrev S10240x40 : Shape := ⟨2, ![10240, 40]⟩
abbrev S1x40 : Shape := ⟨2, ![1, 40]⟩
abbrev S2048x40 : Shape := ⟨2, ![2048, 40]⟩
abbrev S1280x40 : Shape := ⟨2, ![1280, 40]⟩
abbrev S10000x40 : Shape := ⟨2, ![10000, 40]⟩

abbrev nBuf : Space → Nat
  | .hbm => 68
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S10000, .i32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S650000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S_, .i32⟩
  | .hbm, ⟨47, _⟩ => ⟨S650000, .i32⟩
  | .hbm, ⟨48, _⟩ => ⟨S650000, .i32⟩
  | .hbm, ⟨49, _⟩ => ⟨S650000, .i32⟩
  | .hbm, ⟨50, _⟩ => ⟨S_, .f32⟩
  | .hbm, ⟨51, _⟩ => ⟨S104857600, .f32⟩
  | .hbm, ⟨52, _⟩ => ⟨S650000x1, .i32⟩
  | .hbm, ⟨53, _⟩ => ⟨S104857600, .f32⟩
  | .hbm, ⟨54, _⟩ => ⟨S10240x10240, .f32⟩
  | .hbm, ⟨55, _⟩ => ⟨S10240x10240, .bf16⟩
  | .hbm, ⟨56, _⟩ => ⟨S_, .i32⟩
  | .hbm, ⟨57, _⟩ => ⟨S_, .f32⟩
  | .hbm, ⟨58, _⟩ => ⟨S10240x128, .f32⟩
  | .hbm, ⟨59, _⟩ => ⟨S10240x128, .f32⟩
  | .hbm, ⟨60, _⟩ => ⟨S10240x128, .bf16⟩
  | .hbm, ⟨61, _⟩ => ⟨S1x128, .f32⟩
  | .hbm, ⟨62, _⟩ => ⟨S10240x128, .f32⟩
  | .hbm, ⟨63, _⟩ => ⟨S10240x40, .f32⟩
  | .hbm, ⟨64, _⟩ => ⟨S10240x40, .bf16⟩
  | .hbm, ⟨65, _⟩ => ⟨S1x40, .f32⟩
  | .hbm, ⟨66, _⟩ => ⟨S10240x40, .f32⟩
  | .hbm, ⟨67, _⟩ => ⟨S10000x40, .f32⟩
  | .local _ .vmem, ⟨0, _⟩ => ⟨S1280x2048, .bf16⟩
  | .local _ .vmem, ⟨1, _⟩ => ⟨S1280x2048, .bf16⟩
  | .local _ .vmem, ⟨2, _⟩ => ⟨S2048x128, .bf16⟩
  | .local _ .vmem, ⟨3, _⟩ => ⟨S2048x128, .bf16⟩
  | .local _ .vmem, ⟨4, _⟩ => ⟨S1x128, .f32⟩
  | .local _ .vmem, ⟨5, _⟩ => ⟨S1280x128, .f32⟩
  | .local _ .vmem, ⟨6, _⟩ => ⟨S1280x128, .f32⟩
  | .local _ .vmem, ⟨7, _⟩ => ⟨S1280x128, .f32⟩
  | .local _ .vmem, ⟨8, _⟩ => ⟨S1280x2048, .bf16⟩
  | .local _ .vmem, ⟨9, _⟩ => ⟨S1280x2048, .bf16⟩
  | .local _ .vmem, ⟨10, _⟩ => ⟨S2048x40, .bf16⟩
  | .local _ .vmem, ⟨11, _⟩ => ⟨S2048x40, .bf16⟩
  | .local _ .vmem, ⟨12, _⟩ => ⟨S1x40, .f32⟩
  | .local _ .vmem, ⟨13, _⟩ => ⟨S1280x40, .f32⟩
  | .local _ .vmem, ⟨14, _⟩ => ⟨S1280x40, .f32⟩
  | .local _ .vmem, ⟨15, _⟩ => ⟨S1280x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_call1_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1280x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1280x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x40 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1280x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S10000_S650000_d0 : Shape.Concatenates [S640000, S10000] S650000 0
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S104857600 : S_.BroadcastsInDim S104857600 (![] : Fin 0 → Fin S104857600.rank)
  shapeCasts_S104857600_S10240x10240 : S104857600.ShapeCasts S10240x10240
  bitsLt_bf16_f32 : FTy.bits .bf16 < FTy.bits .f32
  pads_S10000x128_S10240x128_02400_000 : S10000x128.Pads (![0, 0] : Fin 2 → Nat) ![240, 0] ![0, 0] S10240x128
  h_S_ : 0 < S_.numel
  shapeCasts_S128_S1x128 : S128.ShapeCasts S1x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1280x128 : S1x128.Broadcasts S1280x128
  shapeCasts_S40_S1x40 : S40.ShapeCasts S1x40
  inb_S1280x40_S1280x40_0_0 : ∀ a, (![0, 0] : Fin 2 → Nat) a + S1280x40.size a ≤ S1280x40.size a
  h_S1280x40 : 0 < S1280x40.numel
  shapeCasts_S1280x40_S1280x40 : S1280x40.ShapeCasts S1280x40
  inb_S2048x40_S2048x40_0_0 : ∀ a, (![0, 0] : Fin 2 → Nat) a + S2048x40.size a ≤ S2048x40.size a
  h_S2048x40 : 0 < S2048x40.numel
  shapeCasts_S2048x40_S2048x40 : S2048x40.ShapeCasts S2048x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1280x40 : S1x40.Broadcasts S1280x40
  slices_S10240x40_S10000x40_0_0 : S10240x40.Slices ![0, 0] S10000x40
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S104857600_S650000x1_S650000_n_0_0_1_wf : ScatterDims.WF S104857600 S650000x1 S650000 [] [0] [0] 1
  dot_S10240x128_S128x128_S10240x128_1_0_0_1_n_n_wf : DotDims.WF S10240x128 S128x128 S10240x128 [1] [0] [0] [1] [] []
  dot_S1280x2048_S2048x128_S1280x128_1_0_0_1_n_n_wf : DotDims.WF S1280x2048 S2048x128 S1280x128 [1] [0] [0] [1] [] []
  dot_S10240x128_S128x40_S10240x40_1_0_0_1_n_n_wf : DotDims.WF S10240x128 S128x40 S10240x40 [1] [0] [0] [1] [] []
  dot_S1280x2048_S2048x40_S1280x40_1_0_0_1_n_n_wf : DotDims.WF S1280x2048 S2048x40 S1280x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1280x2048.size a ≤ S10240x10240.size a
  hwx0_0 : ∀ i : grid0.Coords, EltTy.bits .bf16 = 32 ∨ (Rect.block (s := S10240x10240) S1280x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S10240x128.size a
  hwx0_1 : ∀ i : grid0.Coords, EltTy.bits .bf16 = 32 ∨ (Rect.block (s := S10240x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1280x128.size a ≤ S10240x128.size a
  hwx0_3 : ∀ i : grid0.Coords, EltTy.bits .f32 = 32 ∨ (Rect.block (s := S10240x128) S1280x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1280x2048.size a ≤ S10240x10240.size a
  hwx1_0 : ∀ i : grid1.Coords, EltTy.bits .bf16 = 32 ∨ (Rect.block (s := S10240x10240) S1280x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x40.size a ≤ S10240x40.size a
  hwx1_1 : ∀ i : grid1.Coords, EltTy.bits .bf16 = 32 ∨ (Rect.block (s := S10240x40) S2048x40.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1280x40.size a ≤ S10240x40.size a
  hwx1_3 : ∀ i : grid1.Coords, EltTy.bits .f32 = 32 ∨ (Rect.block (s := S10240x40) S1280x40.size (cc1_transform_3 i) (hinb1_3 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S104857600_S650000x1_S650000_n_0_0_1 : ScatterDims S104857600 S650000x1 S650000 where
  updateWindowDims := []
  insertedWindowDims := [0]
  scatterDimsToOperandDims := [0]
  indexVectorDim := 1
  wf := scatter_S104857600_S650000x1_S650000_n_0_0_1_wf
def dot_S10240x128_S128x128_S10240x128_1_0_0_1_n_n : DotDims S10240x128 S128x128 S10240x128 where
  lhsContracting := [1]
  rhsContracting := [0]
  lhsNonContracting := [0]
  rhsNonContracting := [1]
  lhsBatch := []
  rhsBatch := []
  wf := dot_S10240x128_S128x128_S10240x128_1_0_0_1_n_n_wf
def dot_S1280x2048_S2048x128_S1280x128_1_0_0_1_n_n : DotDims S1280x2048 S2048x128 S1280x128 where
  lhsContracting := [1]
  rhsContracting := [0]
  lhsNonContracting := [0]
  rhsNonContracting := [1]
  lhsBatch := []
  rhsBatch := []
  wf := dot_S1280x2048_S2048x128_S1280x128_1_0_0_1_n_n_wf
def dot_S10240x128_S128x40_S10240x40_1_0_0_1_n_n : DotDims S10240x128 S128x40 S10240x40 where
  lhsContracting := [1]
  rhsContracting := [0]
  lhsNonContracting := [0]
  rhsNonContracting := [1]
  lhsBatch := []
  rhsBatch := []
  wf := dot_S10240x128_S128x40_S10240x40_1_0_0_1_n_n_wf
def dot_S1280x2048_S2048x40_S1280x40_1_0_0_1_n_n : DotDims S1280x2048 S2048x40 S1280x40 where
  lhsContracting := [1]
  rhsContracting := [0]
  lhsNonContracting := [0]
  rhsNonContracting := [1]
  lhsBatch := []
  rhsBatch := []
  wf := dot_S1280x2048_S2048x40_S1280x40_1_0_0_1_n_n_wf

abbrev win0_0 : Pipeline.Window sig grid0 :=
  Pipeline.Window.ofSpec (Memref.whole main_v37) S1280x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1280x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v37) S1280x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2048x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1280x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S10000x40 : Shape := ⟨2, ![10000, 40]⟩
abbrev S650000x40 : Shape := ⟨2, ![650000, 40]⟩
abbrev S1x40 : Shape := ⟨2, ![1, 40]⟩

abbrev nBuf : Space → Nat
  | .hbm => 89
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S10000, .i32⟩
  | .hbm, ⟨7, _⟩ => ⟨S1x640000, .i32⟩
  | .hbm, ⟨8, _⟩ => ⟨S640000, .i32⟩
  | .hbm, ⟨9, _⟩ => ⟨S650000, .i32⟩
  | .hbm, ⟨10, _⟩ => ⟨S1x640000, .i32⟩
  | .hbm, ⟨11, _⟩ => ⟨S640000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S10000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S10000x128, .f32⟩
  | .hbm, ⟨61, _⟩ => ⟨S650000x1, .i32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .f32⟩
  | .hbm, ⟨69, _⟩ => ⟨S10000x40, .f32⟩
  | .hbm, ⟨70, _⟩ => ⟨S_, .i32⟩
  | .hbm, ⟨71, _⟩ => ⟨S650000, .i32⟩
  | .hbm, ⟨72, _⟩ => ⟨S650000, .i1⟩
  | .hbm, ⟨73, _⟩ => ⟨S_, .i32⟩
  | .hbm, ⟨74, _⟩ => ⟨S650000, .i32⟩
  | .hbm, ⟨75, _⟩ => ⟨S650000, .i32⟩
  | .hbm, ⟨76, _⟩ => ⟨S650000, .i32⟩
  | .hbm, ⟨77, _⟩ => ⟨S650000x1, .i32⟩
  | .hbm, ⟨78, _⟩ => ⟨S650000x40, .f32⟩
  | .hbm, ⟨79, _⟩ => ⟨S650000x1, .f32⟩
  | .hbm, ⟨80, _⟩ => ⟨S650000x40, .f32⟩
  | .hbm, ⟨81, _⟩ => ⟨S650000x40, .f32⟩
  | .hbm, ⟨82, _⟩ => ⟨S_, .f32⟩
  | .hbm, ⟨83, _⟩ => ⟨S10000x40, .f32⟩
  | .hbm, ⟨84, _⟩ => ⟨S650000x1, .i32⟩
  | .hbm, ⟨85, _⟩ => ⟨S10000x40, .f32⟩
  | .hbm, ⟨86, _⟩ => ⟨S1x40, .f32⟩
  | .hbm, ⟨87, _⟩ => ⟨S10000x40, .f32⟩
  | .hbm, ⟨88, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S650000x1_S650000x40_0_1 : S650000x1.BroadcastsInDim S650000x40 (![0, 1] : Fin 2 → Fin S650000x40.rank)
  bcast_S_S10000x40 : S_.BroadcastsInDim S10000x40 (![] : Fin 0 → Fin S10000x40.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  dot_S10000x128_S128x40_S10000x40_1_0_0_1_n_n_wf : DotDims.WF S10000x128 S128x40 S10000x40 [1] [0] [0] [1] [] []
  gather_S10000x40_S650000x1_S650000x40_1_0_n_n_0_1_140_wf : GatherDims.WF S10000x40 S650000x1 S650000x40 [1] [0] [] [0] [] 1 ![1, 40]
  scatter_S10000x40_S650000x1_S650000x40_1_0_0_1_wf : ScatterDims.WF S10000x40 S650000x1 S650000x40 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S10000x40_S650000x1_S650000x40_1_0_n_n_0_1_140 : GatherDims S10000x40 S650000x1 S650000x40 where
  offsetDims := [1]
  collapsedSliceDims := [0]
  operandBatchingDims := []
  startIndicesBatchingDims := []
  startIndexMap := [0]
  indexVectorDim := 1
  sliceSizes := ![1, 40]
  wf := gather_S10000x40_S650000x1_S650000x40_1_0_n_n_0_1_140_wf
def scatter_S10000x40_S650000x1_S650000x40_1_0_0_1 : ScatterDims S10000x40 S650000x1 S650000x40 where
  updateWindowDims := [1]
  insertedWindowDims := [0]
  scatterDimsToOperandDims := [0]
  indexVectorDim := 1
  wf := scatter_S10000x40_S650000x1_S650000x40_1_0_0_1_wf

class Facts : Prop extends Facts₀ where

variable [Facts]
-- ==== Proof.BitsR0Defs.lean ====
/-
  Region 0 (the first aggregation call): what the proof data are stated over.  The grid is 8 × 5, point
  t = 5·i + k; the body adds the product of the adjacency block (i, k) with the feature block k to an
  accumulator kept in scratch (reset at k = 0) and, at k = 4, stores the accumulator plus the bias, passed
  through the call's last step (the payload of its output store), into the output block i.  Here: each window's block at a point, the accumulator after each point by recursion on
  the point, the output block, the invariant carrying the accumulator, and the proof data.
-/
import proofs.«429290_j51634096832829_1_alg».proof.Proof.Gen.Kernel.Launch
import proofs.«429290_j51634096832829_1_alg».proof.Proof.Gen.Kernel.Skeleton
import proofs.«429290_j51634096832829_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block, the feature block and the bias row at point t, at their literal types. -/
abbrev ablk (c : Dev nD) (t : Fin cfg0.N) : Vec F S1280x2048 .bf16 := iblk V c 0 t
abbrev hblk (c : Dev nD) (t : Fin cfg0.N) : Vec F S2048x128 .bf16 := iblk V c 1 t
abbrev bblk (c : Dev nD) (t : Fin cfg0.N) : Vec F S1x128 .f32 := iblk V c 2 t

/-- The accumulator after the body at point n: at a point with k = 0 the product added to the reset
    value, elsewhere added to what the point before left. -/
def acc (c : Dev nD) : (n : ℕ) → n < cfg0.N → Vec F S1280x128 .f32
  | 0, hn => k0_pay2 (k0_pay1 (F := F)) (ablk V c ⟨0, hn⟩) (hblk V c ⟨0, hn⟩)
  | n + 1, hn =>
    if (n + 1) % 5 = 0 then k0_pay2 (k0_pay1 (F := F)) (ablk V c ⟨n + 1, hn⟩) (hblk V c ⟨n + 1, hn⟩)
    else k0_pay2 (acc c n (Nat.lt_of_succ_lt hn)) (ablk V c ⟨n + 1, hn⟩) (hblk V c ⟨n + 1, hn⟩)

/-- The output block the body stores at a point with k = 4. -/
def outb (c : Dev nD) (t : Fin cfg0.N) : Vec F S1280x128 .f32 := k0_pay3 (acc V c t.val t.isLt) (bblk V c t)

/-- The scratch accumulator as a memref. -/
abbrev scM : Memref sig .tc .vmem S1280x128 .f32 := Memref.whole cc0_scratch0

/-- The scoped buffers of the other call (the pipeline of this call does not stage them), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The invariant before position n: at first the scoped rest at anything; afterwards the accumulator at
    what the point before left, the other call's buffers at anything; beside it the generator register. -/
def Phi (c : Dev nD) : (n : ℕ) → n ≤ cfg0.N → sProp 𝕄
  | 0, _ => Pipeline.ΦA spec0 c
  | n + 1, hn => iprop(iprop(owns (c : Thread nD τ) scM fullShare (acc V c n hn) ∗ others (F := F) c) ∗ (∃ r, prngReg c r))

/-- The proof data: the arrays as the region finds them; after the body each input's buffer at its block,
    the output's at `outb`; the invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outb V c t
  Φ t := Phi V c t.val (Nat.le_of_lt_succ t.isLt)
  q _ := fullShare
  owed _ := 0

end Cert.Kernel.R0

end
-- ==== Proof.BitsR0Body.lean ====
/-
  Region 0: the body obligation.  At every grid point the body, run on the point's staging buffers and the
  scratch accumulator, leaves each input's buffer at its block, the accumulator at `acc` of the point and, at a
  point with k = 4, the output's buffer at `outb`; elsewhere the output's buffer is handed back untouched.
-/
import proofs.«429290_j51634096832829_1_alg».proof.Proof.BitsR0Defs
import Idealize.ShloMosaic.Lib.Pipeline.Value

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq (c : Dev nD) (w : Fin cfg0.W) : (dat V c).A w = V c (Pipeline.arrRef spec0 w) := by
  dsimp only [dat]

/-! ## The body's two conditions, in closed form -/

/-- The condition of the accumulator's reset (the first conditional), from the grid coordinates. -/
abbrev condReset (i : grid0.Coords) : Prop := (Scalar.cmpi .ne (Scalar.extui (Scalar.cmpi .eq (BitVec.ofNat 32 (i 1).val) 0#32)) 0#32) = 1#1
/-- It holds at the points with k = 0. -/
theorem hcondReset : ∀ t : Fin cfg0.N, condReset (grid0.coords t) ↔ t.val % 5 = 0 :=
  (by decide +kernel : ∀ t : Fin grid0.N, condReset (grid0.coords t) ↔ t.val % 5 = 0)
/-- The condition of the output's store (the second conditional). -/
abbrev condLast (i : grid0.Coords) : Prop := k0_cond2 i = 1#1
/-- It holds at the points with k = 4. -/
theorem hcondLast : ∀ t : Fin cfg0.N, condLast (grid0.coords t) ↔ t.val % 5 = 4 :=
  (by decide +kernel : ∀ t : Fin grid0.N, condLast (grid0.coords t) ↔ t.val % 5 = 4)

/-! ## Whole-buffer accesses -/

/-- The whole-buffer rectangle's offsets are zero. -/
theorem off0 : (![0, 0] : Fin 2 → ℕ) = fun _ => 0 := funext fun a => by fin_cases a <;> rfl

/-- What a buffer reads as after a last store through the whole-buffer rectangle, whatever was stored before: the payload. -/
theorem read_store {κ : Kind} {sp : Space} {S : Shape} {e : EltTy} (v : View sig κ sp S e) {off : Fin S.rank → ℕ} (h : off = fun _ => 0)
    (inb : ∀ a, off a + S.size a ≤ S.size a) (f : BufTy.Contents (Elt F) v.ty) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h]

/-- What a load through the whole-buffer rectangle reads: the contents. -/
theorem readAt_whole {κ : Kind} {sp : Space} {S : Shape} {e : EltTy} (v : View sig κ sp S e) {off : Fin S.rank → ℕ} (h : off = fun _ => 0)
    (inb : ∀ a, off a + S.size a ≤ S.size a) (f : BufTy.Contents (Elt F) v.ty) :
    View.readAt (Elt F) v (Rect.unit off S.size inb).toLoadRect f = v.read (Elt F) f := by
  rw [View.readAt_eq_ld, View.ld_unit_zero h]

/-! ## The body on any whole memrefs, case by case

On whole memrefs — the adjacency and feature buffers at contents a and h, the accumulator at s —, the kernel function
at coordinates with the case's conditions runs to the continuation with the accumulator at the product added to s
(to the reset value in case A, whatever it held) and, in case C, the output buffer at the output payload of that and the
bias row b; the buffers it only reads are handed back as they were, and in cases A and B it touches neither the bias
nor the output buffer. -/

theorem run_B (c : Dev nD) (i : grid0.Coords) (arg2 : Memref sig .tc .vmem S1280x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole)
    (hc0 : ¬condReset i) (hc1 : ¬condLast i)
    (a : Vec F S1280x2048 .bf16) (h : Vec F S2048x128 .bf16) (s : Vec F S1280x128 .f32) (E : Set ℕ) (K : PUnit → sProp 𝕄) :
    iprop(owns (c : Thread nD τ) arg2 fullShare a ∗ owns (c : Thread nD τ) arg3 fullShare h ∗ owns (c : Thread nD τ) arg6 fullShare s
        ∗ (iprop(owns (c : Thread nD τ) arg2 fullShare a ∗ owns (c : Thread nD τ) arg3 fullShare h ∗ owns (c : Thread nD τ) arg6 fullShare (k0_pay2 s a h)) -∗ K ⟨⟩))
      ⊢ wp frame (wpE (defs₀ (F := F)) Variants.none c none) E (cc0_gcn_aggregate_kernel i arg2 harg2 arg3 harg3 arg4 harg4 arg5 harg5 arg6 harg6) K := by
  simp only [cc0_gcn_aggregate_kernel_eq_skeleton]; unfold cc0_gcn_aggregate_kernel_skel
  unfold owns
  iintro ⟨⟨%f2, %hf2, H2⟩, ⟨%f3, %hf3, H3⟩, ⟨%f6, %hf6, H6⟩, Hk⟩
  subst hf2 hf3 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  rw [read_store _ off0, readAt_whole _ off0, readAt_whole _ off0, readAt_whole _ off0]

theorem run_A (c : Dev nD) (i : grid0.Coords) (arg2 : Memref sig .tc .vmem S1280x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole)
    (hc0 : condReset i) (hc1 : ¬condLast i)
    (a : Vec F S1280x2048 .bf16) (h : Vec F S2048x128 .bf16) (E : Set ℕ) (K : PUnit → sProp 𝕄) :
    iprop(owns (c : Thread nD τ) arg2 fullShare a ∗ owns (c : Thread nD τ) arg3 fullShare h ∗ (∃ s, owns (c : Thread nD τ) arg6 fullShare s)
        ∗ (iprop(owns (c : Thread nD τ) arg2 fullShare a ∗ owns (c : Thread nD τ) arg3 fullShare h ∗ owns (c : Thread nD τ) arg6 fullShare (k0_pay2 (k0_pay1 (F := F)) a h)) -∗ K ⟨⟩))
      ⊢ wp frame (wpE (defs₀ (F := F)) Variants.none c none) E (cc0_gcn_aggregate_kernel i arg2 harg2 arg3 harg3 arg4 harg4 arg5 harg5 arg6 harg6) K := by
  simp only [cc0_gcn_aggregate_kernel_eq_skeleton]; unfold cc0_gcn_aggregate_kernel_skel
  unfold owns
  iintro ⟨⟨%f2, %hf2, H2⟩, ⟨%f3, %hf3, H3⟩, ⟨%s, %f6, -, H6⟩, Hk⟩
  subst hf2 hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  sl_unfold_run_names
  rw [read_store _ off0, View.readCov_unit_zero _ off0, readAt_whole _ off0, readAt_whole _ off0]

theorem run_C (c : Dev nD) (i : grid0.Coords) (arg2 : Memref sig .tc .vmem S1280x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole)
    (hc0 : ¬condReset i) (hc1 : condLast i)
    (a : Vec F S1280x2048 .bf16) (h : Vec F S2048x128 .bf16) (b : Vec F S1x128 .f32) (s : Vec F S1280x128 .f32) (E : Set ℕ) (K : PUnit → sProp 𝕄) :
    iprop(owns (c : Thread nD τ) arg2 fullShare a ∗ owns (c : Thread nD τ) arg3 fullShare h ∗ owns (c : Thread nD τ) arg4 fullShare b
        ∗ (∃ d, owns (c : Thread nD τ) arg5 fullShare d) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k0_pay3 (k0_pay2 s a h) b) ∗ owns (c : Thread nD τ) arg6 fullShare (k0_pay2 s a h)) -∗ K ⟨⟩))
      ⊢ wp frame (wpE (defs₀ (F := F)) Variants.none c none) E (cc0_gcn_aggregate_kernel i arg2 harg2 arg3 harg3 arg4 harg4 arg5 harg5 arg6 harg6) K := by
  simp only [cc0_gcn_aggregate_kernel_eq_skeleton]; unfold cc0_gcn_aggregate_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store _ off0, View.readCov_unit_zero _ off0, readAt_whole _ off0, readAt_whole _ off0, readAt_whole _ off0, readAt_whole _ off0]
  iexists _; isplitr
  swap; · iexact H6
  ipureintro
  sl_unfold_run_names
  rw [read_store _ off0, readAt_whole _ off0, readAt_whole _ off0, readAt_whole _ off0]

/-! ## The accumulator, point by point -/

/-- At a point with k = 0 the accumulator is the product added to the reset value. -/
theorem acc_reset (c : Dev nD) (t : Fin cfg0.N) (h0 : t.val % 5 = 0) :
    acc V c t.val t.isLt = k0_pay2 (k0_pay1 (F := F)) (ablk V c t) (hblk V c t) := by
  obtain ⟨n, hn⟩ := t
  cases n with
  | zero => rfl
  | succ n => exact if_pos h0

/-- At a point with k ≠ 0 it is the product added to what the point before left. -/
theorem acc_step (c : Dev nD) (t : Fin cfg0.N) (h0 : ¬t.val % 5 = 0) :
    acc V c t.val t.isLt
      = k0_pay2 (acc V c (t.val - 1) (Nat.lt_of_le_of_lt (Nat.sub_le _ _) t.isLt)) (ablk V c t) (hblk V c t) := by
  obtain ⟨n, hn⟩ := t
  cases n with
  | zero => exact absurd (Nat.zero_mod _) h0
  | succ n => exact if_neg h0

/-! ## The invariant, point by point -/

theorem Phi_zero (c : Dev nD) (n : ℕ) (h : n ≤ cfg0.N) (hz : n = 0) : Phi V c n h = Pipeline.ΦA spec0 c := by
  subst hz; rfl

/-- After point n: the accumulator at that point's contents. -/
theorem Phi_succ (c : Dev nD) (n : ℕ) (hn : n < cfg0.N) :
    Phi V c (n + 1) hn = iprop(iprop(owns (c : Thread nD τ) scM fullShare (acc V c n hn) ∗ others (F := F) c) ∗ (∃ r, prngReg c r)) := rfl

/-- Before a point that is not the first: the accumulator at what the point before left. -/
theorem Phi_pos (c : Dev nD) (n : ℕ) (h : n ≤ cfg0.N) (hz : n ≠ 0) :
    Phi V c n h = iprop(iprop(owns (c : Thread nD τ) scM fullShare (acc V c (n - 1) (by omega)) ∗ others (F := F) c) ∗ (∃ r, prngReg c r)) := by
  cases n with
  | zero => exact absurd rfl hz
  | succ n => rfl

/-- The invariant at a point's start, restated at the point's position. -/
theorem Phi_castSucc (c : Dev nD) (t : Fin cfg0.N) :
    (dat V c).Φ t.castSucc = Phi V c t.val (Nat.le_of_lt t.isLt) := by
  dsimp only [dat]; simp only [Fin.coe_castSucc]

/-- What the launch hands the region yields the accumulator as a memref owned at some contents, the other call's buffers
    and the generator register. -/
theorem PhiA_elim (c : Dev nD) :
    (Pipeline.ΦA spec0 c : sProp 𝕄)
      ⊢ iprop(iprop((∃ d, owns (c : Thread nD τ) scM fullShare d) ∗ others (F := F) c) ∗ (∃ r, prngReg c r)) := by
  unfold Pipeline.ΦA others; rw [scopedRest0_eq]; simp only [scM, owns_whole]
  iintro ⟨⟨H1, H2, H3, H4, H5, H6, H7, H8, H9⟩, Hg⟩
  iframe

/-! ## The windows at a point -/

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outb V c t := by dsimp only [dat]

/-- Each input's current staging buffer holds its block at every point, fetched there or not: unfetched, the block
    index has not moved. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The inputs are never idle; the output is idle, and not written back, exactly at the points with k ≠ 4. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, condLast (grid0.coords t) → cfg0.idle 3 (grid0.coords t) = false := by decide +kernel
theorem idle_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel

/-- Each window's current staging memref at point t, spelled as the pipeline passes it. -/
abbrev msA (t : Fin cfg0.N) : Memref sig .tc .vmem S1280x2048 .bf16 := win0_0.stage (cfg0.slots t 0)
abbrev msH (t : Fin cfg0.N) : Memref sig .tc .vmem S2048x128 .bf16 := win0_1.stage (cfg0.slots t 1)
abbrev msB (t : Fin cfg0.N) : Memref sig .tc .vmem S1x128 .f32 := win0_2.stage (cfg0.slots t 2)
abbrev msO (t : Fin cfg0.N) : Memref sig .tc .vmem S1280x128 .f32 := win0_3.stage (cfg0.slots t 3)

/-- What the obligation asks of each input's buffer: its block. -/
theorem leaves_0 (c : Dev nD) (t : Fin cfg0.N) : (dat V c).leavesExact 0 t = owns (c : Thread nD τ) (msA t) fullShare (iblk V c 0 t) := by
  unfold Dat.leavesExact; rw [live_0 t, after_0]
theorem leaves_1 (c : Dev nD) (t : Fin cfg0.N) : (dat V c).leavesExact 1 t = owns (c : Thread nD τ) (msH t) fullShare (iblk V c 1 t) := by
  unfold Dat.leavesExact; rw [live_1 t, after_1]
theorem leaves_2 (c : Dev nD) (t : Fin cfg0.N) : (dat V c).leavesExact 2 t = owns (c : Thread nD τ) (msB t) fullShare (iblk V c 2 t) := by
  unfold Dat.leavesExact; rw [live_2 t, after_2]
/-- And of the output's at a point with k = 4: the output block. -/
theorem leaves_3 (c : Dev nD) (t : Fin cfg0.N) (h : condLast (grid0.coords t)) :
    (dat V c).leavesExact 3 t = owns (c : Thread nD τ) (msO t) fullShare (outb V c t) := by
  unfold Dat.leavesExact; rw [live_3 t h, after_3]

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (msA t) fullShare ((dat V c).before 0 t d))
    ∗ (∃ d, owns (c : Thread nD τ) (msH t) fullShare ((dat V c).before 1 t d))
    ∗ (∃ d, owns (c : Thread nD τ) (msB t) fullShare ((dat V c).before 2 t d))
    ∗ (∃ d, owns (c : Thread nD τ) (msO t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 1600000 in
/-- The body at any point. The inputs' memrefs hold their blocks; k = t mod 5 says which case the point is in; the
    invariant hands the body the accumulator at what the point before left (at anything at the first point) and takes
    it back at this point's contents; at k = 4 the output's buffer ends at the output block, elsewhere it is handed
    back untouched; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2, Phi_castSucc]
  have hN : t.val < 40 := lt_of_lt_of_eq t.isLt (show cfg0.N = 40 from N_0)
  by_cases h0 : t.val % 5 = 0
  · have hc0 : condReset (grid0.coords t) := (hcondReset t).mpr h0
    have hc1 : ¬condLast (grid0.coords t) := fun h => by have := (hcondLast t).mp h; omega
    rw [Dat.leavesExact_idle (dat V c) 3 t (idle_3 t hc1) (noFlush_3 t hc1), acc_reset V c t h0]
    by_cases hz : t.val = 0
    · rw [Phi_zero V c _ _ hz]
      iintro ⟨HP, Ho, ⟨%d0, H0⟩, ⟨%d1, H1⟩, H2, H3⟩
      ihave ⟨⟨HS, HR⟩, Hg⟩ := (PhiA_elim (F := F) c) $$ HP
      iapply (run_A c (grid0.coords t) _ _ _ _ _ _ _ _ _ _ hc0 hc1 (ablk V c t) (hblk V c t) Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3
    · rw [Phi_pos V c _ _ hz]
      iintro ⟨⟨⟨HS, HR⟩, Hg⟩, Ho, ⟨%d0, H0⟩, ⟨%d1, H1⟩, H2, H3⟩
      iapply (run_A c (grid0.coords t) _ _ _ _ _ _ _ _ _ _ hc0 hc1 (ablk V c t) (hblk V c t) Set.univ _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3
  · have hc0 : ¬condReset (grid0.coords t) := fun h => h0 ((hcondReset t).mp h)
    have hz : t.val ≠ 0 := fun e => h0 (by rw [e])
    rw [Phi_pos V c _ _ hz, acc_step V c t h0]
    by_cases h1 : t.val % 5 = 4
    · have hc1 : condLast (grid0.coords t) := (hcondLast t).mpr h1
      rw [leaves_3 V c t hc1]
      unfold outb
      rw [acc_step V c t h0]
      iintro ⟨⟨⟨HS, HR⟩, Hg⟩, Ho, ⟨%d0, H0⟩, ⟨%d1, H1⟩, ⟨%d2, H2⟩, ⟨%d3, H3⟩⟩
      iapply (run_C c (grid0.coords t) _ _ _ _ _ _ _ _ _ _ hc0 hc1 (ablk V c t) (hblk V c t) (bblk V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬condLast (grid0.coords t) := fun h => h1 ((hcondLast t).mp h)
      rw [Dat.leavesExact_idle (dat V c) 3 t (idle_3 t hc1) (noFlush_3 t hc1)]
      iintro ⟨⟨⟨HS, HR⟩, Hg⟩, Ho, ⟨%d0, H0⟩, ⟨%d1, H1⟩, H2, H3⟩
      iapply (run_B c (grid0.coords t) _ _ _ _ _ _ _ _ _ _ hc0 hc1 (ablk V c t) (hblk V c t) _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3

/-- The body obligation at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.BitsR0Phi.lean ====
/-
  Region 0: the invariant's two ends.  Before the first point it is the scoped rest at anything (what the
  launch hands over); after the last point the accumulator's named contents are forgotten and the scoped rest
  at anything is given back.
-/
import proofs.«429290_j51634096832829_1_alg».proof.Proof.BitsR0Defs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before a point that is not the first: the accumulator at what the point before left, the other call's
    buffers at anything, the generator register at some state. -/
private theorem Phi_pos (c : Dev nD) (n : ℕ) (h : n ≤ cfg0.N) (hz : n ≠ 0) :
    Phi V c n h = iprop(iprop(owns (c : Thread nD τ) scM fullShare (acc V c (n - 1) (by omega)) ∗ others (F := F) c) ∗ (∃ r, prngReg c r)) := by
  cases n with
  | zero => exact absurd rfl hz
  | succ n => rfl

theorem hin (c : Dev nD) : (Pipeline.ΦA spec0 c : sProp 𝕄) ⊢ (dat V c).Φ 0 := by
  rw [show (dat V c).Φ 0 = Phi V c 0 (Nat.zero_le _) from rfl]
  exact Idealize.SL.BI.Entails.refl _

/-- After any point but the first the invariant gives the scoped rest at anything back: the accumulator is the
    first of the scoped buffers no window stages, the other call's eight follow it. -/
private theorem Phi_out (c : Dev nD) (t : Fin (cfg0.N + 1)) (ht : t.val ≠ 0) : (dat V c).Φ t ⊢ (Pipeline.ΦA spec0 c : sProp 𝕄) := by
  rw [show (dat V c).Φ t = Phi V c t.val (Nat.le_of_lt_succ t.isLt) from rfl, Phi_pos V c _ _ ht]
  unfold Pipeline.ΦA
  rw [scopedRest0_eq]
  unfold others
  simp only [scM, owns_whole]
  iintro ⟨⟨HS, Ho⟩, Hg⟩
  isplitl [HS Ho]
  · isplitl [HS]
    · iexists _; iexact HS
    iexact Ho
  iexact Hg

theorem hout (c : Dev nD) : (dat V c).Φ (Fin.last cfg0.N) ⊢ (Pipeline.ΦA spec0 c : sProp 𝕄) :=
  Phi_out V c _ (by rw [Fin.val_last]; have : cfg0.N = 40 := N_0; omega)

end Cert.Kernel.R0

end
-- ==== Proof.BitsR1Defs.lean ====
/-
  Region 1 (the second aggregation call): what the proof data are stated over.  The grid is 8 × 5, point
  t = 5·i + k; the body adds the product of the adjacency block (i, k) with the feature block k to an
  accumulator kept in scratch (reset at k = 0) and, at k = 4, stores the accumulator plus the bias, passed
  through the call's last step (the payload of its output store), into the output block i.  Here: each window's block at a point, the accumulator after each point by recursion on
  the point, the output block, the invariant carrying the accumulator, and the proof data.
-/
import proofs.«429290_j51634096832829_1_alg».proof.Proof.Gen.Kernel.Launch
import proofs.«429290_j51634096832829_1_alg».proof.Proof.Gen.Kernel.Skeleton
import proofs.«429290_j51634096832829_1_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block, the feature block and the bias row at point t, at their literal types. -/
abbrev ablk (c : Dev nD) (t : Fin cfg1.N) : Vec F S1280x2048 .bf16 := iblk V c 0 t
abbrev hblk (c : Dev nD) (t : Fin cfg1.N) : Vec F S2048x40 .bf16 := iblk V c 1 t
abbrev bblk (c : Dev nD) (t : Fin cfg1.N) : Vec F S1x40 .f32 := iblk V c 2 t

/-- The accumulator after the body at point n: at a point with k = 0 the product added to the reset
    value, elsewhere added to what the point before left. -/
def acc (c : Dev nD) : (n : ℕ) → n < cfg1.N → Vec F S1280x40 .f32
  | 0, hn => k1_pay2 (k1_pay1 (F := F)) (ablk V c ⟨0, hn⟩) (hblk V c ⟨0, hn⟩)
  | n + 1, hn =>
    if (n + 1) % 5 = 0 then k1_pay2 (k1_pay1 (F := F)) (ablk V c ⟨n + 1, hn⟩) (hblk V c ⟨n + 1, hn⟩)
    else k1_pay2 (acc c n (Nat.lt_of_succ_lt hn)) (ablk V c ⟨n + 1, hn⟩) (hblk V c ⟨n + 1, hn⟩)

/-- The output block the body stores at a point with k = 4. -/
def outb (c : Dev nD) (t : Fin cfg1.N) : Vec F S1280x40 .f32 := k1_pay3 (acc V c t.val t.isLt) (bblk V c t)

/-- The scratch accumulator as a memref. -/
abbrev scM : Memref sig .tc .vmem S1280x40 .f32 := Memref.whole cc1_scratch0

/-- The scoped buffers of the other call (the pipeline of this call does not stage them), each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The invariant before position n: at first the scoped rest at anything; afterwards the accumulator at
    what the point before left, the other call's buffers at anything; beside it the generator register. -/
def Phi (c : Dev nD) : (n : ℕ) → n ≤ cfg1.N → sProp 𝕄
  | 0, _ => Pipeline.ΦA spec1 c
  | n + 1, hn => iprop(iprop(owns (c : Thread nD τ) scM fullShare (acc V c n hn) ∗ others (F := F) c) ∗ (∃ r, prngReg c r))

/-- The proof data: the arrays as the region finds them; after the body each input's buffer at its block,
    the output's at `outb`; the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outb V c t
  Φ t := Phi V c t.val (Nat.le_of_lt_succ t.isLt)
  q _ := fullShare
  owed _ := 0

end Cert.Kernel.R1

end
-- ==== Proof.BitsR1Body.lean ====
/-
  Region 1: the body obligation.  At every grid point the body, run on the point's staging buffers and the
  scratch accumulator, leaves each input's buffer at its block, the accumulator at `acc` of the point and, at a
  point with k = 4, the output's buffer at `outb`; elsewhere the output's buffer is handed back untouched.
-/
import proofs.«429290_j51634096832829_1_alg».proof.Proof.BitsR1Defs
import Idealize.ShloMosaic.Lib.Pipeline.Value

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq (c : Dev nD) (w : Fin cfg1.W) : (dat V c).A w = V c (Pipeline.arrRef spec1 w) := by
  dsimp only [dat]

/-! ## The body's two conditions, in closed form -/

/-- The condition of the accumulator's reset (the first conditional), from the grid coordinates. -/
abbrev condReset (i : grid1.Coords) : Prop := (Scalar.cmpi .ne (Scalar.extui (Scalar.cmpi .eq (BitVec.ofNat 32 (i 1).val) 0#32)) 0#32) = 1#1
/-- It holds at the points with k = 0. -/
theorem hcondReset : ∀ t : Fin cfg1.N, condReset (grid1.coords t) ↔ t.val % 5 = 0 :=
  (by decide +kernel : ∀ t : Fin grid1.N, condReset (grid1.coords t) ↔ t.val % 5 = 0)
/-- The condition of the output's store (the second conditional). -/
abbrev condLast (i : grid1.Coords) : Prop := k1_cond2 i = 1#1
/-- It holds at the points with k = 4. -/
theorem hcondLast : ∀ t : Fin cfg1.N, condLast (grid1.coords t) ↔ t.val % 5 = 4 :=
  (by decide +kernel : ∀ t : Fin grid1.N, condLast (grid1.coords t) ↔ t.val % 5 = 4)

/-! ## Whole-buffer accesses -/

/-- The whole-buffer rectangle's offsets are zero. -/
theorem off0 : (![0, 0] : Fin 2 → ℕ) = fun _ => 0 := funext fun a => by fin_cases a <;> rfl

/-- What a buffer reads as after a last store through the whole-buffer rectangle, whatever was stored before: the payload. -/
theorem read_store {κ : Kind} {sp : Space} {S : Shape} {e : EltTy} (v : View sig κ sp S e) {off : Fin S.rank → ℕ} (h : off = fun _ => 0)
    (inb : ∀ a, off a + S.size a ≤ S.size a) (f : BufTy.Contents (Elt F) v.ty) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h]

/-- What a load through the whole-buffer rectangle reads: the contents. -/
theorem readAt_whole {κ : Kind} {sp : Space} {S : Shape} {e : EltTy} (v : View sig κ sp S e) {off : Fin S.rank → ℕ} (h : off = fun _ => 0)
    (inb : ∀ a, off a + S.size a ≤ S.size a) (f : BufTy.Contents (Elt F) v.ty) :
    View.readAt (Elt F) v (Rect.unit off S.size inb).toLoadRect f = v.read (Elt F) f := by
  rw [View.readAt_eq_ld, View.ld_unit_zero h]

/-! ## The body on any whole memrefs, case by case

On whole memrefs — the adjacency and feature buffers at contents a and h, the accumulator at s —, the kernel function
at coordinates with the case's conditions runs to the continuation with the accumulator at the product added to s
(to the reset value in case A, whatever it held) and, in case C, the output buffer at the output payload of that and the
bias row b; the buffers it only reads are handed back as they were, and in cases A and B it touches neither the bias
nor the output buffer. -/

theorem run_B (c : Dev nD) (i : grid1.Coords) (arg2 : Memref sig .tc .vmem S1280x2048 .bf16) (harg2 : arg2.IsWhole) (arg3 : Memref sig .tc .vmem S2048x40 .bf16) (harg3 : arg3.IsWhole) (arg4 : Memref sig .tc .vmem S1x40 .f32) (harg4 : arg4.IsWhole) (arg5 : Memref sig .tc .vmem S1280x40 .f32) (harg5 : arg5.IsWhole) (arg6 : Memref sig .tc .vmem S1280x40 .f32) (harg6 : arg6.IsWhole)
    (hc0 : ¬condReset i) (hc1 : ¬condLast i)
    (a : Vec F S1280x2048 .bf16) (h : Vec F S2048x40 .bf16) (s : Vec F S1280x40 .f32) (E : Set ℕ) (K : PUnit → sProp 𝕄) :
    iprop(owns (c : Thread nD τ) arg2 fullShare a ∗ owns (c : Thread nD τ) arg3 fullShare h ∗ owns (c : Thread nD τ) arg6 fullShare s
        ∗ (iprop(owns (c : Thread nD τ) arg2 fullShare a ∗ owns (c : Thread nD τ) arg3 fullShare h ∗ owns (c : Thread nD τ) arg6 fullShare (k1_pay2 s a h)) -∗ K ⟨⟩))
      ⊢ wp frame (wpE (defs₀ (F := F)) Variants.none c none) E (cc1_gcn_aggregate_kernel i arg2 harg2 arg3 harg3 arg4 harg4 arg5 harg5 arg6 harg6) K := by
  simp only [cc1_gcn_aggregate_kernel_eq_skeleton]; unfold cc1_gcn_aggregate_kernel_skel
  unfold owns
  iintro ⟨⟨%f2, %hf2, H2⟩, ⟨%f3, %hf3, H3⟩, ⟨%f6, %hf6, H6⟩, Hk⟩
  subst hf2 hf3 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  rw [read_store _ off0, readAt_whole _ off0, readAt_whole _ off0, readAt_whole _ off0]

theorem run_A (c : Dev nD) (i : grid1.Coords) (arg2 : Memref sig .tc .vmem S1280x2048 .bf16) (harg2 : arg2.IsWhole) (arg3 : Memref sig .tc .vmem S2048x40 .bf16) (harg3 : arg3.IsWhole) (arg4 : Memref sig .tc .vmem S1x40 .f32) (harg4 : arg4.IsWhole) (arg5 : Memref sig .tc .vmem S1280x40 .f32) (harg5 : arg5.IsWhole) (arg6 : Memref sig .tc .vmem S1280x40 .f32) (harg6 : arg6.IsWhole)
    (hc0 : condReset i) (hc1 : ¬condLast i)
    (a : Vec F S1280x2048 .bf16) (h : Vec F S2048x40 .bf16) (E : Set ℕ) (K : PUnit → sProp 𝕄) :
    iprop(owns (c : Thread nD τ) arg2 fullShare a ∗ owns (c : Thread nD τ) arg3 fullShare h ∗ (∃ s, owns (c : Thread nD τ) arg6 fullShare s)
        ∗ (iprop(owns (c : Thread nD τ) arg2 fullShare a ∗ owns (c : Thread nD τ) arg3 fullShare h ∗ owns (c : Thread nD τ) arg6 fullShare (k1_pay2 (k1_pay1 (F := F)) a h)) -∗ K ⟨⟩))
      ⊢ wp frame (wpE (defs₀ (F := F)) Variants.none c none) E (cc1_gcn_aggregate_kernel i arg2 harg2 arg3 harg3 arg4 harg4 arg5 harg5 arg6 harg6) K := by
  simp only [cc1_gcn_aggregate_kernel_eq_skeleton]; unfold cc1_gcn_aggregate_kernel_skel
  unfold owns
  iintro ⟨⟨%f2, %hf2, H2⟩, ⟨%f3, %hf3, H3⟩, ⟨%s, %f6, -, H6⟩, Hk⟩
  subst hf2 hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  sl_unfold_run_names
  rw [read_store _ off0, View.readCov_unit_zero _ off0, readAt_whole _ off0, readAt_whole _ off0]

theorem run_C (c : Dev nD) (i : grid1.Coords) (arg2 : Memref sig .tc .vmem S1280x2048 .bf16) (harg2 : arg2.IsWhole) (arg3 : Memref sig .tc .vmem S2048x40 .bf16) (harg3 : arg3.IsWhole) (arg4 : Memref sig .tc .vmem S1x40 .f32) (harg4 : arg4.IsWhole) (arg5 : Memref sig .tc .vmem S1280x40 .f32) (harg5 : arg5.IsWhole) (arg6 : Memref sig .tc .vmem S1280x40 .f32) (harg6 : arg6.IsWhole)
    (hc0 : ¬condReset i) (hc1 : condLast i)
    (a : Vec F S1280x2048 .bf16) (h : Vec F S2048x40 .bf16) (b : Vec F S1x40 .f32) (s : Vec F S1280x40 .f32) (E : Set ℕ) (K : PUnit → sProp 𝕄) :
    iprop(owns (c : Thread nD τ) arg2 fullShare a ∗ owns (c : Thread nD τ) arg3 fullShare h ∗ owns (c : Thread nD τ) arg4 fullShare b
        ∗ (∃ d, owns (c : Thread nD τ) arg5 fullShare d) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k1_pay3 (k1_pay2 s a h) b) ∗ owns (c : Thread nD τ) arg6 fullShare (k1_pay2 s a h)) -∗ K ⟨⟩))
      ⊢ wp frame (wpE (defs₀ (F := F)) Variants.none c none) E (cc1_gcn_aggregate_kernel i arg2 harg2 arg3 harg3 arg4 harg4 arg5 harg5 arg6 harg6) K := by
  simp only [cc1_gcn_aggregate_kernel_eq_skeleton]; unfold cc1_gcn_aggregate_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store _ off0, View.readCov_unit_zero _ off0, readAt_whole _ off0, readAt_whole _ off0, readAt_whole _ off0, readAt_whole _ off0]
  iexists _; isplitr
  swap; · iexact H6
  ipureintro
  sl_unfold_run_names
  rw [read_store _ off0, readAt_whole _ off0, readAt_whole _ off0, readAt_whole _ off0]

/-! ## The accumulator, point by point -/

/-- At a point with k = 0 the accumulator is the product added to the reset value. -/
theorem acc_reset (c : Dev nD) (t : Fin cfg1.N) (h0 : t.val % 5 = 0) :
    acc V c t.val t.isLt = k1_pay2 (k1_pay1 (F := F)) (ablk V c t) (hblk V c t) := by
  obtain ⟨n, hn⟩ := t
  cases n with
  | zero => rfl
  | succ n => exact if_pos h0

/-- At a point with k ≠ 0 it is the product added to what the point before left. -/
theorem acc_step (c : Dev nD) (t : Fin cfg1.N) (h0 : ¬t.val % 5 = 0) :
    acc V c t.val t.isLt
      = k1_pay2 (acc V c (t.val - 1) (Nat.lt_of_le_of_lt (Nat.sub_le _ _) t.isLt)) (ablk V c t) (hblk V c t) := by
  obtain ⟨n, hn⟩ := t
  cases n with
  | zero => exact absurd (Nat.zero_mod _) h0
  | succ n => exact if_neg h0

/-! ## The invariant, point by point -/

theorem Phi_zero (c : Dev nD) (n : ℕ) (h : n ≤ cfg1.N) (hz : n = 0) : Phi V c n h = Pipeline.ΦA spec1 c := by
  subst hz; rfl

/-- After point n: the accumulator at that point's contents. -/
theorem Phi_succ (c : Dev nD) (n : ℕ) (hn : n < cfg1.N) :
    Phi V c (n + 1) hn = iprop(iprop(owns (c : Thread nD τ) scM fullShare (acc V c n hn) ∗ others (F := F) c) ∗ (∃ r, prngReg c r)) := rfl

/-- Before a point that is not the first: the accumulator at what the point before left. -/
theorem Phi_pos (c : Dev nD) (n : ℕ) (h : n ≤ cfg1.N) (hz : n ≠ 0) :
    Phi V c n h = iprop(iprop(owns (c : Thread nD τ) scM fullShare (acc V c (n - 1) (by omega)) ∗ others (F := F) c) ∗ (∃ r, prngReg c r)) := by
  cases n with
  | zero => exact absurd rfl hz
  | succ n => rfl

/-- The invariant at a point's start, restated at the point's position. -/
theorem Phi_castSucc (c : Dev nD) (t : Fin cfg1.N) :
    (dat V c).Φ t.castSucc = Phi V c t.val (Nat.le_of_lt t.isLt) := by
  dsimp only [dat]; simp only [Fin.coe_castSucc]

/-- What the launch hands the region yields the accumulator as a memref owned at some contents, the other call's buffers
    and the generator register. -/
theorem PhiA_elim (c : Dev nD) :
    (Pipeline.ΦA spec1 c : sProp 𝕄)
      ⊢ iprop(iprop((∃ d, owns (c : Thread nD τ) scM fullShare d) ∗ others (F := F) c) ∗ (∃ r, prngReg c r)) := by
  unfold Pipeline.ΦA others; rw [scopedRest1_eq]; simp only [scM, owns_whole]
  iintro ⟨⟨H1, H2, H3, H4, H5, H6, H7, H8, H9⟩, Hg⟩
  iframe

/-! ## The windows at a point -/

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outb V c t := by dsimp only [dat]

/-- Each input's current staging buffer holds its block at every point, fetched there or not: unfetched, the block
    index has not moved. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The inputs are never idle; the output is idle, and not written back, exactly at the points with k ≠ 4. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, condLast (grid1.coords t) → cfg1.idle 3 (grid1.coords t) = false := by decide +kernel
theorem idle_3 : ∀ t : Fin cfg1.N, ¬condLast (grid1.coords t) → cfg1.idle 3 (grid1.coords t) = true := by decide +kernel
theorem noFlush_3 : ∀ t : Fin cfg1.N, ¬condLast (grid1.coords t) → (cfg1.win 3).flush t = false := by decide +kernel

/-- Each window's current staging memref at point t, spelled as the pipeline passes it. -/
abbrev msA (t : Fin cfg1.N) : Memref sig .tc .vmem S1280x2048 .bf16 := win1_0.stage (cfg1.slots t 0)
abbrev msH (t : Fin cfg1.N) : Memref sig .tc .vmem S2048x40 .bf16 := win1_1.stage (cfg1.slots t 1)
abbrev msB (t : Fin cfg1.N) : Memref sig .tc .vmem S1x40 .f32 := win1_2.stage (cfg1.slots t 2)
abbrev msO (t : Fin cfg1.N) : Memref sig .tc .vmem S1280x40 .f32 := win1_3.stage (cfg1.slots t 3)

/-- What the obligation asks of each input's buffer: its block. -/
theorem leaves_0 (c : Dev nD) (t : Fin cfg1.N) : (dat V c).leavesExact 0 t = owns (c : Thread nD τ) (msA t) fullShare (iblk V c 0 t) := by
  unfold Dat.leavesExact; rw [live_0 t, after_0]
theorem leaves_1 (c : Dev nD) (t : Fin cfg1.N) : (dat V c).leavesExact 1 t = owns (c : Thread nD τ) (msH t) fullShare (iblk V c 1 t) := by
  unfold Dat.leavesExact; rw [live_1 t, after_1]
theorem leaves_2 (c : Dev nD) (t : Fin cfg1.N) : (dat V c).leavesExact 2 t = owns (c : Thread nD τ) (msB t) fullShare (iblk V c 2 t) := by
  unfold Dat.leavesExact; rw [live_2 t, after_2]
/-- And of the output's at a point with k = 4: the output block. -/
theorem leaves_3 (c : Dev nD) (t : Fin cfg1.N) (h : condLast (grid1.coords t)) :
    (dat V c).leavesExact 3 t = owns (c : Thread nD τ) (msO t) fullShare (outb V c t) := by
  unfold Dat.leavesExact; rw [live_3 t h, after_3]

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (msA t) fullShare ((dat V c).before 0 t d))
    ∗ (∃ d, owns (c : Thread nD τ) (msH t) fullShare ((dat V c).before 1 t d))
    ∗ (∃ d, owns (c : Thread nD τ) (msB t) fullShare ((dat V c).before 2 t d))
    ∗ (∃ d, owns (c : Thread nD τ) (msO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 1600000 in
/-- The body at any point. The inputs' memrefs hold their blocks; k = t mod 5 says which case the point is in; the
    invariant hands the body the accumulator at what the point before left (at anything at the first point) and takes
    it back at this point's contents; at k = 4 the output's buffer ends at the output block, elsewhere it is handed
    back untouched; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2, Phi_castSucc]
  have hN : t.val < 40 := lt_of_lt_of_eq t.isLt (show cfg1.N = 40 from N_1)
  by_cases h0 : t.val % 5 = 0
  · have hc0 : condReset (grid1.coords t) := (hcondReset t).mpr h0
    have hc1 : ¬condLast (grid1.coords t) := fun h => by have := (hcondLast t).mp h; omega
    rw [Dat.leavesExact_idle (dat V c) 3 t (idle_3 t hc1) (noFlush_3 t hc1), acc_reset V c t h0]
    by_cases hz : t.val = 0
    · rw [Phi_zero V c _ _ hz]
      iintro ⟨HP, Ho, ⟨%d0, H0⟩, ⟨%d1, H1⟩, H2, H3⟩
      ihave ⟨⟨HS, HR⟩, Hg⟩ := (PhiA_elim (F := F) c) $$ HP
      iapply (run_A c (grid1.coords t) _ _ _ _ _ _ _ _ _ _ hc0 hc1 (ablk V c t) (hblk V c t) Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3
    · rw [Phi_pos V c _ _ hz]
      iintro ⟨⟨⟨HS, HR⟩, Hg⟩, Ho, ⟨%d0, H0⟩, ⟨%d1, H1⟩, H2, H3⟩
      iapply (run_A c (grid1.coords t) _ _ _ _ _ _ _ _ _ _ hc0 hc1 (ablk V c t) (hblk V c t) Set.univ _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3
  · have hc0 : ¬condReset (grid1.coords t) := fun h => h0 ((hcondReset t).mp h)
    have hz : t.val ≠ 0 := fun e => h0 (by rw [e])
    rw [Phi_pos V c _ _ hz, acc_step V c t h0]
    by_cases h1 : t.val % 5 = 4
    · have hc1 : condLast (grid1.coords t) := (hcondLast t).mpr h1
      rw [leaves_3 V c t hc1]
      unfold outb
      rw [acc_step V c t h0]
      iintro ⟨⟨⟨HS, HR⟩, Hg⟩, Ho, ⟨%d0, H0⟩, ⟨%d1, H1⟩, ⟨%d2, H2⟩, ⟨%d3, H3⟩⟩
      iapply (run_C c (grid1.coords t) _ _ _ _ _ _ _ _ _ _ hc0 hc1 (ablk V c t) (hblk V c t) (bblk V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬condLast (grid1.coords t) := fun h => h1 ((hcondLast t).mp h)
      rw [Dat.leavesExact_idle (dat V c) 3 t (idle_3 t hc1) (noFlush_3 t hc1)]
      iintro ⟨⟨⟨HS, HR⟩, Hg⟩, Ho, ⟨%d0, H0⟩, ⟨%d1, H1⟩, H2, H3⟩
      iapply (run_B c (grid1.coords t) _ _ _ _ _ _ _ _ _ _ hc0 hc1 (ablk V c t) (hblk V c t) _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3

/-- The body obligation at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.BitsR1Phi.lean ====
/-
  Region 1: the invariant's two ends.  Before the first point it is the scoped rest at anything (what the
  launch hands over); after the last point the accumulator's named contents are forgotten and the scoped rest
  at anything is given back.
-/
import proofs.«429290_j51634096832829_1_alg».proof.Proof.BitsR1Defs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before a point that is not the first: the accumulator at what the point before left, the other call's
    buffers at anything, the generator register at some state. -/
private theorem Phi_pos (c : Dev nD) (n : ℕ) (h : n ≤ cfg1.N) (hz : n ≠ 0) :
    Phi V c n h = iprop(iprop(owns (c : Thread nD τ) scM fullShare (acc V c (n - 1) (by omega)) ∗ others (F := F) c) ∗ (∃ r, prngReg c r)) := by
  cases n with
  | zero => exact absurd rfl hz
  | succ n => rfl

theorem hin (c : Dev nD) : (Pipeline.ΦA spec1 c : sProp 𝕄) ⊢ (dat V c).Φ 0 := by
  rw [show (dat V c).Φ 0 = Phi V c 0 (Nat.zero_le _) from rfl]
  exact Idealize.SL.BI.Entails.refl _

/-- After any point but the first the invariant gives the scoped rest at anything back: the other call's eight
    buffers come first among the scoped buffers no window stages, the accumulator last. -/
private theorem Phi_out (c : Dev nD) (t : Fin (cfg1.N + 1)) (ht : t.val ≠ 0) : (dat V c).Φ t ⊢ (Pipeline.ΦA spec1 c : sProp 𝕄) := by
  rw [show (dat V c).Φ t = Phi V c t.val (Nat.le_of_lt_succ t.isLt) from rfl, Phi_pos V c _ _ ht]
  unfold Pipeline.ΦA
  rw [scopedRest1_eq]
  unfold others
  simp only [scM, owns_whole]
  iintro ⟨⟨HS, H1, H2, H3, H4, H5, H6, H7, H8⟩, Hg⟩
  isplitl [HS H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact HS
  iexact Hg

theorem hout (c : Dev nD) : (dat V c).Φ (Fin.last cfg1.N) ⊢ (Pipeline.ΦA spec1 c : sProp 𝕄) :=
  Phi_out V c _ (by rw [Fin.val_last]; have : cfg1.N = 40 := N_1; omega)

end Cert.Kernel.R1

end
-- ==== Proof.BitsRun.lean ====
/-
  The whole run of the program: the two aggregation calls as segments between the host stretches, each
  entered from the buffers' contents after the stretch before it and left with its output array at what
  the pipeline writes back; the frame (every argument array ends as launched) and the run with the result
  array named.
-/
import proofs.«429290_j51634096832829_1_alg».proof.Proof.Gen.Kernel.Regions
import proofs.«429290_j51634096832829_1_alg».proof.Proof.BitsR0Body
import proofs.«429290_j51634096832829_1_alg».proof.Proof.BitsR0Phi
import proofs.«429290_j51634096832829_1_alg».proof.Proof.BitsR1Body
import proofs.«429290_j51634096832829_1_alg».proof.Proof.BitsR1Phi
import Idealize.ShloMosaic.Lib.Pipeline.Kit
import Idealize.ShloMosaic.Lib.Pipeline.RegionsLoop

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the first call is entered, read at a reference. -/
abbrev VR0 : (c : Dev nD) → (b : Ref sig .tc) → Buf (Elt F) ((c : Thread nD τ).loc b) := fun c b => V5 m c b

/-- What the first call leaves in its output array. -/
def out6 (c : Dev nD) : Buf (Elt F) ((c : Thread nD τ).loc main_v42) := (R0.dat (VR0 m) c).arrAt 3 cfg0.N

/-- The contents the calls leave, first call only. -/
def outsA : Outs (F := F) := fun _ r c => if h : r = main_v42 then h ▸ out6 m c else fun _ => Classical.arbitrary _

/-- The buffers' contents when the second call is entered, read at a reference. -/
abbrev VR1 : (c : Dev nD) → (b : Ref sig .tc) → Buf (Elt F) ((c : Thread nD τ).loc b) := fun c b => V7 m (outsA m) c b

/-- What the second call leaves in its output array. -/
def out8 (c : Dev nD) : Buf (Elt F) ((c : Thread nD τ).loc main_v46) := (R1.dat (VR1 m) c).arrAt 3 cfg1.N

/-- The contents both calls leave. -/
def outs : Outs (F := F) := fun n r c => if h : r = main_v46 then h ▸ out8 m c else outsA m n r c

theorem outs_v42 (n : ℕ) (c : Dev nD) : outs m n main_v42 c = out6 m c := by
  unfold outs
  rw [dif_neg (by decide : ¬ (main_v42 : Ref sig .tc) = main_v46)]
  unfold outsA
  rw [dif_pos rfl]

theorem outs_v46 (n : ℕ) (c : Dev nD) : outs m n main_v46 c = out8 m c := by
  unfold outs
  rw [dif_pos rfl]

/-- The contents entering the second call do not depend on what the second call leaves. -/
theorem V7_outs (c : Dev nD) : V7 m (outs m) c = V7 m (outsA m) c := by
  have h : outs m 6 main_v42 c = outsA m 6 main_v42 c := by
    unfold outs
    rw [dif_neg (by decide : ¬ (main_v42 : Ref sig .tc) = main_v46)]
  show StableHlo.after hostOps1 (Function.update (V5 m c) main_v42 (outs m 6 main_v42 c))
    = StableHlo.after hostOps1 (Function.update (V5 m c) main_v42 (outsA m 6 main_v42 c))
  rw [h]

/-! ## The run with the result named, given the calls' records -/

set_option backward.isDefEq.respectTransparency.types false in
/-- For any user algebra, level assignment, launch dues and ghost resources, any rests the launch makes on every
    core at once and that end owing nothing, any contents the calls leave and any proof data: given, per call, a
    segment record entered from the thread state before it and left at the one after it, every weakly fair
    execution from memory `m` with zero counters terminates, and every final memory holds the result array at
    the last stretch's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v47) = V9 m outs c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, .rfl, .rfl, hpre0 c, hpost0 c, hpre1 c, hpost1 c, sep_mono .rfl (hE2 c)⟩)
    (hinit := ?_) (QY := fun c s => s.mem ((c.tc : Thread nD τ).loc main_v47) = V9 m outs c main_v47 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the rest makes the first boundary's rest on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's read off the last contents
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v47) (Finset.mem_filter.mpr ⟨StableHlo.devRef_mem_tcRefs main_v47, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c)⟩
    · iexact HSI

/-! ## The proof data family and what rides beside the buffers -/

/-- Both calls' proof data, each at the contents its call is entered from. -/
def pdats : (p : Fin 2) → (c : Dev nD) → Dat τ (Elt F) Unit ℕ (UR sig nD τ) ℕ (cfgs p) c
  | ⟨0, _⟩ => fun c => R0.dat (VR0 m) c
  | ⟨1, _⟩ => fun c => R1.dat (VR1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)

/-- The same at every boundary. -/
abbrev E : Fin 3 → Dev nD → sProp 𝕄 := fun _ c => R (F := F) c

/-- The contents the first call is left at, read at a reference. -/
abbrev VX0 : (c : Dev nD) → (b : Ref sig .tc) → Buf (Elt F) ((c : Thread nD τ).loc b) := fun c b => V6 m (outs m) c b

/-- The contents the second call is left at, read at a reference. -/
abbrev VX1 : (c : Dev nD) → (b : Ref sig .tc) → Buf (Elt F) ((c : Thread nD τ).loc b) := fun c b => V8 m (outs m) c b

/-- When the first call is left each of its arrays holds what the pipeline leaves there: an input what it held,
    the output what the write-backs made of it. -/
theorem hF0 (c : Dev nD) : ∀ w : Fin cfg0.W, (pdats m 0 c).arrAt w cfg0.N = VX0 m c (Pipeline.arrRef spec0 w)
  | ⟨0, _⟩ => ((pdats m 0 c).arrAt_in 0 rfl _).trans ((R0.A_eq (VR0 m) c 0).trans (V6_of m (outs m) c _ (by decide)).symm)
  | ⟨1, _⟩ => ((pdats m 0 c).arrAt_in 1 rfl _).trans ((R0.A_eq (VR0 m) c 1).trans (V6_of m (outs m) c _ (by decide)).symm)
  | ⟨2, _⟩ => ((pdats m 0 c).arrAt_in 2 rfl _).trans ((R0.A_eq (VR0 m) c 2).trans (V6_of m (outs m) c _ (by decide)).symm)
  | ⟨3, _⟩ => by
    show out6 m c = Function.update (V5 m c) main_v42 (outs m 6 main_v42 c) main_v42
    rw [Function.update_self, outs_v42]

/-- and every other buffer what it held when the call was entered. -/
theorem hrest0 (c : Dev nD) : ∀ b, b ∉ Finset.univ.image (Pipeline.arrRef spec0) → VX0 m c b = VR0 m c b :=
  fun b hb => V6_of m (outs m) c b fun hmem =>
    hb (Finset.mem_image.mpr ⟨3, Finset.mem_univ _, (List.mem_singleton.mp hmem).symm⟩)

/-- The same for the second call, entered from the contents after the stretch between the calls. -/
theorem hF1 (c : Dev nD) : ∀ w : Fin cfg1.W, (pdats m 1 c).arrAt w cfg1.N = VX1 m c (Pipeline.arrRef spec1 w)
  | ⟨0, _⟩ => ((pdats m 1 c).arrAt_in 0 rfl _).trans ((R1.A_eq (VR1 m) c 0).trans
      ((congrFun (V7_outs m c) _).symm.trans (V8_of m (outs m) c _ (by decide)).symm))
  | ⟨1, _⟩ => ((pdats m 1 c).arrAt_in 1 rfl _).trans ((R1.A_eq (VR1 m) c 1).trans
      ((congrFun (V7_outs m c) _).symm.trans (V8_of m (outs m) c _ (by decide)).symm))
  | ⟨2, _⟩ => ((pdats m 1 c).arrAt_in 2 rfl _).trans ((R1.A_eq (VR1 m) c 2).trans
      ((congrFun (V7_outs m c) _).symm.trans (V8_of m (outs m) c _ (by decide)).symm))
  | ⟨3, _⟩ => by
    show out8 m c = Function.update (V7 m (outs m) c) main_v46 (outs m 8 main_v46 c) main_v46
    rw [Function.update_self, outs_v46]

theorem hrest1 (c : Dev nD) : ∀ b, b ∉ Finset.univ.image (Pipeline.arrRef spec1) → VX1 m c b = VR1 m c b :=
  fun b hb => (V8_of m (outs m) c b fun hmem =>
    hb (Finset.mem_image.mpr ⟨3, Finset.mem_univ _, (List.mem_singleton.mp hmem).symm⟩)).trans (congrFun (V7_outs m c) _)

/-! ## The calls as segments -/

set_option backward.isDefEq.respectTransparency.types false in
/-- Call 0 over the thread state: entered with every unscoped buffer at the contents after the stretch before
    it, left with them at the contents the next stretch starts from.  Its arrays are split out of the unscoped
    buffers at entry and put back at exit; the generator register goes into the invariant and comes out; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (VR0 m) c).loose
  hwaits := Pipeline.hwaits_of_owed_zero _ _ _ _ L lv 0 fun _ _ => rfl
  pre c := iprop(StableHlo.held (c : Thread nD τ) (Pipeline.ucRefs τ sig) (V5 m c) ∗ E (F := F) 0 c)
  post c := iprop(StableHlo.held (c : Thread nD τ) (Pipeline.ucRefs τ sig) (V6 m (outs m) c) ∗ E (F := F) 1 c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (VR0 m) c)
    unfold Pipeline.ΦA
    iintro ⟨Hp, -, Hr⟩
    isplitl [Hr]; · iexact Hr
    iexact Hp
  hout c := by
    rw [Pipeline.ownSems0_none]
    refine BIBase.Entails.trans (R0.hout (VR0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at the contents after the stretch before
    it, left with them at the contents the next stretch starts from.  Its arrays are split out of the unscoped
    buffers at entry and put back at exit; the generator register goes into the invariant and comes out; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (VR1 m) c).loose
  hwaits := Pipeline.hwaits_of_owed_zero _ _ _ _ L lv 1 fun _ _ => rfl
  pre c := iprop(StableHlo.held (c : Thread nD τ) (Pipeline.ucRefs τ sig) (V7 m (outs m) c) ∗ E (F := F) 1 c)
  post c := iprop(StableHlo.held (c : Thread nD τ) (Pipeline.ucRefs τ sig) (V8 m (outs m) c) ∗ E (F := F) 2 c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) fun _ => rfl
    rw [Pipeline.unscopedBufs_held] at hsplit
    rw [← V7_outs m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (VR1 m) c)
    unfold Pipeline.ΦA
    iintro ⟨Hp, -, Hr⟩
    isplitl [Hr]; · iexact Hr
    iexact Hp
  hout c := by
    rw [Pipeline.ownSems0_none]
    refine BIBase.Entails.trans (R1.hout (VR1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element is the pipeline library's at every staging cell; no ghost resource beside it. -/
theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes the first boundary's rest: the generator register at its launch
    state, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The last boundary's rest owes nothing. -/
theorem hE2 (c : Dev nD) : E (F := F) 2 c ⊢ (iprop(∃ W, owes (c : Thread nD τ) (0 : CellTallies nD τ sig Unit) W) : sProp 𝕄) := by
  iintro ⟨-, H⟩; iexact H

set_option backward.isDefEq.respectTransparency.types false in
/-- The frame: every weakly fair execution terminates, nothing faults, every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond (m := m) (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj)) (hu₀ := hu₀)
    (E := E) (hE0 := hE0 ρ) (hE2 := hE2)
    (R0 := reg0 m) (hpre0 := fun _ => .rfl) (hpost0 := fun _ => .rfl)
    (R1 := reg1 m) (hpre1 := fun _ => .rfl) (hpost1 := fun _ => .rfl)

set_option backward.isDefEq.respectTransparency.types false in
/-- The run with the result named: the result array ends at the last stretch's contents, the arguments as launched. -/
theorem run : θ_run defs (onTc (τ := τ) (main (F := F))) ⟨m, fun _ => 0, ρ⟩ (fun r => ∀ c : Dev nD,
      r.2.mem ((c.tc : Thread nD τ).loc main_v47) = V9 m (outs m) c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond (m := m) (ρ := ρ) (EP := emb₁) (ι := ()) (𝒱₀ := 𝒱₀) (L := L) (lv := lv) (hL := fun _ _ => rfl) (outs := outs m)
    (pdats := pdats m) (O₀ := 0) (G := fun _ => iprop(emp))
    (u₀ := initOf (Pipeline.cells cfgs cellOf_inj) (Pipeline.launchToks cfgs cellOf_inj)) (hu₀ := hu₀)
    (E := E) (hE0 := hE0 ρ) (hE2 := hE2)
    (R0 := reg0 m) (hpre0 := fun _ => .rfl) (hpost0 := fun _ => .rfl)
    (R1 := reg1 m) (hpre1 := fun _ => .rfl) (hpost1 := fun _ => .rfl)

end Cert.Kernel.Run

end
-- ==== Proof.R0Defs.lean ====
/-
  Region 0 (the first aggregation call): what the proof data are stated over.  The grid is 8 × 5, point
  t = 5·i + k; the body adds the product of the adjacency block (i, k) with the feature block k to an
  accumulator kept in scratch (reset at k = 0) and, at k = 4, stores the accumulator plus the bias, passed
  through the call's last step (the payload of its output store), into the output block i.  Here: each window's block at a point, the accumulator after each point by recursion on
  the point, the output block, the invariant carrying the accumulator, and the proof data.
-/
import proofs.«429290_j51634096832829_1_alg».proof.Proof.Gen.KernelIdeal.Launch
import proofs.«429290_j51634096832829_1_alg».proof.Proof.Gen.KernelIdeal.Skeleton
import proofs.«429290_j51634096832829_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block, the feature block and the bias row at point t, at their literal types. -/
abbrev ablk (c : Dev nD) (t : Fin cfg0.N) : Vec F S1280x2048 .bf16 := iblk V c 0 t
abbrev hblk (c : Dev nD) (t : Fin cfg0.N) : Vec F S2048x128 .bf16 := iblk V c 1 t
abbrev bblk (c : Dev nD) (t : Fin cfg0.N) : Vec F S1x128 .f32 := iblk V c 2 t

/-- The accumulator after the body at point n: at a point with k = 0 the product added to the reset
    value, elsewhere added to what the point before left. -/
def acc (c : Dev nD) : (n : ℕ) → n < cfg0.N → Vec F S1280x128 .f32
  | 0, hn => k0_pay2 (k0_pay1 (F := F)) (ablk V c ⟨0, hn⟩) (hblk V c ⟨0, hn⟩)
  | n + 1, hn =>
    if (n + 1) % 5 = 0 then k0_pay2 (k0_pay1 (F := F)) (ablk V c ⟨n + 1, hn⟩) (hblk V c ⟨n + 1, hn⟩)
    else k0_pay2 (acc c n (Nat.lt_of_succ_lt hn)) (ablk V c ⟨n + 1, hn⟩) (hblk V c ⟨n + 1, hn⟩)

/-- The output block the body stores at a point with k = 4. -/
def outb (c : Dev nD) (t : Fin cfg0.N) : Vec F S1280x128 .f32 := k0_pay3 (acc V c t.val t.isLt) (bblk V c t)

/-- The scratch accumulator as a memref. -/
abbrev scM : Memref sig .tc .vmem S1280x128 .f32 := Memref.whole cc0_scratch0

/-- The scoped buffers of the other call (the pipeline of this call does not stage them), each whole at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The invariant before position n: at first the scoped rest at anything; afterwards the accumulator at
    what the point before left, the other call's buffers at anything; beside it the generator register. -/
def Phi (c : Dev nD) : (n : ℕ) → n ≤ cfg0.N → sProp 𝕄
  | 0, _ => Pipeline.ΦA spec0 c
  | n + 1, hn => iprop(iprop(owns (c : Thread nD τ) scM fullShare (acc V c n hn) ∗ others (F := F) c) ∗ (∃ r, prngReg c r))

/-- The proof data: the arrays as the region finds them; after the body each input's buffer at its block,
    the output's at `outb`; the invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outb V c t
  Φ t := Phi V c t.val (Nat.le_of_lt_succ t.isLt)
  q _ := fullShare
  owed _ := 0

end Cert.KernelIdeal.R0

end
-- ==== Proof.R0Body.lean ====
/-
  Region 0: the body obligation.  At every grid point the body, run on the point's staging buffers and the
  scratch accumulator, leaves each input's buffer at its block, the accumulator at `acc` of the point and, at a
  point with k = 4, the output's buffer at `outb`; elsewhere the output's buffer is handed back untouched.
-/
import proofs.«429290_j51634096832829_1_alg».proof.Proof.R0Defs
import Idealize.ShloMosaic.Lib.Pipeline.Value

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq (c : Dev nD) (w : Fin cfg0.W) : (dat V c).A w = V c (Pipeline.arrRef spec0 w) := by
  dsimp only [dat]

/-! ## The body's two conditions, in closed form -/

/-- The condition of the accumulator's reset (the first conditional), from the grid coordinates. -/
abbrev condReset (i : grid0.Coords) : Prop := (Scalar.cmpi .ne (Scalar.extui (Scalar.cmpi .eq (BitVec.ofNat 32 (i 1).val) 0#32)) 0#32) = 1#1
/-- It holds at the points with k = 0. -/
theorem hcondReset : ∀ t : Fin cfg0.N, condReset (grid0.coords t) ↔ t.val % 5 = 0 :=
  (by decide +kernel : ∀ t : Fin grid0.N, condReset (grid0.coords t) ↔ t.val % 5 = 0)
/-- The condition of the output's store (the second conditional). -/
abbrev condLast (i : grid0.Coords) : Prop := k0_cond2 i = 1#1
/-- It holds at the points with k = 4. -/
theorem hcondLast : ∀ t : Fin cfg0.N, condLast (grid0.coords t) ↔ t.val % 5 = 4 :=
  (by decide +kernel : ∀ t : Fin grid0.N, condLast (grid0.coords t) ↔ t.val % 5 = 4)

/-! ## Whole-buffer accesses -/

/-- The whole-buffer rectangle's offsets are zero. -/
theorem off0 : (![0, 0] : Fin 2 → ℕ) = fun _ => 0 := funext fun a => by fin_cases a <;> rfl

/-- What a buffer reads as after a last store through the whole-buffer rectangle, whatever was stored before: the payload. -/
theorem read_store {κ : Kind} {sp : Space} {S : Shape} {e : EltTy} (v : View sig κ sp S e) {off : Fin S.rank → ℕ} (h : off = fun _ => 0)
    (inb : ∀ a, off a + S.size a ≤ S.size a) (f : BufTy.Contents (Elt F) v.ty) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h]

/-- What a load through the whole-buffer rectangle reads: the contents. -/
theorem readAt_whole {κ : Kind} {sp : Space} {S : Shape} {e : EltTy} (v : View sig κ sp S e) {off : Fin S.rank → ℕ} (h : off = fun _ => 0)
    (inb : ∀ a, off a + S.size a ≤ S.size a) (f : BufTy.Contents (Elt F) v.ty) :
    View.readAt (Elt F) v (Rect.unit off S.size inb).toLoadRect f = v.read (Elt F) f := by
  rw [View.readAt_eq_ld, View.ld_unit_zero h]

/-! ## The body on any whole memrefs, case by case

On whole memrefs — the adjacency and feature buffers at contents a and h, the accumulator at s —, the kernel function
at coordinates with the case's conditions runs to the continuation with the accumulator at the product added to s
(to the reset value in case A, whatever it held) and, in case C, the output buffer at the output payload of that and the
bias row b; the buffers it only reads are handed back as they were, and in cases A and B it touches neither the bias
nor the output buffer. -/

theorem run_B (c : Dev nD) (i : grid0.Coords) (arg2 : Memref sig .tc .vmem S1280x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole)
    (hc0 : ¬condReset i) (hc1 : ¬condLast i)
    (a : Vec F S1280x2048 .bf16) (h : Vec F S2048x128 .bf16) (s : Vec F S1280x128 .f32) (E : Set ℕ) (K : PUnit → sProp 𝕄) :
    iprop(owns (c : Thread nD τ) arg2 fullShare a ∗ owns (c : Thread nD τ) arg3 fullShare h ∗ owns (c : Thread nD τ) arg6 fullShare s
        ∗ (iprop(owns (c : Thread nD τ) arg2 fullShare a ∗ owns (c : Thread nD τ) arg3 fullShare h ∗ owns (c : Thread nD τ) arg6 fullShare (k0_pay2 s a h)) -∗ K ⟨⟩))
      ⊢ wp frame (wpE (defs₀ (F := F)) Variants.none c none) E (cc0_gcn_aggregate_kernel i arg2 harg2 arg3 harg3 arg4 harg4 arg5 harg5 arg6 harg6) K := by
  simp only [cc0_gcn_aggregate_kernel_eq_skeleton]; unfold cc0_gcn_aggregate_kernel_skel
  unfold owns
  iintro ⟨⟨%f2, %hf2, H2⟩, ⟨%f3, %hf3, H3⟩, ⟨%f6, %hf6, H6⟩, Hk⟩
  subst hf2 hf3 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  rw [read_store _ off0, readAt_whole _ off0, readAt_whole _ off0, readAt_whole _ off0]

theorem run_A (c : Dev nD) (i : grid0.Coords) (arg2 : Memref sig .tc .vmem S1280x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole)
    (hc0 : condReset i) (hc1 : ¬condLast i)
    (a : Vec F S1280x2048 .bf16) (h : Vec F S2048x128 .bf16) (E : Set ℕ) (K : PUnit → sProp 𝕄) :
    iprop(owns (c : Thread nD τ) arg2 fullShare a ∗ owns (c : Thread nD τ) arg3 fullShare h ∗ (∃ s, owns (c : Thread nD τ) arg6 fullShare s)
        ∗ (iprop(owns (c : Thread nD τ) arg2 fullShare a ∗ owns (c : Thread nD τ) arg3 fullShare h ∗ owns (c : Thread nD τ) arg6 fullShare (k0_pay2 (k0_pay1 (F := F)) a h)) -∗ K ⟨⟩))
      ⊢ wp frame (wpE (defs₀ (F := F)) Variants.none c none) E (cc0_gcn_aggregate_kernel i arg2 harg2 arg3 harg3 arg4 harg4 arg5 harg5 arg6 harg6) K := by
  simp only [cc0_gcn_aggregate_kernel_eq_skeleton]; unfold cc0_gcn_aggregate_kernel_skel
  unfold owns
  iintro ⟨⟨%f2, %hf2, H2⟩, ⟨%f3, %hf3, H3⟩, ⟨%s, %f6, -, H6⟩, Hk⟩
  subst hf2 hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  sl_unfold_run_names
  rw [read_store _ off0, View.readCov_unit_zero _ off0, readAt_whole _ off0, readAt_whole _ off0]

theorem run_C (c : Dev nD) (i : grid0.Coords) (arg2 : Memref sig .tc .vmem S1280x2048 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S1280x128 .f32) (harg5 : arg5.IsWhole) (arg6 : Memref sig .tc .vmem S1280x128 .f32) (harg6 : arg6.IsWhole)
    (hc0 : ¬condReset i) (hc1 : condLast i)
    (a : Vec F S1280x2048 .bf16) (h : Vec F S2048x128 .bf16) (b : Vec F S1x128 .f32) (s : Vec F S1280x128 .f32) (E : Set ℕ) (K : PUnit → sProp 𝕄) :
    iprop(owns (c : Thread nD τ) arg2 fullShare a ∗ owns (c : Thread nD τ) arg3 fullShare h ∗ owns (c : Thread nD τ) arg4 fullShare b
        ∗ (∃ d, owns (c : Thread nD τ) arg5 fullShare d) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k0_pay3 (k0_pay2 s a h) b) ∗ owns (c : Thread nD τ) arg6 fullShare (k0_pay2 s a h)) -∗ K ⟨⟩))
      ⊢ wp frame (wpE (defs₀ (F := F)) Variants.none c none) E (cc0_gcn_aggregate_kernel i arg2 harg2 arg3 harg3 arg4 harg4 arg5 harg5 arg6 harg6) K := by
  simp only [cc0_gcn_aggregate_kernel_eq_skeleton]; unfold cc0_gcn_aggregate_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store _ off0, View.readCov_unit_zero _ off0, readAt_whole _ off0, readAt_whole _ off0, readAt_whole _ off0, readAt_whole _ off0]
  iexists _; isplitr
  swap; · iexact H6
  ipureintro
  sl_unfold_run_names
  rw [read_store _ off0, readAt_whole _ off0, readAt_whole _ off0, readAt_whole _ off0]

/-! ## The accumulator, point by point -/

/-- At a point with k = 0 the accumulator is the product added to the reset value. -/
theorem acc_reset (c : Dev nD) (t : Fin cfg0.N) (h0 : t.val % 5 = 0) :
    acc V c t.val t.isLt = k0_pay2 (k0_pay1 (F := F)) (ablk V c t) (hblk V c t) := by
  obtain ⟨n, hn⟩ := t
  cases n with
  | zero => rfl
  | succ n => exact if_pos h0

/-- At a point with k ≠ 0 it is the product added to what the point before left. -/
theorem acc_step (c : Dev nD) (t : Fin cfg0.N) (h0 : ¬t.val % 5 = 0) :
    acc V c t.val t.isLt
      = k0_pay2 (acc V c (t.val - 1) (Nat.lt_of_le_of_lt (Nat.sub_le _ _) t.isLt)) (ablk V c t) (hblk V c t) := by
  obtain ⟨n, hn⟩ := t
  cases n with
  | zero => exact absurd (Nat.zero_mod _) h0
  | succ n => exact if_neg h0

/-! ## The invariant, point by point -/

theorem Phi_zero (c : Dev nD) (n : ℕ) (h : n ≤ cfg0.N) (hz : n = 0) : Phi V c n h = Pipeline.ΦA spec0 c := by
  subst hz; rfl

/-- After point n: the accumulator at that point's contents. -/
theorem Phi_succ (c : Dev nD) (n : ℕ) (hn : n < cfg0.N) :
    Phi V c (n + 1) hn = iprop(iprop(owns (c : Thread nD τ) scM fullShare (acc V c n hn) ∗ others (F := F) c) ∗ (∃ r, prngReg c r)) := rfl

/-- Before a point that is not the first: the accumulator at what the point before left. -/
theorem Phi_pos (c : Dev nD) (n : ℕ) (h : n ≤ cfg0.N) (hz : n ≠ 0) :
    Phi V c n h = iprop(iprop(owns (c : Thread nD τ) scM fullShare (acc V c (n - 1) (by omega)) ∗ others (F := F) c) ∗ (∃ r, prngReg c r)) := by
  cases n with
  | zero => exact absurd rfl hz
  | succ n => rfl

/-- The invariant at a point's start, restated at the point's position. -/
theorem Phi_castSucc (c : Dev nD) (t : Fin cfg0.N) :
    (dat V c).Φ t.castSucc = Phi V c t.val (Nat.le_of_lt t.isLt) := by
  dsimp only [dat]; simp only [Fin.coe_castSucc]

/-- What the launch hands the region yields the accumulator as a memref owned at some contents, the other call's buffers
    and the generator register. -/
theorem PhiA_elim (c : Dev nD) :
    (Pipeline.ΦA spec0 c : sProp 𝕄)
      ⊢ iprop(iprop((∃ d, owns (c : Thread nD τ) scM fullShare d) ∗ others (F := F) c) ∗ (∃ r, prngReg c r)) := by
  unfold Pipeline.ΦA others; rw [scopedRest0_eq]; simp only [scM, owns_whole]
  iintro ⟨⟨H1, H2, H3, H4, H5, H6, H7, H8, H9⟩, Hg⟩
  iframe

/-! ## The windows at a point -/

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outb V c t := by dsimp only [dat]

/-- Each input's current staging buffer holds its block at every point, fetched there or not: unfetched, the block
    index has not moved. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The inputs are never idle; the output is idle, and not written back, exactly at the points with k ≠ 4. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, condLast (grid0.coords t) → cfg0.idle 3 (grid0.coords t) = false := by decide +kernel
theorem idle_3 : ∀ t : Fin cfg0.N, ¬condLast (grid0.coords t) → cfg0.idle 3 (grid0.coords t) = true := by decide +kernel
theorem noFlush_3 : ∀ t : Fin cfg0.N, ¬condLast (grid0.coords t) → (cfg0.win 3).flush t = false := by decide +kernel

/-- Each window's current staging memref at point t, spelled as the pipeline passes it. -/
abbrev msA (t : Fin cfg0.N) : Memref sig .tc .vmem S1280x2048 .bf16 := win0_0.stage (cfg0.slots t 0)
abbrev msH (t : Fin cfg0.N) : Memref sig .tc .vmem S2048x128 .bf16 := win0_1.stage (cfg0.slots t 1)
abbrev msB (t : Fin cfg0.N) : Memref sig .tc .vmem S1x128 .f32 := win0_2.stage (cfg0.slots t 2)
abbrev msO (t : Fin cfg0.N) : Memref sig .tc .vmem S1280x128 .f32 := win0_3.stage (cfg0.slots t 3)

/-- What the obligation asks of each input's buffer: its block. -/
theorem leaves_0 (c : Dev nD) (t : Fin cfg0.N) : (dat V c).leavesExact 0 t = owns (c : Thread nD τ) (msA t) fullShare (iblk V c 0 t) := by
  unfold Dat.leavesExact; rw [live_0 t, after_0]
theorem leaves_1 (c : Dev nD) (t : Fin cfg0.N) : (dat V c).leavesExact 1 t = owns (c : Thread nD τ) (msH t) fullShare (iblk V c 1 t) := by
  unfold Dat.leavesExact; rw [live_1 t, after_1]
theorem leaves_2 (c : Dev nD) (t : Fin cfg0.N) : (dat V c).leavesExact 2 t = owns (c : Thread nD τ) (msB t) fullShare (iblk V c 2 t) := by
  unfold Dat.leavesExact; rw [live_2 t, after_2]
/-- And of the output's at a point with k = 4: the output block. -/
theorem leaves_3 (c : Dev nD) (t : Fin cfg0.N) (h : condLast (grid0.coords t)) :
    (dat V c).leavesExact 3 t = owns (c : Thread nD τ) (msO t) fullShare (outb V c t) := by
  unfold Dat.leavesExact; rw [live_3 t h, after_3]

/-! ## The body obligation, at a generic point -/

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (msA t) fullShare ((dat V c).before 0 t d))
    ∗ (∃ d, owns (c : Thread nD τ) (msH t) fullShare ((dat V c).before 1 t d))
    ∗ (∃ d, owns (c : Thread nD τ) (msB t) fullShare ((dat V c).before 2 t d))
    ∗ (∃ d, owns (c : Thread nD τ) (msO t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 1600000 in
/-- The body at any point. The inputs' memrefs hold their blocks; k = t mod 5 says which case the point is in; the
    invariant hands the body the accumulator at what the point before left (at anything at the first point) and takes
    it back at this point's contents; at k = 4 the output's buffer ends at the output block, elsewhere it is handed
    back untouched; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2, Phi_castSucc]
  have hN : t.val < 40 := lt_of_lt_of_eq t.isLt (show cfg0.N = 40 from N_0)
  by_cases h0 : t.val % 5 = 0
  · have hc0 : condReset (grid0.coords t) := (hcondReset t).mpr h0
    have hc1 : ¬condLast (grid0.coords t) := fun h => by have := (hcondLast t).mp h; omega
    rw [Dat.leavesExact_idle (dat V c) 3 t (idle_3 t hc1) (noFlush_3 t hc1), acc_reset V c t h0]
    by_cases hz : t.val = 0
    · rw [Phi_zero V c _ _ hz]
      iintro ⟨HP, Ho, ⟨%d0, H0⟩, ⟨%d1, H1⟩, H2, H3⟩
      ihave ⟨⟨HS, HR⟩, Hg⟩ := (PhiA_elim (F := F) c) $$ HP
      iapply (run_A c (grid0.coords t) _ _ _ _ _ _ _ _ _ _ hc0 hc1 (ablk V c t) (hblk V c t) Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3
    · rw [Phi_pos V c _ _ hz]
      iintro ⟨⟨⟨HS, HR⟩, Hg⟩, Ho, ⟨%d0, H0⟩, ⟨%d1, H1⟩, H2, H3⟩
      iapply (run_A c (grid0.coords t) _ _ _ _ _ _ _ _ _ _ hc0 hc1 (ablk V c t) (hblk V c t) Set.univ _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3
  · have hc0 : ¬condReset (grid0.coords t) := fun h => h0 ((hcondReset t).mp h)
    have hz : t.val ≠ 0 := fun e => h0 (by rw [e])
    rw [Phi_pos V c _ _ hz, acc_step V c t h0]
    by_cases h1 : t.val % 5 = 4
    · have hc1 : condLast (grid0.coords t) := (hcondLast t).mpr h1
      rw [leaves_3 V c t hc1]
      unfold outb
      rw [acc_step V c t h0]
      iintro ⟨⟨⟨HS, HR⟩, Hg⟩, Ho, ⟨%d0, H0⟩, ⟨%d1, H1⟩, ⟨%d2, H2⟩, ⟨%d3, H3⟩⟩
      iapply (run_C c (grid0.coords t) _ _ _ _ _ _ _ _ _ _ hc0 hc1 (ablk V c t) (hblk V c t) (bblk V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬condLast (grid0.coords t) := fun h => h1 ((hcondLast t).mp h)
      rw [Dat.leavesExact_idle (dat V c) 3 t (idle_3 t hc1) (noFlush_3 t hc1)]
      iintro ⟨⟨⟨HS, HR⟩, Hg⟩, Ho, ⟨%d0, H0⟩, ⟨%d1, H1⟩, H2, H3⟩
      iapply (run_B c (grid0.coords t) _ _ _ _ _ _ _ _ _ _ hc0 hc1 (ablk V c t) (hblk V c t) _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3

/-- The body obligation at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.R0Phi.lean ====
/-
  Region 0: the invariant's two ends.  Before the first point it is the scoped rest at anything (what the
  launch hands over); after the last point the accumulator's named contents are forgotten and the scoped rest
  at anything is given back.
-/
import proofs.«429290_j51634096832829_1_alg».proof.Proof.R0Defs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before a point that is not the first: the accumulator at what the point before left, the other call's
    buffers at anything, the generator register at some state. -/
private theorem Phi_pos (c : Dev nD) (n : ℕ) (h : n ≤ cfg0.N) (hz : n ≠ 0) :
    Phi V c n h = iprop(iprop(owns (c : Thread nD τ) scM fullShare (acc V c (n - 1) (by omega)) ∗ others (F := F) c) ∗ (∃ r, prngReg c r)) := by
  cases n with
  | zero => exact absurd rfl hz
  | succ n => rfl

theorem hin (c : Dev nD) : (Pipeline.ΦA spec0 c : sProp 𝕄) ⊢ (dat V c).Φ 0 := by
  rw [show (dat V c).Φ 0 = Phi V c 0 (Nat.zero_le _) from rfl]
  exact Idealize.SL.BI.Entails.refl _

/-- After any point but the first the invariant gives the scoped rest at anything back: the accumulator is the
    first of the scoped buffers no window stages, the other call's eight follow it. -/
private theorem Phi_out (c : Dev nD) (t : Fin (cfg0.N + 1)) (ht : t.val ≠ 0) : (dat V c).Φ t ⊢ (Pipeline.ΦA spec0 c : sProp 𝕄) := by
  rw [show (dat V c).Φ t = Phi V c t.val (Nat.le_of_lt_succ t.isLt) from rfl, Phi_pos V c _ _ ht]
  unfold Pipeline.ΦA
  rw [scopedRest0_eq]
  unfold others
  simp only [scM, owns_whole]
  iintro ⟨⟨HS, Ho⟩, Hg⟩
  isplitl [HS Ho]
  · isplitl [HS]
    · iexists _; iexact HS
    iexact Ho
  iexact Hg

theorem hout (c : Dev nD) : (dat V c).Φ (Fin.last cfg0.N) ⊢ (Pipeline.ΦA spec0 c : sProp 𝕄) :=
  Phi_out V c _ (by rw [Fin.val_last]; have : cfg0.N = 40 := N_0; omega)

end Cert.KernelIdeal.R0

end
-- ==== Proof.R1Defs.lean ====
/-
  Region 1 (the second aggregation call): what the proof data are stated over.  The grid is 8 × 5, point
  t = 5·i + k; the body adds the product of the adjacency block (i, k) with the feature block k to an
  accumulator kept in scratch (reset at k = 0) and, at k = 4, stores the accumulator plus the bias, passed
  through the call's last step (the payload of its output store), into the output block i.  Here: each window's block at a point, the accumulator after each point by recursion on
  the point, the output block, the invariant carrying the accumulator, and the proof data.
-/
import proofs.«429290_j51634096832829_1_alg».proof.Proof.Gen.KernelIdeal.Launch
import proofs.«429290_j51634096832829_1_alg».proof.Proof.Gen.KernelIdeal.Skeleton
import proofs.«429290_j51634096832829_1_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency block, the feature block and the bias row at point t, at their literal types. -/
abbrev ablk (c : Dev nD) (t : Fin cfg1.N) : Vec F S1280x2048 .bf16 := iblk V c 0 t
abbrev hblk (c : Dev nD) (t : Fin cfg1.N) : Vec F S2048x40 .bf16 := iblk V c 1 t
abbrev bblk (c : Dev nD) (t : Fin cfg1.N) : Vec F S1x40 .f32 := iblk V c 2 t

/-- The accumulator after the body at point n: at a point with k = 0 the product added to the reset
    value, elsewhere added to what the point before left. -/
def acc (c : Dev nD) : (n : ℕ) → n < cfg1.N → Vec F S1280x40 .f32
  | 0, hn => k1_pay2 (k1_pay1 (F := F)) (ablk V c ⟨0, hn⟩) (hblk V c ⟨0, hn⟩)
  | n + 1, hn =>
    if (n + 1) % 5 = 0 then k1_pay2 (k1_pay1 (F := F)) (ablk V c ⟨n + 1, hn⟩) (hblk V c ⟨n + 1, hn⟩)
    else k1_pay2 (acc c n (Nat.lt_of_succ_lt hn)) (ablk V c ⟨n + 1, hn⟩) (hblk V c ⟨n + 1, hn⟩)

/-- The output block the body stores at a point with k = 4. -/
def outb (c : Dev nD) (t : Fin cfg1.N) : Vec F S1280x40 .f32 := k1_pay3 (acc V c t.val t.isLt) (bblk V c t)

/-- The scratch accumulator as a memref. -/
abbrev scM : Memref sig .tc .vmem S1280x40 .f32 := Memref.whole cc1_scratch0

/-- The scoped buffers of the other call (the pipeline of this call does not stage them), each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The invariant before position n: at first the scoped rest at anything; afterwards the accumulator at
    what the point before left, the other call's buffers at anything; beside it the generator register. -/
def Phi (c : Dev nD) : (n : ℕ) → n ≤ cfg1.N → sProp 𝕄
  | 0, _ => Pipeline.ΦA spec1 c
  | n + 1, hn => iprop(iprop(owns (c : Thread nD τ) scM fullShare (acc V c n hn) ∗ others (F := F) c) ∗ (∃ r, prngReg c r))

/-- The proof data: the arrays as the region finds them; after the body each input's buffer at its block,
    the output's at `outb`; the invariant `Phi`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outb V c t
  Φ t := Phi V c t.val (Nat.le_of_lt_succ t.isLt)
  q _ := fullShare
  owed _ := 0

end Cert.KernelIdeal.R1

end
-- ==== Proof.R1Body.lean ====
/-
  Region 1: the body obligation.  At every grid point the body, run on the point's staging buffers and the
  scratch accumulator, leaves each input's buffer at its block, the accumulator at `acc` of the point and, at a
  point with k = 4, the output's buffer at `outb`; elsewhere the output's buffer is handed back untouched.
-/
import proofs.«429290_j51634096832829_1_alg».proof.Proof.R1Defs
import Idealize.ShloMosaic.Lib.Pipeline.Value

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The proof data's arrays are the region-entry contents. -/
theorem A_eq (c : Dev nD) (w : Fin cfg1.W) : (dat V c).A w = V c (Pipeline.arrRef spec1 w) := by
  dsimp only [dat]

/-! ## The body's two conditions, in closed form -/

/-- The condition of the accumulator's reset (the first conditional), from the grid coordinates. -/
abbrev condReset (i : grid1.Coords) : Prop := (Scalar.cmpi .ne (Scalar.extui (Scalar.cmpi .eq (BitVec.ofNat 32 (i 1).val) 0#32)) 0#32) = 1#1
/-- It holds at the points with k = 0. -/
theorem hcondReset : ∀ t : Fin cfg1.N, condReset (grid1.coords t) ↔ t.val % 5 = 0 :=
  (by decide +kernel : ∀ t : Fin grid1.N, condReset (grid1.coords t) ↔ t.val % 5 = 0)
/-- The condition of the output's store (the second conditional). -/
abbrev condLast (i : grid1.Coords) : Prop := k1_cond2 i = 1#1
/-- It holds at the points with k = 4. -/
theorem hcondLast : ∀ t : Fin cfg1.N, condLast (grid1.coords t) ↔ t.val % 5 = 4 :=
  (by decide +kernel : ∀ t : Fin grid1.N, condLast (grid1.coords t) ↔ t.val % 5 = 4)

/-! ## Whole-buffer accesses -/

/-- The whole-buffer rectangle's offsets are zero. -/
theorem off0 : (![0, 0] : Fin 2 → ℕ) = fun _ => 0 := funext fun a => by fin_cases a <;> rfl

/-- What a buffer reads as after a last store through the whole-buffer rectangle, whatever was stored before: the payload. -/
theorem read_store {κ : Kind} {sp : Space} {S : Shape} {e : EltTy} (v : View sig κ sp S e) {off : Fin S.rank → ℕ} (h : off = fun _ => 0)
    (inb : ∀ a, off a + S.size a ≤ S.size a) (f : BufTy.Contents (Elt F) v.ty) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩), View.canon_cons_unit_zero h]

/-- What a load through the whole-buffer rectangle reads: the contents. -/
theorem readAt_whole {κ : Kind} {sp : Space} {S : Shape} {e : EltTy} (v : View sig κ sp S e) {off : Fin S.rank → ℕ} (h : off = fun _ => 0)
    (inb : ∀ a, off a + S.size a ≤ S.size a) (f : BufTy.Contents (Elt F) v.ty) :
    View.readAt (Elt F) v (Rect.unit off S.size inb).toLoadRect f = v.read (Elt F) f := by
  rw [View.readAt_eq_ld, View.ld_unit_zero h]

/-! ## The body on any whole memrefs, case by case

On whole memrefs — the adjacency and feature buffers at contents a and h, the accumulator at s —, the kernel function
at coordinates with the case's conditions runs to the continuation with the accumulator at the product added to s
(to the reset value in case A, whatever it held) and, in case C, the output buffer at the output payload of that and the
bias row b; the buffers it only reads are handed back as they were, and in cases A and B it touches neither the bias
nor the output buffer. -/

theorem run_B (c : Dev nD) (i : grid1.Coords) (arg2 : Memref sig .tc .vmem S1280x2048 .bf16) (harg2 : arg2.IsWhole) (arg3 : Memref sig .tc .vmem S2048x40 .bf16) (harg3 : arg3.IsWhole) (arg4 : Memref sig .tc .vmem S1x40 .f32) (harg4 : arg4.IsWhole) (arg5 : Memref sig .tc .vmem S1280x40 .f32) (harg5 : arg5.IsWhole) (arg6 : Memref sig .tc .vmem S1280x40 .f32) (harg6 : arg6.IsWhole)
    (hc0 : ¬condReset i) (hc1 : ¬condLast i)
    (a : Vec F S1280x2048 .bf16) (h : Vec F S2048x40 .bf16) (s : Vec F S1280x40 .f32) (E : Set ℕ) (K : PUnit → sProp 𝕄) :
    iprop(owns (c : Thread nD τ) arg2 fullShare a ∗ owns (c : Thread nD τ) arg3 fullShare h ∗ owns (c : Thread nD τ) arg6 fullShare s
        ∗ (iprop(owns (c : Thread nD τ) arg2 fullShare a ∗ owns (c : Thread nD τ) arg3 fullShare h ∗ owns (c : Thread nD τ) arg6 fullShare (k1_pay2 s a h)) -∗ K ⟨⟩))
      ⊢ wp frame (wpE (defs₀ (F := F)) Variants.none c none) E (cc1_gcn_aggregate_kernel i arg2 harg2 arg3 harg3 arg4 harg4 arg5 harg5 arg6 harg6) K := by
  simp only [cc1_gcn_aggregate_kernel_eq_skeleton]; unfold cc1_gcn_aggregate_kernel_skel
  unfold owns
  iintro ⟨⟨%f2, %hf2, H2⟩, ⟨%f3, %hf3, H3⟩, ⟨%f6, %hf6, H6⟩, Hk⟩
  subst hf2 hf3 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  rw [read_store _ off0, readAt_whole _ off0, readAt_whole _ off0, readAt_whole _ off0]

theorem run_A (c : Dev nD) (i : grid1.Coords) (arg2 : Memref sig .tc .vmem S1280x2048 .bf16) (harg2 : arg2.IsWhole) (arg3 : Memref sig .tc .vmem S2048x40 .bf16) (harg3 : arg3.IsWhole) (arg4 : Memref sig .tc .vmem S1x40 .f32) (harg4 : arg4.IsWhole) (arg5 : Memref sig .tc .vmem S1280x40 .f32) (harg5 : arg5.IsWhole) (arg6 : Memref sig .tc .vmem S1280x40 .f32) (harg6 : arg6.IsWhole)
    (hc0 : condReset i) (hc1 : ¬condLast i)
    (a : Vec F S1280x2048 .bf16) (h : Vec F S2048x40 .bf16) (E : Set ℕ) (K : PUnit → sProp 𝕄) :
    iprop(owns (c : Thread nD τ) arg2 fullShare a ∗ owns (c : Thread nD τ) arg3 fullShare h ∗ (∃ s, owns (c : Thread nD τ) arg6 fullShare s)
        ∗ (iprop(owns (c : Thread nD τ) arg2 fullShare a ∗ owns (c : Thread nD τ) arg3 fullShare h ∗ owns (c : Thread nD τ) arg6 fullShare (k1_pay2 (k1_pay1 (F := F)) a h)) -∗ K ⟨⟩))
      ⊢ wp frame (wpE (defs₀ (F := F)) Variants.none c none) E (cc1_gcn_aggregate_kernel i arg2 harg2 arg3 harg3 arg4 harg4 arg5 harg5 arg6 harg6) K := by
  simp only [cc1_gcn_aggregate_kernel_eq_skeleton]; unfold cc1_gcn_aggregate_kernel_skel
  unfold owns
  iintro ⟨⟨%f2, %hf2, H2⟩, ⟨%f3, %hf3, H3⟩, ⟨%s, %f6, -, H6⟩, Hk⟩
  subst hf2 hf3
  sl_exec (disch := first | exact hc0 | exact hc1)
  sl_step
  iapply Hk
  isplitl [H2]
  · iexists f2; isplitr; · ipureintro; rfl
    iexact H2
  isplitl [H3]
  · iexists f3; isplitr; · ipureintro; rfl
    iexact H3
  iexists _; isplitr
  swap; · iexact H6
  ipureintro
  sl_unfold_run_names
  rw [read_store _ off0, View.readCov_unit_zero _ off0, readAt_whole _ off0, readAt_whole _ off0]

theorem run_C (c : Dev nD) (i : grid1.Coords) (arg2 : Memref sig .tc .vmem S1280x2048 .bf16) (harg2 : arg2.IsWhole) (arg3 : Memref sig .tc .vmem S2048x40 .bf16) (harg3 : arg3.IsWhole) (arg4 : Memref sig .tc .vmem S1x40 .f32) (harg4 : arg4.IsWhole) (arg5 : Memref sig .tc .vmem S1280x40 .f32) (harg5 : arg5.IsWhole) (arg6 : Memref sig .tc .vmem S1280x40 .f32) (harg6 : arg6.IsWhole)
    (hc0 : ¬condReset i) (hc1 : condLast i)
    (a : Vec F S1280x2048 .bf16) (h : Vec F S2048x40 .bf16) (b : Vec F S1x40 .f32) (s : Vec F S1280x40 .f32) (E : Set ℕ) (K : PUnit → sProp 𝕄) :
    iprop(owns (c : Thread nD τ) arg2 fullShare a ∗ owns (c : Thread nD τ) arg3 fullShare h ∗ owns (c : Thread nD τ) arg4 fullShare b
        ∗ (∃ d, owns (c : Thread nD τ) arg5 fullShare d) ∗ owns (c : Thread nD τ) arg6 fullShare s
        ∗ (iprop(owns (c : Thread nD τ) arg2 fullShare a ∗ owns (c : Thread nD τ) arg3 fullShare h ∗ owns (c : Thread nD τ) arg4 fullShare b
            ∗ owns (c : Thread nD τ) arg5 fullShare (k1_pay3 (k1_pay2 s a h) b) ∗ owns (c : Thread nD τ) arg6 fullShare (k1_pay2 s a h)) -∗ K ⟨⟩))
      ⊢ wp frame (wpE (defs₀ (F := F)) Variants.none c none) E (cc1_gcn_aggregate_kernel i arg2 harg2 arg3 harg3 arg4 harg4 arg5 harg5 arg6 harg6) K := by
  simp only [cc1_gcn_aggregate_kernel_eq_skeleton]; unfold cc1_gcn_aggregate_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2 hf3 hf4 hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_store _ off0, View.readCov_unit_zero _ off0, readAt_whole _ off0, readAt_whole _ off0, readAt_whole _ off0, readAt_whole _ off0]
  iexists _; isplitr
  swap; · iexact H6
  ipureintro
  sl_unfold_run_names
  rw [read_store _ off0, readAt_whole _ off0, readAt_whole _ off0, readAt_whole _ off0]

/-! ## The accumulator, point by point -/

/-- At a point with k = 0 the accumulator is the product added to the reset value. -/
theorem acc_reset (c : Dev nD) (t : Fin cfg1.N) (h0 : t.val % 5 = 0) :
    acc V c t.val t.isLt = k1_pay2 (k1_pay1 (F := F)) (ablk V c t) (hblk V c t) := by
  obtain ⟨n, hn⟩ := t
  cases n with
  | zero => rfl
  | succ n => exact if_pos h0

/-- At a point with k ≠ 0 it is the product added to what the point before left. -/
theorem acc_step (c : Dev nD) (t : Fin cfg1.N) (h0 : ¬t.val % 5 = 0) :
    acc V c t.val t.isLt
      = k1_pay2 (acc V c (t.val - 1) (Nat.lt_of_le_of_lt (Nat.sub_le _ _) t.isLt)) (ablk V c t) (hblk V c t) := by
  obtain ⟨n, hn⟩ := t
  cases n with
  | zero => exact absurd (Nat.zero_mod _) h0
  | succ n => exact if_neg h0

/-! ## The invariant, point by point -/

theorem Phi_zero (c : Dev nD) (n : ℕ) (h : n ≤ cfg1.N) (hz : n = 0) : Phi V c n h = Pipeline.ΦA spec1 c := by
  subst hz; rfl

/-- After point n: the accumulator at that point's contents. -/
theorem Phi_succ (c : Dev nD) (n : ℕ) (hn : n < cfg1.N) :
    Phi V c (n + 1) hn = iprop(iprop(owns (c : Thread nD τ) scM fullShare (acc V c n hn) ∗ others (F := F) c) ∗ (∃ r, prngReg c r)) := rfl

/-- Before a point that is not the first: the accumulator at what the point before left. -/
theorem Phi_pos (c : Dev nD) (n : ℕ) (h : n ≤ cfg1.N) (hz : n ≠ 0) :
    Phi V c n h = iprop(iprop(owns (c : Thread nD τ) scM fullShare (acc V c (n - 1) (by omega)) ∗ others (F := F) c) ∗ (∃ r, prngReg c r)) := by
  cases n with
  | zero => exact absurd rfl hz
  | succ n => rfl

/-- The invariant at a point's start, restated at the point's position. -/
theorem Phi_castSucc (c : Dev nD) (t : Fin cfg1.N) :
    (dat V c).Φ t.castSucc = Phi V c t.val (Nat.le_of_lt t.isLt) := by
  dsimp only [dat]; simp only [Fin.coe_castSucc]

/-- What the launch hands the region yields the accumulator as a memref owned at some contents, the other call's buffers
    and the generator register. -/
theorem PhiA_elim (c : Dev nD) :
    (Pipeline.ΦA spec1 c : sProp 𝕄)
      ⊢ iprop(iprop((∃ d, owns (c : Thread nD τ) scM fullShare d) ∗ others (F := F) c) ∗ (∃ r, prngReg c r)) := by
  unfold Pipeline.ΦA others; rw [scopedRest1_eq]; simp only [scM, owns_whole]
  iintro ⟨⟨H1, H2, H3, H4, H5, H6, H7, H8, H9⟩, Hg⟩
  iframe

/-! ## The windows at a point -/

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outb V c t := by dsimp only [dat]

/-- Each input's current staging buffer holds its block at every point, fetched there or not: unfetched, the block
    index has not moved. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The inputs are never idle; the output is idle, and not written back, exactly at the points with k ≠ 4. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, condLast (grid1.coords t) → cfg1.idle 3 (grid1.coords t) = false := by decide +kernel
theorem idle_3 : ∀ t : Fin cfg1.N, ¬condLast (grid1.coords t) → cfg1.idle 3 (grid1.coords t) = true := by decide +kernel
theorem noFlush_3 : ∀ t : Fin cfg1.N, ¬condLast (grid1.coords t) → (cfg1.win 3).flush t = false := by decide +kernel

/-- Each window's current staging memref at point t, spelled as the pipeline passes it. -/
abbrev msA (t : Fin cfg1.N) : Memref sig .tc .vmem S1280x2048 .bf16 := win1_0.stage (cfg1.slots t 0)
abbrev msH (t : Fin cfg1.N) : Memref sig .tc .vmem S2048x40 .bf16 := win1_1.stage (cfg1.slots t 1)
abbrev msB (t : Fin cfg1.N) : Memref sig .tc .vmem S1x40 .f32 := win1_2.stage (cfg1.slots t 2)
abbrev msO (t : Fin cfg1.N) : Memref sig .tc .vmem S1280x40 .f32 := win1_3.stage (cfg1.slots t 3)

/-- What the obligation asks of each input's buffer: its block. -/
theorem leaves_0 (c : Dev nD) (t : Fin cfg1.N) : (dat V c).leavesExact 0 t = owns (c : Thread nD τ) (msA t) fullShare (iblk V c 0 t) := by
  unfold Dat.leavesExact; rw [live_0 t, after_0]
theorem leaves_1 (c : Dev nD) (t : Fin cfg1.N) : (dat V c).leavesExact 1 t = owns (c : Thread nD τ) (msH t) fullShare (iblk V c 1 t) := by
  unfold Dat.leavesExact; rw [live_1 t, after_1]
theorem leaves_2 (c : Dev nD) (t : Fin cfg1.N) : (dat V c).leavesExact 2 t = owns (c : Thread nD τ) (msB t) fullShare (iblk V c 2 t) := by
  unfold Dat.leavesExact; rw [live_2 t, after_2]
/-- And of the output's at a point with k = 4: the output block. -/
theorem leaves_3 (c : Dev nD) (t : Fin cfg1.N) (h : condLast (grid1.coords t)) :
    (dat V c).leavesExact 3 t = owns (c : Thread nD τ) (msO t) fullShare (outb V c t) := by
  unfold Dat.leavesExact; rw [live_3 t h, after_3]

/-! ## The body obligation, at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (msA t) fullShare ((dat V c).before 0 t d))
    ∗ (∃ d, owns (c : Thread nD τ) (msH t) fullShare ((dat V c).before 1 t d))
    ∗ (∃ d, owns (c : Thread nD τ) (msB t) fullShare ((dat V c).before 2 t d))
    ∗ (∃ d, owns (c : Thread nD τ) (msO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 1600000 in
/-- The body at any point. The inputs' memrefs hold their blocks; k = t mod 5 says which case the point is in; the
    invariant hands the body the accumulator at what the point before left (at anything at the first point) and takes
    it back at this point's contents; at k = 4 the output's buffer ends at the output block, elsewhere it is handed
    back untouched; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = Phi V c (t.val + 1) t.isLt from rfl, Phi_succ]
  rw [leaves_0, leaves_1, leaves_2, Phi_castSucc]
  have hN : t.val < 40 := lt_of_lt_of_eq t.isLt (show cfg1.N = 40 from N_1)
  by_cases h0 : t.val % 5 = 0
  · have hc0 : condReset (grid1.coords t) := (hcondReset t).mpr h0
    have hc1 : ¬condLast (grid1.coords t) := fun h => by have := (hcondLast t).mp h; omega
    rw [Dat.leavesExact_idle (dat V c) 3 t (idle_3 t hc1) (noFlush_3 t hc1), acc_reset V c t h0]
    by_cases hz : t.val = 0
    · rw [Phi_zero V c _ _ hz]
      iintro ⟨HP, Ho, ⟨%d0, H0⟩, ⟨%d1, H1⟩, H2, H3⟩
      ihave ⟨⟨HS, HR⟩, Hg⟩ := (PhiA_elim (F := F) c) $$ HP
      iapply (run_A c (grid1.coords t) _ _ _ _ _ _ _ _ _ _ hc0 hc1 (ablk V c t) (hblk V c t) Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3
    · rw [Phi_pos V c _ _ hz]
      iintro ⟨⟨⟨HS, HR⟩, Hg⟩, Ho, ⟨%d0, H0⟩, ⟨%d1, H1⟩, H2, H3⟩
      iapply (run_A c (grid1.coords t) _ _ _ _ _ _ _ _ _ _ hc0 hc1 (ablk V c t) (hblk V c t) Set.univ _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3
  · have hc0 : ¬condReset (grid1.coords t) := fun h => h0 ((hcondReset t).mp h)
    have hz : t.val ≠ 0 := fun e => h0 (by rw [e])
    rw [Phi_pos V c _ _ hz, acc_step V c t h0]
    by_cases h1 : t.val % 5 = 4
    · have hc1 : condLast (grid1.coords t) := (hcondLast t).mpr h1
      rw [leaves_3 V c t hc1]
      unfold outb
      rw [acc_step V c t h0]
      iintro ⟨⟨⟨HS, HR⟩, Hg⟩, Ho, ⟨%d0, H0⟩, ⟨%d1, H1⟩, ⟨%d2, H2⟩, ⟨%d3, H3⟩⟩
      iapply (run_C c (grid1.coords t) _ _ _ _ _ _ _ _ _ _ hc0 hc1 (ablk V c t) (hblk V c t) (bblk V c t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬condLast (grid1.coords t) := fun h => h1 ((hcondLast t).mp h)
      rw [Dat.leavesExact_idle (dat V c) 3 t (idle_3 t hc1) (noFlush_3 t hc1)]
      iintro ⟨⟨⟨HS, HR⟩, Hg⟩, Ho, ⟨%d0, H0⟩, ⟨%d1, H1⟩, H2, H3⟩
      iapply (run_B c (grid1.coords t) _ _ _ _ _ _ _ _ _ _ hc0 hc1 (ablk V c t) (hblk V c t) _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · icases H2 with ⟨%d2, H2⟩; iexact H2
      iexact H3

/-- The body obligation at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.R1Phi.lean ====
/-
  Region 1: the invariant's two ends.  Before the first point it is the scoped rest at anything (what the
  launch hands over); after the last point the accumulator's named contents are forgotten and the scoped rest
  at anything is given back.
-/
import proofs.«429290_j51634096832829_1_alg».proof.Proof.R1Defs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Before a point that is not the first: the accumulator at what the point before left, the other call's
    buffers at anything, the generator register at some state. -/
private theorem Phi_pos (c : Dev nD) (n : ℕ) (h : n ≤ cfg1.N) (hz : n ≠ 0) :
    Phi V c n h = iprop(iprop(owns (c : Thread nD τ) scM fullShare (acc V c (n - 1) (by omega)) ∗ others (F := F) c) ∗ (∃ r, prngReg c r)) := by
  cases n with
  | zero => exact absurd rfl hz
  | succ n => rfl

theorem hin (c : Dev nD) : (Pipeline.ΦA spec1 c : sProp 𝕄) ⊢ (dat V c).Φ 0 := by
  rw [show (dat V c).Φ 0 = Phi V c 0 (Nat.zero_le _) from rfl]
  exact Idealize.SL.BI.Entails.refl _

/-- After any point but the first the invariant gives the scoped rest at anything back: the other call's eight
    buffers come first among the scoped buffers no window stages, the accumulator last. -/
private theorem Phi_out (c : Dev nD) (t : Fin (cfg1.N + 1)) (ht : t.val ≠ 0) : (dat V c).Φ t ⊢ (Pipeline.ΦA spec1 c : sProp 𝕄) := by
  rw [show (dat V c).Φ t = Phi V c t.val (Nat.le_of_lt_succ t.isLt) from rfl, Phi_pos V c _ _ ht]
  unfold Pipeline.ΦA
  rw [scopedRest1_eq]
  unfold others
  simp only [scM, owns_whole]
  iintro ⟨⟨HS, H1, H2, H3, H4, H5, H6, H7, H8⟩, Hg⟩
  isplitl [HS H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact HS
  iexact Hg

theorem hout (c : Dev nD) : (dat V c).Φ (Fin.last cfg1.N) ⊢ (Pipeline.ΦA spec1 c : sProp 𝕄) :=
  Phi_out V c _ (by rw [Fin.val_last]; have : cfg1.N = 40 := N_1; omega)

end Cert.KernelIdeal.R1

end
-- ==== Proof.Run.lean ====
/-
  The whole run of the program: the two aggregation calls as segments between the host stretches, each
  entered from the buffers' contents after the stretch before it and left with its output array at what
  the pipeline writes back; the frame (every argument array ends as launched) and the run with the result
  array named.
-/
import proofs.«429290_j51634096832829_1_alg».proof.Proof.Gen.KernelIdeal.Regions
import proofs.«429290_j51634096832829_1_alg».proof.Proof.R0Body
import proofs.«429290_j51634096832829_1_alg».proof.Proof.R0Phi
import proofs.«429290_j51634096832829_1_alg».proof.Proof.R1Body
import proofs.«429290_j51634096832829_1_alg».proof.Proof.R1Phi
import Idealize.ShloMosaic.Lib.Pipeline.Kit
import Idealize.ShloMosaic.Lib.Pipeline.RegionsLoop

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents when the first call is entered, read at a reference. -/
abbrev VR0 : (c : Dev nD) → (b : Ref sig .tc) → Buf (Elt F) ((c : Thread nD τ).loc b) := fun c b => V5 m c b

/-- What the first call leaves in its output array. -/
def out6 (c : Dev nD) : Buf (Elt F) ((c : Thread nD τ).loc main_v42) := (R0.dat (VR0 m) c).arrAt 3 cfg0.N

/-- The contents the calls leave, first call only. -/
def outsA : Outs (F := F) := fun _ r c => if h : r = main_v42 then h ▸ out6 m c else fun _ => Classical.arbitrary _

/-- The buffers' contents when the second call is entered, read at a reference. -/
abbrev VR1 : (c : Dev nD) → (b : Ref sig .tc) → Buf (Elt F) ((c : Thread nD τ).loc b) := fun c b => V7 m (outsA m) c b

/-- What the second call leaves in its output array. -/
def out8 (c : Dev nD) : Buf (Elt F) ((c : Thread nD τ).loc main_v46) := (R1.dat (VR1 m) c).arrAt 3 cfg1.N

/-- The contents both calls leave. -/
def outs : Outs (F := F) := fun n r c => if h : r = main_v46 then h ▸ out8 m c else outsA m n r c

theorem outs_v42 (n : ℕ) (c : Dev nD) : outs m n main_v42 c = out6 m c := by
  unfold outs
  rw [dif_neg (by decide : ¬ (main_v42 : Ref sig .tc) = main_v46)]
  unfold outsA
  rw [dif_pos rfl]

theorem outs_v46 (n : ℕ) (c : Dev nD) : outs m n main_v46 c = out8 m c := by
  unfold outs
  rw [dif_pos rfl]

/-- The contents entering the second call do not depend on what the second call leaves. -/
theorem V7_outs (c : Dev nD) : V7 m (outs m) c = V7 m (outsA m) c := by
  have h : outs m 6 main_v42 c = outsA m 6 main_v42 c := by
    unfold outs
    rw [dif_neg (by decide : ¬ (main_v42 : Ref sig .tc) = main_v46)]
  show StableHlo.after hostOps1 (Function.update (V5 m c) main_v42 (outs m 6 main_v42 c))
    = StableHlo.after hostOps1 (Function.update (V5 m c) main_v42 (outsA m 6 main_v42 c))
  rw [h]

/-! ## The run with the result named, given the calls' records -/

set_option backward.isDefEq.respectTransparency.types false in
/-- For any user algebra, level assignment, launch dues and ghost resources, any rests the launch makes on every
    core at once and that end owing nothing, any contents the calls leave and any proof data: given, per call, a
    segment record entered from the thread state before it and left at the one after it, every weakly fair
    execution from memory `m` with zero counters terminates, and every final memory holds the result array at
    the last stretch's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => ∀ c : Dev nD,
      r.2.mem ((c.tc : Thread nD τ).loc main_v47) = V9 m outs c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, .rfl, .rfl, .rfl, .rfl, hpre0 c, hpost0 c, hpre1 c, hpost1 c, sep_mono .rfl (hE2 c)⟩)
    (hinit := ?_) (QY := fun c s => s.mem ((c.tc : Thread nD τ).loc main_v47) = V9 m outs c main_v47 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h => h)
  · -- the launch: the unscoped buffers are held at the launch contents; the rest makes the first boundary's rest on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's read off the last contents
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact ⟨h (Proc.devRef .tc main_v47) (Finset.mem_filter.mpr ⟨StableHlo.devRef_mem_tcRefs main_v47, by decide⟩),
        (h (Proc.devRef .tc main_arg0) (Finset.mem_filter.mpr ⟨StableHlo.devRef_mem_tcRefs main_arg0, by decide⟩)).trans (V9_main_arg0 m outs c),
        (h (Proc.devRef .tc main_arg1) (Finset.mem_filter.mpr ⟨StableHlo.devRef_mem_tcRefs main_arg1, by decide⟩)).trans (V9_main_arg1 m outs c),
        (h (Proc.devRef .tc main_arg2) (Finset.mem_filter.mpr ⟨StableHlo.devRef_mem_tcRefs main_arg2, by decide⟩)).trans (V9_main_arg2 m outs c),
        (h (Proc.devRef .tc main_arg3) (Finset.mem_filter.mpr ⟨StableHlo.devRef_mem_tcRefs main_arg3, by decide⟩)).trans (V9_main_arg3 m outs c),
        (h (Proc.devRef .tc main_arg4) (Finset.mem_filter.mpr ⟨StableHlo.devRef_mem_tcRefs main_arg4, by decide⟩)).trans (V9_main_arg4 m outs c),
        (h (Proc.devRef .tc main_arg5) (Finset.mem_filter.mpr ⟨StableHlo.devRef_mem_tcRefs main_arg5, by decide⟩)).trans (V9_main_arg5 m outs c)⟩
    · iexact HSI

/-! ## The proof data family and what rides beside the buffers -/

/-- Both calls' proof data, each at the contents its call is entered from. -/
def pdats : (p : Fin 2) → (c : Dev nD) → Dat τ (Elt F) Unit ℕ (UR sig nD τ) ℕ (cfgs p) c
  | ⟨0, _⟩ => fun c => R0.dat (VR0 m) c
  | ⟨1, _⟩ => fun c => R1.dat (VR1 m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)

/-- The same at every boundary. -/
abbrev E : Fin 3 → Dev nD → sProp 𝕄 := fun _ c => R (F := F) c

/-- The contents the first call is left at, read at a reference. -/
abbrev VX0 : (c : Dev nD) → (b : Ref sig .tc) → Buf (Elt F) ((c : Thread nD τ).loc b) := fun c b => V6 m (outs m) c b

/-- The contents the second call is left at, read at a reference. -/
abbrev VX1 : (c : Dev nD) → (b : Ref sig .tc) → Buf (Elt F) ((c : Thread nD τ).loc b) := fun c b => V8 m (outs m) c b

/-- When the first call is left each of its arrays holds what the pipeline leaves there: an input what it held,
    the output what the write-backs made of it. -/
theorem hF0 (c : Dev nD) : ∀ w : Fin cfg0.W, (pdats m 0 c).arrAt w cfg0.N = VX0 m c (Pipeline.arrRef spec0 w)
  | ⟨0, _⟩ => ((pdats m 0 c).arrAt_in 0 rfl _).trans ((R0.A_eq (VR0 m) c 0).trans (V6_of m (outs m) c _ (by decide)).symm)
  | ⟨1, _⟩ => ((pdats m 0 c).arrAt_in 1 rfl _).trans ((R0.A_eq (VR0 m) c 1).trans (V6_of m (outs m) c _ (by decide)).symm)
  | ⟨2, _⟩ => ((pdats m 0 c).arrAt_in 2 rfl _).trans ((R0.A_eq (VR0 m) c 2).trans (V6_of m (outs m) c _ (by decide)).symm)
  | ⟨3, _⟩ => by
    show out6 m c = Function.update (V5 m c) main_v42 (outs m 6 main_v42 c) main_v42
    rw [Function.update_self, outs_v42]

/-- and every other buffer what it held when the call was entered. -/
theorem hrest0 (c : Dev nD) : ∀ b, b ∉ Finset.univ.image (Pipeline.arrRef spec0) → VX0 m c b = VR0 m c b :=
  fun b hb => V6_of m (outs m) c b fun hmem =>
    hb (Finset.mem_image.mpr ⟨3, Finset.mem_univ _, (List.mem_singleton.mp hmem).symm⟩)

/-- The same for the second call, entered from the contents after the stretch between the calls. -/
theorem hF1 (c : Dev nD) : ∀ w : Fin cfg1.W, (pdats m 1 c).arrAt w cfg1.N = VX1 m c (Pipeline.arrRef spec1 w)
  | ⟨0, _⟩ => ((pdats m 1 c).arrAt_in 0 rfl _).trans ((R1.A_eq (VR1 m) c 0).trans
      ((congrFun (V7_outs m c) _).symm.trans (V8_of m (outs m) c _ (by decide)).symm))
  | ⟨1, _⟩ => ((pdats m 1 c).arrAt_in 1 rfl _).trans ((R1.A_eq (VR1 m) c 1).trans
      ((congrFun (V7_outs m c) _).symm.trans (V8_of m (outs m) c _ (by decide)).symm))
  | ⟨2, _⟩ => ((pdats m 1 c).arrAt_in 2 rfl _).trans ((R1.A_eq (VR1 m) c 2).trans
      ((congrFun (V7_outs m c) _).symm.trans (V8_of m (outs m) c _ (by decide)).symm))
  | ⟨3, _⟩ => by
    show out8 m c = Function.update (V7 m (outs m) c) main_v46 (outs m 8 main_v46 c) main_v46
    rw [Function.update_self, outs_v46]

theorem hrest1 (c : Dev nD) : ∀ b, b ∉ Finset.univ.image (Pipeline.arrRef spec1) → VX1 m c b = VR1 m c b :=
  fun b hb => (V8_of m (outs m) c b fun hmem =>
    hb (Finset.mem_image.mpr ⟨3, Finset.mem_univ _, (List.mem_singleton.mp hmem).symm⟩)).trans (congrFun (V7_outs m c) _)

/-! ## The calls as segments -/

set_option backward.isDefEq.respectTransparency.types false in
/-- Call 0 over the thread state: entered with every unscoped buffer at the contents after the stretch before
    it, left with them at the contents the next stretch starts from.  Its arrays are split out of the unscoped
    buffers at entry and put back at exit; the generator register goes into the invariant and comes out; nothing
    is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (VR0 m) c).loose
  hwaits := Pipeline.hwaits_of_owed_zero _ _ _ _ L lv 0 fun _ _ => rfl
  pre c := iprop(StableHlo.held (c : Thread nD τ) (Pipeline.ucRefs τ sig) (V5 m c) ∗ E (F := F) 0 c)
  post c := iprop(StableHlo.held (c : Thread nD τ) (Pipeline.ucRefs τ sig) (V6 m (outs m) c) ∗ E (F := F) 1 c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R0.hin (VR0 m) c)
    unfold Pipeline.ΦA
    iintro ⟨Hp, -, Hr⟩
    isplitl [Hr]; · iexact Hr
    iexact Hp
  hout c := by
    rw [Pipeline.ownSems0_none]
    refine BIBase.Entails.trans (R0.hout (VR0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at the contents after the stretch before
    it, left with them at the contents the next stretch starts from.  Its arrays are split out of the unscoped
    buffers at entry and put back at exit; the generator register goes into the invariant and comes out; nothing
    is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (VR1 m) c).loose
  hwaits := Pipeline.hwaits_of_owed_zero _ _ _ _ L lv 1 fun _ _ => rfl
  pre c := iprop(StableHlo.held (c : Thread nD τ) (Pipeline.ucRefs τ sig) (V7 m (outs m) c) ∗ E (F := F) 1 c)
  post c := iprop(StableHlo.held (c : Thread nD τ) (Pipeline.ucRefs τ sig) (V8 m (outs m) c) ∗ E (F := F) 2 c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR1 m c) fun _ => rfl
    rw [Pipeline.unscopedBufs_held] at hsplit
    rw [← V7_outs m c] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (R1.hin (VR1 m) c)
    unfold Pipeline.ΦA
    iintro ⟨Hp, -, Hr⟩
    isplitl [Hr]; · iexact Hr
    iexact Hp
  hout c := by
    rw [Pipeline.ownSems0_none]
    refine BIBase.Entails.trans (R1.hout (VR1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element is the pipeline library's at every staging cell; no ghost resource beside it. -/
theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core makes the first boundary's rest: the generator register at its launch
    state, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The last boundary's rest owes nothing. -/
theorem hE2 (c : Dev nD) : E (F := F) 2 c ⊢ (iprop(∃ W, owes (c : Thread nD τ) (0 : CellTallies nD τ sig Unit) W) : sProp 𝕄) := by
  iintro ⟨-, H⟩; iexact H

set_option backward.isDefEq.respectTransparency.types false in
/-- The frame: every weakly fair execution terminates, nothing faults, every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond (m := m) (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj)) (hu₀ := hu₀)
    (E := E) (hE0 := hE0 ρ) (hE2 := hE2)
    (R0 := reg0 m) (hpre0 := fun _ => .rfl) (hpost0 := fun _ => .rfl)
    (R1 := reg1 m) (hpre1 := fun _ => .rfl) (hpost1 := fun _ => .rfl)

set_option backward.isDefEq.respectTransparency.types false in
/-- The run with the result named: the result array ends at the last stretch's contents, the arguments as launched. -/
theorem run : θ_run defs (onTc (τ := τ) (main (F := F))) ⟨m, fun _ => 0, ρ⟩ (fun r => ∀ c : Dev nD,
      r.2.mem ((c.tc : Thread nD τ).loc main_v47) = V9 m (outs m) c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond (m := m) (ρ := ρ) (EP := emb₁) (ι := ()) (𝒱₀ := 𝒱₀) (L := L) (lv := lv) (hL := fun _ _ => rfl) (outs := outs m)
    (pdats := pdats m) (O₀ := 0) (G := fun _ => iprop(emp))
    (u₀ := initOf (Pipeline.cells cfgs cellOf_inj) (Pipeline.launchToks cfgs cellOf_inj)) (hu₀ := hu₀)
    (E := E) (hE0 := hE0 ρ) (hE2 := hE2)
    (R0 := reg0 m) (hpre0 := fun _ => .rfl) (hpost0 := fun _ => .rfl)
    (R1 := reg1 m) (hpre1 := fun _ => .rfl) (hpost1 := fun _ => .rfl)

end Cert.KernelIdeal.Run

end
-- ==== Proof.KTerms.lean ====
/-
  The host side of the kernel's program as pure functions of the arguments: the edge list's source and
  destination words (with a self loop per node appended), the degrees, the symmetric normalisation, the dense
  adjacency scattered at the flat position destination · 10240 + source, the padded features times the first
  weight, the second layer's features, the biases as rows, and the final cut to the first 10000 rows.
-/
import proofs.«429290_j51634096832829_1_alg».proof.KernelIdeal
import proofs.«429290_j51634096832829_1_alg».proof.Proof.Gen.KernelIdeal

noncomputable section

namespace Cert.KernelIdeal.KT

open Cert.KernelIdeal Cert.KernelIdeal.Gen
open Idealize.ShloMosaic

variable {F : FTy → Type} [FloatOps F]

/-- The node numbers 0 … 9999: the self loops. -/
def loops : IVec S10000 32 := iotaInDim S10000 32 0

/-- The source words: row 0 of the edge list, then the self loops. -/
def src (ei : IVec S2x640000 32) : IVec S650000 32 :=
  concatenate S650000 0 [⟨S640000, shapeCast S640000 (extractStridedSlice S1x640000 ![0, 0] ei slices_S2x640000_S1x640000_0_0) shapeCasts_S1x640000_S640000⟩, ⟨S10000, loops⟩] concatenates_S640000_S10000_S650000_d0

/-- The destination words: row 1 of the edge list, then the self loops. -/
def dst (ei : IVec S2x640000 32) : IVec S650000 32 :=
  concatenate S650000 0 [⟨S640000, shapeCast S640000 (extractStridedSlice S1x640000 ![1, 0] ei slices_S2x640000_S1x640000_1_0) shapeCasts_S1x640000_S640000⟩, ⟨S10000, loops⟩] concatenates_S640000_S10000_S650000_d0

/-- The degree of each node: the number of edges (self loop included) that end at it. -/
def deg (ei : IVec S2x640000 32) : FVec F S10000 .f32 :=
  Host.scatterAdd scatter_S10000_S650000x1_S650000_n_0_0_1
    (broadcastInDim S10000 ![] bcast_S_S10000 (constant S_ .f32 0x00000000#32))
    (broadcastInDim S650000x1 ![0] bcast_S650000_S650000x1_0 (dst ei))
    (broadcastInDim S650000 ![] bcast_S_S650000 (constant S_ .f32 0x3F800000#32))

/-- deg^(-1/2) where the degree is positive, 0 elsewhere. -/
def dinv (ei : IVec S2x640000 32) : FVec F S10000 .f32 :=
  select (cmpf .ogt (deg (F := F) ei) (broadcastInDim S10000 ![] bcast_S_S10000 (constant S_ .f32 0x00000000#32)))
    (Host.rsqrt (deg (F := F) ei))
    (broadcastInDim S10000 ![] bcast_S_S10000 (constant S_ .f32 0x00000000#32))

/-- An index word read as numpy does: a negative word counts from the end. -/
def wrap (v : IVec S650000 32) : IVec S650000 32 :=
  select (cmpi .slt v (broadcastInDim S650000 ![] bcast_S_S650000 (constantI S_ 32 0#32)))
    (addi v (broadcastInDim S650000 ![] bcast_S_S650000 (constantI S_ 32 10000#32))) v

/-- The weight of each edge: dinv at its source times dinv at its destination. -/
def norm (ei : IVec S2x640000 32) : FVec F S650000 .f32 :=
  mulf (Host.gather gather_S10000_S650000x1_S650000_n_0_n_n_0_1_1 (dinv (F := F) ei) (broadcastInDim S650000x1 ![0] bcast_S650000_S650000x1_0 (wrap (src ei))))
    (Host.gather gather_S10000_S650000x1_S650000_n_0_n_n_0_1_1 (dinv (F := F) ei) (broadcastInDim S650000x1 ![0] bcast_S650000_S650000x1_0 (wrap (dst ei))))

/-- The flat position of each edge in the dense adjacency: destination · 10240 + source. -/
def linear (ei : IVec S2x640000 32) : IVec S650000 32 :=
  addi (muli (dst ei) (broadcastInDim S650000 ![] bcast_S_S650000 (constantI S_ 32 10240#32))) (src ei)

/-- The dense adjacency, flat: the weights added up at each edge's flat position. -/
def adjFlat (ei : IVec S2x640000 32) : FVec F S104857600 .f32 :=
  Host.scatterAdd scatter_S104857600_S650000x1_S650000_n_0_0_1
    (broadcastInDim S104857600 ![] bcast_S_S104857600 (constant S_ .f32 0x00000000#32))
    (broadcastInDim S650000x1 ![0] bcast_S650000_S650000x1_0 (linear ei))
    (norm (F := F) ei)

/-- The dense adjacency as a 10240 × 10240 matrix, at the narrower float format. -/
def adj (ei : IVec S2x640000 32) : FVec F S10240x10240 .bf16 :=
  truncf .bf16 (shapeCast S10240x10240 (adjFlat (F := F) ei) shapeCasts_S104857600_S10240x10240) bitsLt_bf16_f32

/-- The features padded with 240 zero rows, times the first weight matrix. -/
def hm1 (x : FVec F S10000x128 .f32) (W1 : FVec F S128x128 .f32) : FVec F S10240x128 .bf16 :=
  truncf .bf16 (Host.dotGeneral dot_S10240x128_S128x128_S10240x128_1_0_0_1_n_n none
    (pad S10240x128 ![0, 0] ![240, 0] ![0, 0] x (sitofp .f32 (constantI S_ 32 0#32)) pads_S10000x128_S10240x128_02400_000 h_S_) W1) bitsLt_bf16_f32

/-- The first bias as a row. -/
def b1r (b1 : FVec F S128 .f32) : FVec F S1x128 .f32 := shapeCast S1x128 b1 shapeCasts_S128_S1x128

/-- The first layer's output times the second weight matrix. -/
def hm2 (h : FVec F S10240x128 .f32) (W2 : FVec F S128x40 .f32) : FVec F S10240x40 .bf16 :=
  truncf .bf16 (Host.dotGeneral dot_S10240x128_S128x40_S10240x40_1_0_0_1_n_n none h W2) bitsLt_bf16_f32

/-- The second bias as a row. -/
def b2r (b2 : FVec F S40 .f32) : FVec F S1x40 .f32 := shapeCast S1x40 b2 shapeCasts_S40_S1x40

/-- The first 10000 rows of the second layer's output. -/
def cut (o : FVec F S10240x40 .f32) : FVec F S10000x40 .f32 :=
  extractStridedSlice S10000x40 ![0, 0] o slices_S10240x40_S10000x40_0_0

end Cert.KernelIdeal.KT

end
-- ==== Proof.HostRead.lean ====
/-
  The host stretches of the kernel's program read back: what the buffers the two pallas_calls are entered
  with hold, and the result, as the pure functions of the arguments (and of what the calls leave).
-/
import proofs.«429290_j51634096832829_1_alg».proof.Proof.Gen.KernelIdeal.Regions
import proofs.«429290_j51634096832829_1_alg».proof.Proof.KTerms
import Idealize.ShloMosaic.Lib.StableHlo.Run

set_option maxRecDepth 16384

noncomputable section

namespace Cert.KernelIdeal.HostRead

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (outs : Outs (F := F))

/-! ### A reference no stretch so far writes still holds its launch contents -/

theorem V3_keep (c : Dev nD) (r : Ref sig .tc) (h3 : r ∉ hostOps0_2_W) (h2 : r ∉ hostOps0_1_W) (h1 : r ∉ hostOps0_W) :
    V3 m c r = V0 m c r :=
  (V3_of m c r h3).trans <| (V2_of m c r h2).trans (V1_of m c r h1)

theorem V4_keep (c : Dev nD) (r : Ref sig .tc) (h4 : r ∉ hostOps0_3_W) (h3 : r ∉ hostOps0_2_W) (h2 : r ∉ hostOps0_1_W)
    (h1 : r ∉ hostOps0_W) : V4 m c r = V0 m c r :=
  (V4_of m c r h4).trans (V3_keep m c r h3 h2 h1)

theorem V6_keep (c : Dev nD) (r : Ref sig .tc) (h6 : r ∉ ([main_v42] : List (Ref sig .tc))) (h5 : r ∉ hostOps0_4_W)
    (h4 : r ∉ hostOps0_3_W) (h3 : r ∉ hostOps0_2_W) (h2 : r ∉ hostOps0_1_W) (h1 : r ∉ hostOps0_W) :
    V6 m outs c r = V0 m c r :=
  (V6_of m outs c r h6).trans <| (V5_of m c r h5).trans (V4_keep m c r h4 h3 h2 h1)

/-! ### Each stretch read at one reference, over any contents it starts from -/

section Stretch
variable (W : Valuation τ sig (Elt F))

/-- The last stretch before the first call: the product, narrowed. -/
theorem ops0_4_v40 : StableHlo.after (hostOps0_4 (F := F)) W (Proc.devRef .tc main_v40) =
    truncf .bf16 (Host.dotGeneral dot_S10240x128_S128x128_S10240x128_1_0_0_1_n_n none (W (Proc.devRef .tc main_v38))
      (W (Proc.devRef .tc main_arg2))) bitsLt_bf16_f32 := by
  after_results

/-- The padding stretch: the features padded with the converted zero word. -/
theorem ops0_3_v38 : StableHlo.after (hostOps0_3 (F := F)) W (Proc.devRef .tc main_v38) =
    pad S10240x128 ![0, 0] ![240, 0] ![0, 0] (W (Proc.devRef .tc main_arg0)) (sitofp .f32 (W (Proc.devRef .tc main_c_8)))
      pads_S10000x128_S10240x128_02400_000 h_S_ := by
  after_results_simp <;> (try simp only [TRef.ofBuf, TRef.toBuf, cast_eq]) <;> rfl

/-- The long stretch leaves the zero word in its last constant. -/
theorem ops0_2_c8 : StableHlo.after (hostOps0_2 (F := F)) W (Proc.devRef .tc main_c_8) = constantI S_ 32 0#32 := by
  after_results

end Stretch

/-! ### The adjacency as a function of the source words, the destination words and the scaling vector -/

/-- The dense adjacency built from any source words, destination words and per-node scaling: the products of the scaling
    at the two ends of each edge, added up at the flat position destination · 10240 + source, as a matrix, narrowed. -/
def adjOf (s d : IVec S650000 32) (dv : FVec F S10000 .f32) : FVec F S10240x10240 .bf16 :=
  truncf .bf16 (shapeCast S10240x10240
    (Host.scatterAdd scatter_S104857600_S650000x1_S650000_n_0_0_1
      (broadcastInDim S104857600 ![] bcast_S_S104857600 (constant S_ .f32 0x00000000#32))
      (broadcastInDim S650000x1 ![0] bcast_S650000_S650000x1_0
        (addi (muli d (broadcastInDim S650000 ![] bcast_S_S650000 (constantI S_ 32 10240#32))) s))
      (mulf (Host.gather gather_S10000_S650000x1_S650000_n_0_n_n_0_1_1 dv (broadcastInDim S650000x1 ![0] bcast_S650000_S650000x1_0 (KT.wrap s)))
        (Host.gather gather_S10000_S650000x1_S650000_n_0_n_n_0_1_1 dv (broadcastInDim S650000x1 ![0] bcast_S650000_S650000x1_0 (KT.wrap d)))))
    shapeCasts_S104857600_S10240x10240) bitsLt_bf16_f32

/-- The adjacency of an edge list is that function at its source words, destination words and normalisation. -/
theorem adj_eq (ei : IVec S2x640000 32) : KT.adj (F := F) ei = adjOf (KT.src ei) (KT.dst ei) (KT.dinv (F := F) ei) := rfl

section Stretch2
variable (W : Valuation τ sig (Elt F))

/-- The long stretch: the adjacency from the words and the scaling it starts from. -/
theorem ops0_2_v37 : StableHlo.after (hostOps0_2 (F := F)) W (Proc.devRef .tc main_v37) =
    adjOf (W (Proc.devRef .tc main_v5)) (W (Proc.devRef .tc main_v6)) (W (Proc.devRef .tc main_v14)) := by
  after_results_simp
  rfl

/-- The choice stretch: the scaling where the test holds, the broadcast constant elsewhere. -/
theorem ops0_1_v14 : StableHlo.after (hostOps0_1 (F := F)) W (Proc.devRef .tc main_v14) =
    select (W (Proc.devRef .tc main_v12)) (W (Proc.devRef .tc main_v13))
      (broadcastInDim S10000 ![] bcast_S_S10000 (W (Proc.devRef .tc main_cst_2))) := by
  after_results_simp <;> (try simp only [TRef.ofBuf, TRef.toBuf, cast_eq]) <;> rfl

/-- The first stretch: the source words. -/
theorem ops0_v5 : StableHlo.after (hostOps0 (F := F)) W (Proc.devRef .tc main_v5) = KT.src (W (Proc.devRef .tc main_arg1)) := by
  after_results_simp
  rfl

/-- The first stretch: the destination words. -/
theorem ops0_v6 : StableHlo.after (hostOps0 (F := F)) W (Proc.devRef .tc main_v6) = KT.dst (W (Proc.devRef .tc main_arg1)) := by
  after_results_simp
  rfl

/-- The first stretch: the test degree > 0. -/
theorem ops0_v12 : StableHlo.after (hostOps0 (F := F)) W (Proc.devRef .tc main_v12) =
    cmpf .ogt (KT.deg (F := F) (W (Proc.devRef .tc main_arg1))) (broadcastInDim S10000 ![] bcast_S_S10000 (constant S_ .f32 0x00000000#32)) := by
  after_results_simp
  rfl

/-- The first stretch: the inverse square root of the degree. -/
theorem ops0_v13 : StableHlo.after (hostOps0 (F := F)) W (Proc.devRef .tc main_v13) =
    Host.rsqrt (KT.deg (F := F) (W (Proc.devRef .tc main_arg1))) := by
  after_results_simp
  rfl

/-- The first stretch: the zero constant. -/
theorem ops0_cst2 : StableHlo.after (hostOps0 (F := F)) W (Proc.devRef .tc main_cst_2) = constant S_ .f32 0x00000000#32 := by
  after_results

end Stretch2

/-! ### The seven readings -/

/-- The first call's adjacency operand. -/
theorem V5_v37 (c : Dev nD) : V5 m c main_v37 = KT.adj (F := F) (m ((c : Thread nD τ).loc main_arg1)) := by
  have e53 : V5 m c main_v37 = V3 m c main_v37 :=
    (V5_of m c main_v37 (by decide)).trans (V4_of m c main_v37 (by decide))
  have e37 : V3 m c (Proc.devRef .tc main_v37) = _ := ops0_2_v37 (V2 m c)
  have e5 : V2 m c (Proc.devRef .tc main_v5) = KT.src (V0 m c (Proc.devRef .tc main_arg1)) :=
    (V2_of m c main_v5 (by decide)).trans (ops0_v5 (V0 m c))
  have e6 : V2 m c (Proc.devRef .tc main_v6) = KT.dst (V0 m c (Proc.devRef .tc main_arg1)) :=
    (V2_of m c main_v6 (by decide)).trans (ops0_v6 (V0 m c))
  have e14 : V2 m c (Proc.devRef .tc main_v14) = _ := ops0_1_v14 (V1 m c)
  have e12 : V1 m c (Proc.devRef .tc main_v12) = _ := ops0_v12 (V0 m c)
  have e13 : V1 m c (Proc.devRef .tc main_v13) = _ := ops0_v13 (V0 m c)
  have ec2 : V1 m c (Proc.devRef .tc main_cst_2) = _ := ops0_cst2 (V0 m c)
  refine e53.trans (e37.trans ?_)
  rw [e5, e6, e14, e12, e13, ec2, adj_eq]
  rfl

/-- The first call's feature operand. -/
theorem V5_v40 (c : Dev nD) : V5 m c main_v40 = KT.hm1 (m ((c : Thread nD τ).loc main_arg0)) (m ((c : Thread nD τ).loc main_arg2)) := by
  have e40 : V5 m c (Proc.devRef .tc main_v40) = _ := ops0_4_v40 (V4 m c)
  have e38 : V4 m c (Proc.devRef .tc main_v38) = _ := ops0_3_v38 (V3 m c)
  have ec8 : V3 m c (Proc.devRef .tc main_c_8) = _ := ops0_2_c8 (V2 m c)
  have ea2 : V4 m c (Proc.devRef .tc main_arg2) = V0 m c main_arg2 :=
    V4_keep m c main_arg2 (by decide) (by decide) (by decide) (by decide)
  have ea0 : V3 m c (Proc.devRef .tc main_arg0) = V0 m c main_arg0 :=
    V3_keep m c main_arg0 (by decide) (by decide) (by decide)
  refine e40.trans ?_
  rw [e38, ec8, ea2, ea0]
  rfl

/-- The first call's bias operand. -/
theorem V5_v41 (c : Dev nD) : V5 m c main_v41 = KT.b1r (m ((c : Thread nD τ).loc main_arg3)) := by
  show StableHlo.after hostOps0_4 (V4 m c) (Proc.devRef .tc main_v41) = _
  after_results
  rfl

/-- The second call's adjacency operand: the same array, untouched by the first call and the stretch between. -/
theorem V7_v37 (c : Dev nD) : V7 m outs c main_v37 = KT.adj (F := F) (m ((c : Thread nD τ).loc main_arg1)) :=
  (V7_of m outs c main_v37 (by decide)).trans <| (V6_of m outs c main_v37 (by decide)).trans (V5_v37 m c)

/-- The second call's feature operand, from what the first call leaves. -/
theorem V7_v44 (c : Dev nD) : V7 m outs c main_v44 = KT.hm2 (outs 6 main_v42 c) (m ((c : Thread nD τ).loc main_arg4)) := by
  show StableHlo.after hostOps1 (V6 m outs c) (Proc.devRef .tc main_v44) = _
  after_results
  rw [show V6 m outs c (Proc.devRef .tc main_v42) = outs 6 main_v42 c from Function.update_self _ _ _,
    show V6 m outs c (Proc.devRef .tc main_arg4) = V0 m c main_arg4 from
      V6_keep m outs c main_arg4 (by decide) (by decide) (by decide) (by decide) (by decide) (by decide)]
  rfl

/-- The second call's bias operand. -/
theorem V7_v45 (c : Dev nD) : V7 m outs c main_v45 = KT.b2r (m ((c : Thread nD τ).loc main_arg5)) := by
  show StableHlo.after hostOps1 (V6 m outs c) (Proc.devRef .tc main_v45) = _
  after_results
  rw [show V6 m outs c (Proc.devRef .tc main_arg5) = V0 m c main_arg5 from
    V6_keep m outs c main_arg5 (by decide) (by decide) (by decide) (by decide) (by decide) (by decide)]
  rfl

/-- The result: the cut of what the second call leaves. -/
theorem V9_v47 (c : Dev nD) : V9 m outs c main_v47 = KT.cut (outs 8 main_v46 c) := by
  show StableHlo.after hostOps2 (V8 m outs c) (Proc.devRef .tc main_v47) = _
  after_results
  rw [show V8 m outs c (Proc.devRef .tc main_v46) = outs 8 main_v46 c from Function.update_self _ _ _]
  rfl

end Cert.KernelIdeal.HostRead

end
-- ==== Proof.Spec.lean ====
/-
  The aggregation both pallas_calls compute, as a function of whole arrays: row r of the (padded) adjacency
  times column q of the (padded) feature matrix, plus the bias at q.
-/
import Idealize.ShloMosaic.PureOps.Ideal
import Idealize.ShloMosaic.Lib.ValueIdx

noncomputable section

namespace Cert.Spec

open Idealize.ShloMosaic Idealize.ShloMosaic.ValueIdx

/-- Σ_j A[r, j] · h[j, q] + b[0, q] over the extended reals. -/
def aggAt {D : Nat} (A : (⟨2, ![10240, 10240]⟩ : Shape).Idx → EReal) (h : (⟨2, ![10240, D]⟩ : Shape).Idx → EReal)
    (b : (⟨2, ![1, D]⟩ : Shape).Idx → EReal) (r : Fin 10240) (q : Fin D) : EReal :=
  (∑ j : Fin 10240, A (ix2 r j) * h (ix2 j q)) + b (ix2 (0 : Fin 1) q)

end Cert.Spec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.LibBlockSum.lean ====
/-
  A filtered sum over the first `B * (t + 1)` positions of `Fin N`, split into the first `B * t` positions and
  the block of `B` positions after them.

  This is the arithmetic of an accumulator that visits an array block by block: after block `t` it holds the sum
  over the positions below `B * (t + 1)`; the positions of block `t` are `B * t + n` for `n < B`.
-/
import Mathlib.Algebra.BigOperators.Group.Finset.Basic
import Mathlib.Data.Fintype.Basic
import Mathlib.Data.Fin.Basic

open scoped BigOperators

namespace BlockSum

/-- Position `n` of block `t`, as a position of the whole array. -/
def pos {N B : Nat} (t : Nat) (hN : B * (t + 1) ≤ N) (n : Fin B) : Fin N :=
  ⟨B * t + n.val, by have := n.isLt; rw [Nat.mul_succ] at hN; omega⟩

/-- Nothing lies below position `B * 0`. -/
theorem sum_below_zero {M : Type} [AddCommMonoid M] {N B : Nat} (p : Fin N → Prop) [DecidablePred p] (f : Fin N → M) :
    ∑ e ∈ Finset.univ.filter (fun e : Fin N => e.val < B * 0 ∧ p e), f e = 0 := by
  have hempty : Finset.univ.filter (fun e : Fin N => e.val < B * 0 ∧ p e) = ∅ := by
    apply Finset.filter_eq_empty_iff.mpr
    intro e _ h
    have h1 := h.1
    rw [Nat.mul_zero] at h1
    exact Nat.not_lt_zero _ h1
  rw [hempty, Finset.sum_empty]

/-- The positions below `B * (t + 1)` are those below `B * t` and the block's. -/
theorem sum_below_succ {M : Type} [AddCommMonoid M] {N B : Nat} (t : Nat) (hN : B * (t + 1) ≤ N)
    (p : Fin N → Prop) [DecidablePred p] (f : Fin N → M) :
    ∑ e ∈ Finset.univ.filter (fun e : Fin N => e.val < B * (t + 1) ∧ p e), f e
      = ∑ e ∈ Finset.univ.filter (fun e : Fin N => e.val < B * t ∧ p e), f e
        + ∑ n ∈ Finset.univ.filter (fun n : Fin B => p (pos t hN n)), f (pos t hN n) := by
  -- split the positions below `B * (t + 1)` at `B * t`
  rw [← Finset.sum_filter_add_sum_filter_not
    (Finset.univ.filter (fun e : Fin N => e.val < B * (t + 1) ∧ p e)) (fun e : Fin N => e.val < B * t) f]
  rw [Finset.filter_filter, Finset.filter_filter]
  congr 1
  · -- below `B * t` the larger bound says nothing
    refine Finset.sum_congr (Finset.filter_congr fun e _ => ?_) fun _ _ => rfl
    constructor
    · rintro ⟨⟨_, hp⟩, hlt⟩
      exact ⟨hlt, hp⟩
    · rintro ⟨hlt, hp⟩
      exact ⟨⟨by rw [Nat.mul_succ]; omega, hp⟩, hlt⟩
  · -- the positions from `B * t` up to `B * (t + 1)` are the block's, one for each `n < B`
    symm
    refine Finset.sum_nbij (fun n => pos t hN n) ?_ ?_ ?_ ?_
    · intro n hn
      rw [Finset.mem_filter] at hn ⊢
      have hnB := n.isLt
      refine ⟨Finset.mem_univ _, ⟨?_, hn.2⟩, ?_⟩
      · show B * t + n.val < B * (t + 1)
        rw [Nat.mul_succ]
        omega
      · show ¬ (B * t + n.val < B * t)
        omega
    · intro a _ b _ hab
      have hv : B * t + a.val = B * t + b.val := congrArg Fin.val hab
      exact Fin.ext (by omega)
    · intro e he
      rw [Finset.mem_coe, Finset.mem_filter] at he
      obtain ⟨_, ⟨hlt, hp⟩, hge⟩ := he
      rw [Nat.mul_succ] at hlt
      have hback : pos t hN ⟨e.val - B * t, by omega⟩ = e :=
        Fin.ext (by show B * t + (e.val - B * t) = e.val; omega)
      refine ⟨⟨e.val - B * t, by omega⟩, ?_, hback⟩
      rw [Finset.mem_coe, Finset.mem_filter]
      exact ⟨Finset.mem_univ _, by rw [hback]; exact hp⟩
    · intro n _
      rfl

/-- Once every position is below the bound the bound says nothing. -/
theorem sum_below_all {M : Type} [AddCommMonoid M] {N B T : Nat} (hN : B * T = N)
    (p : Fin N → Prop) [DecidablePred p] (f : Fin N → M) :
    ∑ e ∈ Finset.univ.filter (fun e : Fin N => e.val < B * T ∧ p e), f e
      = ∑ e ∈ Finset.univ.filter (fun e : Fin N => p e), f e := by
  refine Finset.sum_congr (Finset.filter_congr fun e _ => ?_) fun _ _ => rfl
  exact ⟨fun h => h.2, fun h => ⟨by rw [hN]; exact e.isLt, h⟩⟩

end BlockSum
-- ==== Proof.R0Value.lean ====
/-
  Region 0, the value: after the run the output array holds, at row r and column q, the relu of the
  aggregation of the region-entry arrays — the five accumulation steps of a row block are the five column
  blocks of one row-times-column sum.

  In order: each of the body's three values read at an entry over the extended reals (the reset value is zero,
  an accumulation step adds the row-times-column sum of its two blocks, the output step adds the bias and cuts
  below at zero); each input block read off its array (a block's coordinate is its block index times the block's
  extent plus the coordinate inside the block); the accumulator after point 5·i + k as the sum over the columns
  below 2048·(k + 1), by induction on the point; the block a point with k = 4 writes back as its block of one
  function of the arrays; every row lies in exactly the block of the point 5·(r / 1280) + 4, so the array ends
  holding that function.
-/
import proofs.«429290_j51634096832829_1_alg».proof.Proof.R0Defs
import proofs.«429290_j51634096832829_1_alg».proof.Proof.Spec
import proofs.«429290_j51634096832829_1_alg».proof.Proof.LibPlainDot
import proofs.«429290_j51634096832829_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.ShloMosaic.Pipeline (Dat Cfg Window)

/-! ## The body's three values at an entry -/

/-- What the output step makes of an accumulated entry plus its bias: cut below at zero. -/
abbrev lastStep (x : EReal) : EReal := max x 0

/-- The reset value is zero everywhere. -/
theorem pay1_apply (p : Fin 1280) (q : Fin 128) : k0_pay1 (F := Ideal) (ix2 p q) = 0 := by
  unfold k0_pay1
  rw [shapeCast_self]
  exact Ideal.ofBits_zero_f32

/-- One accumulation step at an entry: what was there plus the row-times-column sum of the two blocks. -/
theorem pay2_apply (s : Vec Ideal S1280x128 .f32) (a : Vec Ideal S1280x2048 .bf16) (h : Vec Ideal S2048x128 .bf16)
    (p : Fin 1280) (q : Fin 128) :
    k0_pay2 s a h (ix2 p q) = s (ix2 p q) + ∑ j : Fin 2048, a (ix2 p j) * h (ix2 j q) := by
  unfold k0_pay2
  rw [shapeCast_self, shapeCast_self, shapeCast_self]
  refine (addf_apply _ _ _).trans ?_
  refine congrArg (s (ix2 p q) + ·) ?_
  refine (Ideal.matmul_constant_zero_apply (φ₁ := .bf16) (φ₂ := .bf16) dot_S1280x2048_S2048x128_S1280x128_1_0_0_1_n_n none a h (ix2 p q)).trans ?_
  exact PlainDot.sum_eq dot_S1280x2048_S2048x128_S1280x128_1_0_0_1_n_n rfl rfl rfl rfl rfl rfl a h p q

/-- The output step at an entry: the last step of the accumulator plus the bias of the column. -/
theorem pay3_apply (s : Vec Ideal S1280x128 .f32) (b : Vec Ideal S1x128 .f32) (p : Fin 1280) (q : Fin 128) :
    k0_pay3 s b (ix2 p q) = lastStep (s (ix2 p q) + b (ix2 (0 : Fin 1) q)) := by
  unfold k0_pay3
  rw [shapeCast_self]
  show max (s (ix2 p q) + broadcastTo S1280x128 b _ (ix2 p q)) (Ideal.ofBits .f32 0x00000000#32) = _
  rw [Ideal.ofBits_zero_f32, broadcastTo_apply b _ (ix2 p q) (ix2 (0 : Fin 1) q) (fun a => by
    match a with
    | ⟨0, _⟩ => rfl
    | ⟨1, _⟩ => rfl)]

/-! ## The blocks read off the arrays -/

variable (V : (c : Dev nD) → (b : Ref sig .tc) → Buf (Elt Ideal) ((c : Thread nD τ).loc b))

/-- The three input arrays as the region finds them, at their literal types. -/
abbrev adjArr (c : Dev nD) : S10240x10240.Idx → EReal := V c main_v37
abbrev featArr (c : Dev nD) : S10240x128.Idx → EReal := V c main_v40
abbrev biasArr (c : Dev nD) : S1x128.Idx → EReal := V c main_v41

/-- The block indices at a point t = 5·i + k: the adjacency block is (i, k), the feature block (k, 0), the bias
    block (0, 0), the output block (i, 0). -/
theorem idx_facts : ∀ t : Fin cfg0.N,
    win0_0.index t (0 : Fin 2) = t.val / 5 ∧ win0_0.index t (1 : Fin 2) = t.val % 5
    ∧ win0_1.index t (0 : Fin 2) = t.val % 5 ∧ win0_1.index t (1 : Fin 2) = 0
    ∧ win0_2.index t (0 : Fin 2) = 0 ∧ win0_2.index t (1 : Fin 2) = 0
    ∧ win0_3.index t (0 : Fin 2) = t.val / 5 ∧ win0_3.index t (1 : Fin 2) = 0 :=
  (by decide +kernel : ∀ t : Fin grid0.N, _)

/-- An entry of the adjacency block at a point is the array's entry at row 1280·i + p, column 2048·k + j. -/
theorem ablk_apply (c : Dev nD) (t : Fin cfg0.N) (p : Fin 1280) (j : Fin 2048) (r k : Fin 10240)
    (hr : r.val = 1280 * (t.val / 5) + p.val) (hk : k.val = 2048 * (t.val % 5) + j.val) :
    ablk V c t (ix2 p j) = adjArr V c (ix2 r k) := by
  obtain ⟨e0, e1, -⟩ := idx_facts t
  unfold ablk iblk
  rw [View.read_apply]
  show V c main_v37 _ = V c main_v37 _
  congr 1
  funext a
  apply Fin.ext
  match a with
  | ⟨0, _⟩ => show win0_0.index t (0 : Fin 2) * 1280 + 1 * p.val = r.val; rw [e0, hr]; omega
  | ⟨1, _⟩ => show win0_0.index t (1 : Fin 2) * 2048 + 1 * j.val = k.val; rw [e1, hk]; omega

/-- An entry of the feature block at a point is the array's entry at row 2048·k + j, the same column. -/
theorem hblk_apply (c : Dev nD) (t : Fin cfg0.N) (j : Fin 2048) (q : Fin 128) (k : Fin 10240)
    (hk : k.val = 2048 * (t.val % 5) + j.val) :
    hblk V c t (ix2 j q) = featArr V c (ix2 k q) := by
  obtain ⟨-, -, e0, e1, -⟩ := idx_facts t
  unfold hblk iblk
  rw [View.read_apply]
  show V c main_v40 _ = V c main_v40 _
  congr 1
  funext a
  apply Fin.ext
  match a with
  | ⟨0, _⟩ => show win0_1.index t (0 : Fin 2) * 2048 + 1 * j.val = k.val; rw [e0, hk]; omega
  | ⟨1, _⟩ => show win0_1.index t (1 : Fin 2) * 128 + 1 * q.val = q.val; rw [e1]; omega

/-- The bias block at every point is the bias row. -/
theorem bblk_apply (c : Dev nD) (t : Fin cfg0.N) (q : Fin 128) :
    bblk V c t (ix2 (0 : Fin 1) q) = biasArr V c (ix2 (0 : Fin 1) q) := by
  obtain ⟨-, -, -, -, e0, e1, -⟩ := idx_facts t
  unfold bblk iblk
  rw [View.read_apply]
  show V c main_v41 _ = V c main_v41 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-! ## The accumulator, by induction on the point -/

/-- The part of the row-times-column sum over the columns below 2048·k. -/
def below (A : S10240x10240.Idx → EReal) (H : S10240x128.Idx → EReal) (r : Fin 10240) (q : Fin 128) (k : Nat) : EReal :=
  ∑ e ∈ Finset.univ.filter (fun e : Fin 10240 => e.val < 2048 * k ∧ True), A (ix2 r e) * H (ix2 e q)

theorem below_zero (A : S10240x10240.Idx → EReal) (H : S10240x128.Idx → EReal) (r : Fin 10240) (q : Fin 128) :
    below A H r q 0 = 0 :=
  BlockSum.sum_below_zero (B := 2048) (fun _ => True) (fun e : Fin 10240 => A (ix2 r e) * H (ix2 e q))

/-- One more block of 2048 columns. -/
theorem below_succ (A : S10240x10240.Idx → EReal) (H : S10240x128.Idx → EReal) (r : Fin 10240) (q : Fin 128)
    (k : Nat) (hk : 2048 * (k + 1) ≤ 10240) :
    below A H r q (k + 1)
      = below A H r q k + ∑ j : Fin 2048, A (ix2 r (BlockSum.pos k hk j)) * H (ix2 (BlockSum.pos k hk j) q) := by
  unfold below
  rw [BlockSum.sum_below_succ k hk (fun _ => True) (fun e : Fin 10240 => A (ix2 r e) * H (ix2 e q)),
    Finset.filter_true_of_mem (fun _ _ => trivial)]

/-- Five blocks are all the columns. -/
theorem below_all (A : S10240x10240.Idx → EReal) (H : S10240x128.Idx → EReal) (r : Fin 10240) (q : Fin 128) :
    below A H r q 5 = ∑ e : Fin 10240, A (ix2 r e) * H (ix2 e q) := by
  unfold below
  rw [BlockSum.sum_below_all (B := 2048) (T := 5) (by norm_num) (fun _ => True)
    (fun e : Fin 10240 => A (ix2 r e) * H (ix2 e q)), Finset.filter_true_of_mem (fun _ _ => trivial)]

/-- One accumulation step over blocks that are block k of row r and of column q: the sum below 2048·k becomes the sum
    below 2048·(k + 1). -/
theorem step_apply (A : S10240x10240.Idx → EReal) (H : S10240x128.Idx → EReal)
    (s : Vec Ideal S1280x128 .f32) (a : Vec Ideal S1280x2048 .bf16) (h : Vec Ideal S2048x128 .bf16)
    (p : Fin 1280) (q : Fin 128) (r : Fin 10240) (k : Nat) (hk : 2048 * (k + 1) ≤ 10240)
    (ha : ∀ j : Fin 2048, a (ix2 p j) = A (ix2 r (BlockSum.pos k hk j)))
    (hh : ∀ j : Fin 2048, h (ix2 j q) = H (ix2 (BlockSum.pos k hk j) q))
    (hs : s (ix2 p q) = below A H r q k) :
    k0_pay2 s a h (ix2 p q) = below A H r q (k + 1) := by
  rw [pay2_apply, hs, below_succ A H r q k hk]
  exact congrArg (below A H r q k + ·) (Finset.sum_congr rfl fun j _ => by rw [ha j, hh j])

/-- The same at a point t = 5·i + k of the grid, over that point's blocks. -/
theorem point_apply (c : Dev nD) (t : Fin cfg0.N) (s : Vec Ideal S1280x128 .f32)
    (p : Fin 1280) (q : Fin 128) (r : Fin 10240) (hr : r.val = 1280 * (t.val / 5) + p.val)
    (k : Nat) (hk : t.val % 5 = k)
    (hs : s (ix2 p q) = below (adjArr V c) (featArr V c) r q k) :
    k0_pay2 s (ablk V c t) (hblk V c t) (ix2 p q) = below (adjArr V c) (featArr V c) r q (k + 1) := by
  have hk5 : 2048 * (k + 1) ≤ 10240 := by omega
  exact step_apply (adjArr V c) (featArr V c) s (ablk V c t) (hblk V c t) p q r k hk5
    (fun j => ablk_apply V c t p j r (BlockSum.pos k hk5 j) hr (by show 2048 * k + j.val = _; rw [hk]))
    (fun j => hblk_apply V c t j q (BlockSum.pos k hk5 j) (by show 2048 * k + j.val = _; rw [hk]))
    hs

/-- The accumulator after point n = 5·i + k, at (p, q): the sum over the columns below 2048·(k + 1) of row
    1280·i + p times column q. -/
theorem acc_apply (c : Dev nD) : ∀ (n : Nat) (hn : n < cfg0.N) (p : Fin 1280) (q : Fin 128) (r : Fin 10240),
    r.val = 1280 * (n / 5) + p.val →
      acc V c n hn (ix2 p q) = below (adjArr V c) (featArr V c) r q (n % 5 + 1)
  | 0, hn, p, q, r, hr => by
    show k0_pay2 (k0_pay1 (F := Ideal)) (ablk V c ⟨0, hn⟩) (hblk V c ⟨0, hn⟩) (ix2 p q) = _
    exact point_apply V c ⟨0, hn⟩ (k0_pay1 (F := Ideal)) p q r hr 0 rfl
      ((pay1_apply p q).trans (below_zero (adjArr V c) (featArr V c) r q).symm)
  | n + 1, hn, p, q, r, hr => by
    by_cases h0 : (n + 1) % 5 = 0
    · have e : acc V c (n + 1) hn
          = k0_pay2 (k0_pay1 (F := Ideal)) (ablk V c ⟨n + 1, hn⟩) (hblk V c ⟨n + 1, hn⟩) := by
        rw [acc, if_pos h0]
      refine (congrFun e (ix2 p q)).trans ?_
      rw [h0]
      exact point_apply V c ⟨n + 1, hn⟩ (k0_pay1 (F := Ideal)) p q r hr 0 h0
        ((pay1_apply p q).trans (below_zero (adjArr V c) (featArr V c) r q).symm)
    · have e : acc V c (n + 1) hn
          = k0_pay2 (acc V c n (Nat.lt_of_succ_lt hn)) (ablk V c ⟨n + 1, hn⟩) (hblk V c ⟨n + 1, hn⟩) := by
        rw [acc, if_neg h0]
      refine (congrFun e (ix2 p q)).trans ?_
      have hm : (n + 1) % 5 = n % 5 + 1 := by omega
      rw [hm]
      exact point_apply V c ⟨n + 1, hn⟩ (acc V c n (Nat.lt_of_succ_lt hn)) p q r hr (n % 5 + 1) hm
        (acc_apply c n (Nat.lt_of_succ_lt hn) p q r (by rw [hr]; omega))

/-! ## The output block, the cover, the array -/

/-- The output block at a point with k = 4, at (p, q): the last step of the aggregation at row 1280·i + p. -/
theorem outb_apply (c : Dev nD) (t : Fin cfg0.N) (ht : t.val % 5 = 4) (p : Fin 1280) (q : Fin 128) (r : Fin 10240)
    (hr : r.val = 1280 * (t.val / 5) + p.val) :
    outb V c t (ix2 p q) = lastStep (Cert.Spec.aggAt (adjArr V c) (featArr V c) (biasArr V c) r q) := by
  unfold outb
  refine (pay3_apply (acc V c t.val t.isLt) (bblk V c t) p q).trans ?_
  rw [acc_apply V c t.val t.isLt p q r hr, ht, bblk_apply V c t q, below_all]
  rfl
/-- What the output array ends holding. -/
def result (c : Dev nD) : S10240x128.Idx → EReal :=
  fun i => lastStep (Cert.Spec.aggAt (adjArr V c) (featArr V c) (biasArr V c) (i 0) (i 1))

/-- What a point with k = 4 writes back is its block of `result`. -/
theorem flushed_eq (c : Dev nD) (t : Fin cfg0.N) (hf : (cfg0.win 3).flush t = true) :
    (dat (F := Ideal) V c).flushed 3 t = ((cfg0.win 3).blk t).view.read (Elt Ideal) (result V c) := by
  have ht : t.val % 5 = 4 := (flush0_3 t).mp hf
  obtain ⟨-, -, -, -, -, -, e0, e1⟩ := idx_facts t
  show (cfg0.win 3).cut (grid0.coords t) ((dat (F := Ideal) V c).after 3 t) = _
  dsimp only [dat]
  funext y
  rw [View.read_apply]
  show outb V c t y = result V c (((cfg0.win 3).blk t).view.emb y)
  have hy0 : (y 0).val < 1280 := (y 0).isLt
  refine (congrArg (outb V c t) (eq_ix2 (n0 := 1280) (n1 := 128) y)).trans ?_
  refine (outb_apply V c t ht (y 0) (y 1) ⟨1280 * (t.val / 5) + (y 0).val, by have := t.isLt; have hN : cfg0.N = 40 := N_0; omega⟩ rfl).trans ?_
  unfold result
  congr 2 <;> apply Fin.ext
  · show 1280 * (t.val / 5) + (y 0).val = win0_3.index t (0 : Fin 2) * 1280 + 1 * (y 0).val
    rw [e0]; omega
  · show (y 1).val = win0_3.index t (1 : Fin 2) * 128 + 1 * (y 1).val
    rw [e1]; omega

/-- An index of the output array is in a point's block iff each coordinate is in the block's range. -/
theorem mem_out_blk (t : Fin cfg0.N) (i : S10240x128.Idx) :
    i ∈ ((cfg0.win 3).blk t).view.set ↔ ∀ a : Fin 2, win0_3.index t a * S1280x128.size a ≤ (i a).val
      ∧ (i a).val < win0_3.index t a * S1280x128.size a + S1280x128.size a := by
  show i ∈ ((View.whole main_v42).slice (win0_3.rect t)).set ↔ _
  rw [View.set_slice_whole, Rect.mem_set_unit]
  exact Iff.rfl

/-- Row r is written back by the point 5·(r / 1280) + 4. -/
theorem cover (i : S10240x128.Idx) :
    ∃ t : Fin cfg0.N, (cfg0.win 3).flush t = true ∧ i ∈ ((cfg0.win 3).blk t).view.set := by
  have hN : cfg0.N = 40 := N_0
  have hi0 : (i 0).val < 10240 := (i 0).isLt
  have hi1 : (i 1).val < 128 := (i 1).isLt
  let t : Fin cfg0.N := ⟨5 * ((i 0).val / 1280) + 4, by omega⟩
  obtain ⟨-, -, -, -, -, -, e0, e1⟩ := idx_facts t
  have tv : t.val = 5 * ((i 0).val / 1280) + 4 := rfl
  refine ⟨t, (flush0_3 t).mpr (by rw [tv]; omega), ?_⟩
  rw [mem_out_blk]
  intro a
  match a with
  | ⟨0, _⟩ =>
    show win0_3.index t (0 : Fin 2) * 1280 ≤ (i 0).val ∧ (i 0).val < win0_3.index t (0 : Fin 2) * 1280 + 1280
    rw [e0, tv]; omega
  | ⟨1, _⟩ =>
    show win0_3.index t (1 : Fin 2) * 128 ≤ (i 1).val ∧ (i 1).val < win0_3.index t (1 : Fin 2) * 128 + 128
    rw [e1]; omega

/-- The output array after the region, at (r, q). -/
theorem arrAt_out (c : Dev nD) (r : Fin 10240) (q : Fin 128) :
    (dat (F := Ideal) V c).arrAt 3 cfg0.N (ix2 r q)
      = max (Cert.Spec.aggAt (V c main_v37) (V c main_v40) (V c main_v41) r q) 0 :=
  congrFun ((dat (F := Ideal) V c).arrAt_eq_of_cover 3 (result V c) (flushed_eq V c) cover) (ix2 r q)

end Cert.KernelIdeal.R0

end
-- ==== Proof.R1Value.lean ====
/-
  Region 1, the value: after the run the output array holds, at row r and column q, the
  aggregation of the region-entry arrays — the five accumulation steps of a row block are the five column
  blocks of one row-times-column sum.

  In order: each of the body's three values read at an entry over the extended reals (the reset value is zero,
  an accumulation step adds the row-times-column sum of its two blocks, the output step adds the bias);
  each input block read off its array (a block's coordinate is its block index times the block's
  extent plus the coordinate inside the block); the accumulator after point 5·i + k as the sum over the columns
  below 2048·(k + 1), by induction on the point; the block a point with k = 4 writes back as its block of one
  function of the arrays; every row lies in exactly the block of the point 5·(r / 1280) + 4, so the array ends
  holding that function.
-/
import proofs.«429290_j51634096832829_1_alg».proof.Proof.R1Defs
import proofs.«429290_j51634096832829_1_alg».proof.Proof.Spec
import proofs.«429290_j51634096832829_1_alg».proof.Proof.LibPlainDot
import proofs.«429290_j51634096832829_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.ShloMosaic.Pipeline (Dat Cfg Window)

/-! ## The body's three values at an entry -/

/-- What the output step makes of an accumulated entry plus its bias: nothing more. -/
abbrev lastStep (x : EReal) : EReal := x

/-- The reset value is zero everywhere. -/
theorem pay1_apply (p : Fin 1280) (q : Fin 40) : k1_pay1 (F := Ideal) (ix2 p q) = 0 := by
  unfold k1_pay1
  rw [shapeCast_self]
  exact Ideal.ofBits_zero_f32

/-- One accumulation step at an entry: what was there plus the row-times-column sum of the two blocks. -/
theorem pay2_apply (s : Vec Ideal S1280x40 .f32) (a : Vec Ideal S1280x2048 .bf16) (h : Vec Ideal S2048x40 .bf16)
    (p : Fin 1280) (q : Fin 40) :
    k1_pay2 s a h (ix2 p q) = s (ix2 p q) + ∑ j : Fin 2048, a (ix2 p j) * h (ix2 j q) := by
  unfold k1_pay2
  rw [shapeCast_self, shapeCast_self, shapeCast_self]
  refine (addf_apply _ _ _).trans ?_
  refine congrArg (s (ix2 p q) + ·) ?_
  refine (Ideal.matmul_constant_zero_apply (φ₁ := .bf16) (φ₂ := .bf16) dot_S1280x2048_S2048x40_S1280x40_1_0_0_1_n_n none a h (ix2 p q)).trans ?_
  exact PlainDot.sum_eq dot_S1280x2048_S2048x40_S1280x40_1_0_0_1_n_n rfl rfl rfl rfl rfl rfl a h p q

/-- The output step at an entry: the last step of the accumulator plus the bias of the column. -/
theorem pay3_apply (s : Vec Ideal S1280x40 .f32) (b : Vec Ideal S1x40 .f32) (p : Fin 1280) (q : Fin 40) :
    k1_pay3 s b (ix2 p q) = lastStep (s (ix2 p q) + b (ix2 (0 : Fin 1) q)) := by
  unfold k1_pay3
  rw [shapeCast_self]
  show s (ix2 p q) + broadcastTo S1280x40 b _ (ix2 p q) = _
  rw [broadcastTo_apply b _ (ix2 p q) (ix2 (0 : Fin 1) q) (fun a => by
    match a with
    | ⟨0, _⟩ => rfl
    | ⟨1, _⟩ => rfl)]

/-! ## The blocks read off the arrays -/

variable (V : (c : Dev nD) → (b : Ref sig .tc) → Buf (Elt Ideal) ((c : Thread nD τ).loc b))

/-- The three input arrays as the region finds them, at their literal types. -/
abbrev adjArr (c : Dev nD) : S10240x10240.Idx → EReal := V c main_v37
abbrev featArr (c : Dev nD) : S10240x40.Idx → EReal := V c main_v44
abbrev biasArr (c : Dev nD) : S1x40.Idx → EReal := V c main_v45

/-- The block indices at a point t = 5·i + k: the adjacency block is (i, k), the feature block (k, 0), the bias
    block (0, 0), the output block (i, 0). -/
theorem idx_facts : ∀ t : Fin cfg1.N,
    win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = 0 ∧ win1_2.index t (1 : Fin 2) = 0
    ∧ win1_3.index t (0 : Fin 2) = t.val / 5 ∧ win1_3.index t (1 : Fin 2) = 0 :=
  (by decide +kernel : ∀ t : Fin grid1.N, _)

/-- An entry of the adjacency block at a point is the array's entry at row 1280·i + p, column 2048·k + j. -/
theorem ablk_apply (c : Dev nD) (t : Fin cfg1.N) (p : Fin 1280) (j : Fin 2048) (r k : Fin 10240)
    (hr : r.val = 1280 * (t.val / 5) + p.val) (hk : k.val = 2048 * (t.val % 5) + j.val) :
    ablk V c t (ix2 p j) = adjArr V c (ix2 r k) := by
  obtain ⟨e0, e1, -⟩ := idx_facts t
  unfold ablk iblk
  rw [View.read_apply]
  show V c main_v37 _ = V c main_v37 _
  congr 1
  funext a
  apply Fin.ext
  match a with
  | ⟨0, _⟩ => show win1_0.index t (0 : Fin 2) * 1280 + 1 * p.val = r.val; rw [e0, hr]; omega
  | ⟨1, _⟩ => show win1_0.index t (1 : Fin 2) * 2048 + 1 * j.val = k.val; rw [e1, hk]; omega

/-- An entry of the feature block at a point is the array's entry at row 2048·k + j, the same column. -/
theorem hblk_apply (c : Dev nD) (t : Fin cfg1.N) (j : Fin 2048) (q : Fin 40) (k : Fin 10240)
    (hk : k.val = 2048 * (t.val % 5) + j.val) :
    hblk V c t (ix2 j q) = featArr V c (ix2 k q) := by
  obtain ⟨-, -, e0, e1, -⟩ := idx_facts t
  unfold hblk iblk
  rw [View.read_apply]
  show V c main_v44 _ = V c main_v44 _
  congr 1
  funext a
  apply Fin.ext
  match a with
  | ⟨0, _⟩ => show win1_1.index t (0 : Fin 2) * 2048 + 1 * j.val = k.val; rw [e0, hk]; omega
  | ⟨1, _⟩ => show win1_1.index t (1 : Fin 2) * 40 + 1 * q.val = q.val; rw [e1]; omega

/-- The bias block at every point is the bias row. -/
theorem bblk_apply (c : Dev nD) (t : Fin cfg1.N) (q : Fin 40) :
    bblk V c t (ix2 (0 : Fin 1) q) = biasArr V c (ix2 (0 : Fin 1) q) := by
  obtain ⟨-, -, -, -, e0, e1, -⟩ := idx_facts t
  unfold bblk iblk
  rw [View.read_apply]
  show V c main_v45 _ = V c main_v45 _
  congr 1
  funext a
  apply Fin.ext
  match a with
  | ⟨0, _⟩ => show win1_2.index t (0 : Fin 2) * 1 + 1 * 0 = 0; rw [e0]
  | ⟨1, _⟩ => show win1_2.index t (1 : Fin 2) * 40 + 1 * q.val = q.val; rw [e1]; omega

/-! ## The accumulator, by induction on the point -/

/-- The part of the row-times-column sum over the columns below 2048·k. -/
def below (A : S10240x10240.Idx → EReal) (H : S10240x40.Idx → EReal) (r : Fin 10240) (q : Fin 40) (k : Nat) : EReal :=
  ∑ e ∈ Finset.univ.filter (fun e : Fin 10240 => e.val < 2048 * k ∧ True), A (ix2 r e) * H (ix2 e q)

theorem below_zero (A : S10240x10240.Idx → EReal) (H : S10240x40.Idx → EReal) (r : Fin 10240) (q : Fin 40) :
    below A H r q 0 = 0 :=
  BlockSum.sum_below_zero (B := 2048) (fun _ => True) (fun e : Fin 10240 => A (ix2 r e) * H (ix2 e q))

/-- One more block of 2048 columns. -/
theorem below_succ (A : S10240x10240.Idx → EReal) (H : S10240x40.Idx → EReal) (r : Fin 10240) (q : Fin 40)
    (k : Nat) (hk : 2048 * (k + 1) ≤ 10240) :
    below A H r q (k + 1)
      = below A H r q k + ∑ j : Fin 2048, A (ix2 r (BlockSum.pos k hk j)) * H (ix2 (BlockSum.pos k hk j) q) := by
  unfold below
  rw [BlockSum.sum_below_succ k hk (fun _ => True) (fun e : Fin 10240 => A (ix2 r e) * H (ix2 e q)),
    Finset.filter_true_of_mem (fun _ _ => trivial)]

/-- Five blocks are all the columns. -/
theorem below_all (A : S10240x10240.Idx → EReal) (H : S10240x40.Idx → EReal) (r : Fin 10240) (q : Fin 40) :
    below A H r q 5 = ∑ e : Fin 10240, A (ix2 r e) * H (ix2 e q) := by
  unfold below
  rw [BlockSum.sum_below_all (B := 2048) (T := 5) (by norm_num) (fun _ => True)
    (fun e : Fin 10240 => A (ix2 r e) * H (ix2 e q)), Finset.filter_true_of_mem (fun _ _ => trivial)]

/-- One accumulation step over blocks that are block k of row r and of column q: the sum below 2048·k becomes the sum
    below 2048·(k + 1). -/
theorem step_apply (A : S10240x10240.Idx → EReal) (H : S10240x40.Idx → EReal)
    (s : Vec Ideal S1280x40 .f32) (a : Vec Ideal S1280x2048 .bf16) (h : Vec Ideal S2048x40 .bf16)
    (p : Fin 1280) (q : Fin 40) (r : Fin 10240) (k : Nat) (hk : 2048 * (k + 1) ≤ 10240)
    (ha : ∀ j : Fin 2048, a (ix2 p j) = A (ix2 r (BlockSum.pos k hk j)))
    (hh : ∀ j : Fin 2048, h (ix2 j q) = H (ix2 (BlockSum.pos k hk j) q))
    (hs : s (ix2 p q) = below A H r q k) :
    k1_pay2 s a h (ix2 p q) = below A H r q (k + 1) := by
  rw [pay2_apply, hs, below_succ A H r q k hk]
  exact congrArg (below A H r q k + ·) (Finset.sum_congr rfl fun j _ => by rw [ha j, hh j])

/-- The same at a point t = 5·i + k of the grid, over that point's blocks. -/
theorem point_apply (c : Dev nD) (t : Fin cfg1.N) (s : Vec Ideal S1280x40 .f32)
    (p : Fin 1280) (q : Fin 40) (r : Fin 10240) (hr : r.val = 1280 * (t.val / 5) + p.val)
    (k : Nat) (hk : t.val % 5 = k)
    (hs : s (ix2 p q) = below (adjArr V c) (featArr V c) r q k) :
    k1_pay2 s (ablk V c t) (hblk V c t) (ix2 p q) = below (adjArr V c) (featArr V c) r q (k + 1) := by
  have hk5 : 2048 * (k + 1) ≤ 10240 := by omega
  exact step_apply (adjArr V c) (featArr V c) s (ablk V c t) (hblk V c t) p q r k hk5
    (fun j => ablk_apply V c t p j r (BlockSum.pos k hk5 j) hr (by show 2048 * k + j.val = _; rw [hk]))
    (fun j => hblk_apply V c t j q (BlockSum.pos k hk5 j) (by show 2048 * k + j.val = _; rw [hk]))
    hs

/-- The accumulator after point n = 5·i + k, at (p, q): the sum over the columns below 2048·(k + 1) of row
    1280·i + p times column q. -/
theorem acc_apply (c : Dev nD) : ∀ (n : Nat) (hn : n < cfg1.N) (p : Fin 1280) (q : Fin 40) (r : Fin 10240),
    r.val = 1280 * (n / 5) + p.val →
      acc V c n hn (ix2 p q) = below (adjArr V c) (featArr V c) r q (n % 5 + 1)
  | 0, hn, p, q, r, hr => by
    show k1_pay2 (k1_pay1 (F := Ideal)) (ablk V c ⟨0, hn⟩) (hblk V c ⟨0, hn⟩) (ix2 p q) = _
    exact point_apply V c ⟨0, hn⟩ (k1_pay1 (F := Ideal)) p q r hr 0 rfl
      ((pay1_apply p q).trans (below_zero (adjArr V c) (featArr V c) r q).symm)
  | n + 1, hn, p, q, r, hr => by
    by_cases h0 : (n + 1) % 5 = 0
    · have e : acc V c (n + 1) hn
          = k1_pay2 (k1_pay1 (F := Ideal)) (ablk V c ⟨n + 1, hn⟩) (hblk V c ⟨n + 1, hn⟩) := by
        rw [acc, if_pos h0]
      refine (congrFun e (ix2 p q)).trans ?_
      rw [h0]
      exact point_apply V c ⟨n + 1, hn⟩ (k1_pay1 (F := Ideal)) p q r hr 0 h0
        ((pay1_apply p q).trans (below_zero (adjArr V c) (featArr V c) r q).symm)
    · have e : acc V c (n + 1) hn
          = k1_pay2 (acc V c n (Nat.lt_of_succ_lt hn)) (ablk V c ⟨n + 1, hn⟩) (hblk V c ⟨n + 1, hn⟩) := by
        rw [acc, if_neg h0]
      refine (congrFun e (ix2 p q)).trans ?_
      have hm : (n + 1) % 5 = n % 5 + 1 := by omega
      rw [hm]
      exact point_apply V c ⟨n + 1, hn⟩ (acc V c n (Nat.lt_of_succ_lt hn)) p q r hr (n % 5 + 1) hm
        (acc_apply c n (Nat.lt_of_succ_lt hn) p q r (by rw [hr]; omega))

/-! ## The output block, the cover, the array -/

/-- The output block at a point with k = 4, at (p, q): the last step of the aggregation at row 1280·i + p. -/
theorem outb_apply (c : Dev nD) (t : Fin cfg1.N) (ht : t.val % 5 = 4) (p : Fin 1280) (q : Fin 40) (r : Fin 10240)
    (hr : r.val = 1280 * (t.val / 5) + p.val) :
    outb V c t (ix2 p q) = lastStep (Cert.Spec.aggAt (adjArr V c) (featArr V c) (biasArr V c) r q) := by
  unfold outb
  refine (pay3_apply (acc V c t.val t.isLt) (bblk V c t) p q).trans ?_
  rw [acc_apply V c t.val t.isLt p q r hr, ht, bblk_apply V c t q, below_all]
  rfl
/-- What the output array ends holding. -/
def result (c : Dev nD) : S10240x40.Idx → EReal :=
  fun i => lastStep (Cert.Spec.aggAt (adjArr V c) (featArr V c) (biasArr V c) (i 0) (i 1))

/-- What a point with k = 4 writes back is its block of `result`. -/
theorem flushed_eq (c : Dev nD) (t : Fin cfg1.N) (hf : (cfg1.win 3).flush t = true) :
    (dat (F := Ideal) V c).flushed 3 t = ((cfg1.win 3).blk t).view.read (Elt Ideal) (result V c) := by
  have ht : t.val % 5 = 4 := (flush1_3 t).mp hf
  obtain ⟨-, -, -, -, -, -, e0, e1⟩ := idx_facts t
  show (cfg1.win 3).cut (grid1.coords t) ((dat (F := Ideal) V c).after 3 t) = _
  dsimp only [dat]
  funext y
  rw [View.read_apply]
  show outb V c t y = result V c (((cfg1.win 3).blk t).view.emb y)
  have hy0 : (y 0).val < 1280 := (y 0).isLt
  refine (congrArg (outb V c t) (eq_ix2 (n0 := 1280) (n1 := 40) y)).trans ?_
  refine (outb_apply V c t ht (y 0) (y 1) ⟨1280 * (t.val / 5) + (y 0).val, by have := t.isLt; have hN : cfg1.N = 40 := N_1; omega⟩ rfl).trans ?_
  unfold result
  congr 2 <;> apply Fin.ext
  · show 1280 * (t.val / 5) + (y 0).val = win1_3.index t (0 : Fin 2) * 1280 + 1 * (y 0).val
    rw [e0]; omega
  · show (y 1).val = win1_3.index t (1 : Fin 2) * 40 + 1 * (y 1).val
    rw [e1]; omega

/-- An index of the output array is in a point's block iff each coordinate is in the block's range. -/
theorem mem_out_blk (t : Fin cfg1.N) (i : S10240x40.Idx) :
    i ∈ ((cfg1.win 3).blk t).view.set ↔ ∀ a : Fin 2, win1_3.index t a * S1280x40.size a ≤ (i a).val
      ∧ (i a).val < win1_3.index t a * S1280x40.size a + S1280x40.size a := by
  show i ∈ ((View.whole main_v46).slice (win1_3.rect t)).set ↔ _
  rw [View.set_slice_whole, Rect.mem_set_unit]
  exact Iff.rfl

/-- Row r is written back by the point 5·(r / 1280) + 4. -/
theorem cover (i : S10240x40.Idx) :
    ∃ t : Fin cfg1.N, (cfg1.win 3).flush t = true ∧ i ∈ ((cfg1.win 3).blk t).view.set := by
  have hN : cfg1.N = 40 := N_1
  have hi0 : (i 0).val < 10240 := (i 0).isLt
  have hi1 : (i 1).val < 40 := (i 1).isLt
  let t : Fin cfg1.N := ⟨5 * ((i 0).val / 1280) + 4, by omega⟩
  obtain ⟨-, -, -, -, -, -, e0, e1⟩ := idx_facts t
  have tv : t.val = 5 * ((i 0).val / 1280) + 4 := rfl
  refine ⟨t, (flush1_3 t).mpr (by rw [tv]; omega), ?_⟩
  rw [mem_out_blk]
  intro a
  match a with
  | ⟨0, _⟩ =>
    show win1_3.index t (0 : Fin 2) * 1280 ≤ (i 0).val ∧ (i 0).val < win1_3.index t (0 : Fin 2) * 1280 + 1280
    rw [e0, tv]; omega
  | ⟨1, _⟩ =>
    show win1_3.index t (1 : Fin 2) * 40 ≤ (i 1).val ∧ (i 1).val < win1_3.index t (1 : Fin 2) * 40 + 40
    rw [e1]; omega

/-- The output array after the region, at (r, q). -/
theorem arrAt_out (c : Dev nD) (r : Fin 10240) (q : Fin 40) :
    (dat (F := Ideal) V c).arrAt 3 cfg1.N (ix2 r q)
      = Cert.Spec.aggAt (V c main_v37) (V c main_v44) (V c main_v45) r q :=
  congrFun ((dat (F := Ideal) V c).arrAt_eq_of_cover 3 (result V c) (flushed_eq V c) cover) (ix2 r q)

end Cert.KernelIdeal.R1

end
-- ==== Proof.LibRowIndex.lean ====
import Idealize.ShloMosaic.Lib.StableHlo.Predicate

/-!
# Row gathers and row scatters read at an index

A table of `N` rows of `C` columns, indexed along its rows by a column of `n` positions:

* the row gather (the row axis collapsed and named by the one start-index component, the column axis kept
  whole) reads, at `(e, j)`, row `idx[e]` — read signed and clamped into the table — at column `j`;
* the row scatter (the row axis inserted and named by the one scatter-index component, the column axis the
  update's window) sends update `(e, j)` to row `idx[e]`, read signed and NOT clamped: an update that is kept
  lands on exactly the row its index names.
-/

namespace Idealize.ShloMosaic.RowIndex

open Idealize.ShloMosaic Idealize.ShloMosaic.StableHlo.Predicate

/-! ## The row scatter -/

/-- The start of update `y`'s window on the row axis is its scatter index, read signed. -/
theorem scatter_rows_start {N C n w : Nat} (d : ScatterDims ⟨2, ![N, C]⟩ ⟨2, ![n, 1]⟩ ⟨2, ![n, C]⟩)
    (hu : d.updateWindowDims = [1]) (hs : d.scatterDimsToOperandDims = [0]) (hv : d.indexVectorDim = 1)
    (idx : IVec ⟨2, ![n, 1]⟩ w) (y : (⟨2, ![n, C]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 2, q = 0 → (y q).val = (y 0).val := fun q hq => by subst hq; rfl
    exact e _ (by rfl)
  | ⟨1, _⟩ =>
    unfold ScatterDims.siIdx
    rw [dif_pos (by simp)]
    apply Fin.ext
    show List.idxOf (0 : Fin 2) [0] = 0
    simp

/-- The row axis is inserted: an update has no window coordinate on it. -/
theorem scatter_rows_window0 {N C n : Nat} (d : ScatterDims ⟨2, ![N, C]⟩ ⟨2, ![n, 1]⟩ ⟨2, ![n, C]⟩)
    (hi : d.insertedWindowDims = [0]) (y : (⟨2, ![n, C]⟩ : Shape).Idx) : d.window y 0 = 0 := by
  unfold ScatterDims.window
  rw [dif_neg (by rw [ScatterDims.sKept, hi]; simp [Shape.kept])]

/-- An update of a row scatter that is kept lands on the row its index names. -/
theorem scatter_rows_lands {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (y : (⟨2, ![n, C]⟩ : Shape).Idx)
    (i : (⟨2, ![N, C]⟩ : Shape).Idx) (h : d.resultIdx? y idx = some i) :
    (idx (ixP (n := n) (y 0))).toInt = ((i 0).val : Int) := by
  have hst := scatter_rows_start d hu hs hv idx y
  have hw := scatter_rows_window0 d hi y
  unfold ScatterDims.resultIdx? at h
  split at h
  · next hall =>
    have h0 := (hall 0).1
    have hi0 := congrArg Fin.val (congrFun (Option.some.inj h) 0)
    simp only [] at hi0
    omega
  · exact absurd h (by simp)

/-! ## The row gather -/

/-- The start of result `y`'s slice on the row axis is its start index, read signed and clamped into the table. -/
theorem gather_rows_start {N C n w : Nat} (d : GatherDims ⟨2, ![N, C]⟩ ⟨2, ![n, 1]⟩ ⟨2, ![n, C]⟩)
    (hoff : d.offsetDims = [1]) (hcoll : d.collapsedSliceDims = [0])
    (hsim : d.startIndexMap = [0]) (hivd : d.indexVectorDim = 1)
    (idx : IVec ⟨2, ![n, 1]⟩ w) (y : (⟨2, ![n, C]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 2, q = 0 → (y q).val = (y 0).val := fun q hq => by subst hq; rfl
    exact e _ (by rfl)
  | ⟨1, _⟩ =>
    unfold GatherDims.siIdx
    rw [dif_pos (by simp)]
    apply Fin.ext
    show List.idxOf (0 : Fin 2) [0] = 0
    simp

/-- The column axis is the one kept axis: result `y`'s offset on it is its own column. -/
theorem gather_rows_off1 {N C n : Nat} (d : GatherDims ⟨2, ![N, C]⟩ ⟨2, ![n, 1]⟩ ⟨2, ![n, C]⟩)
    (hoff : d.offsetDims = [1]) (hcoll : d.collapsedSliceDims = [0]) (hob : d.operandBatchingDims = [])
    (y : (⟨2, ![n, C]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 2, q = 1 → (y q).val = (y 1).val := fun q hq => by subst hq; rfl
  exact e _ (by rfl)

/-- A row gather read at `(e, j)`: row `idx[e]`, read signed and clamped into the table, at column `j`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) (hN : 0 < N) :
    Host.gather d x idx (ij e j) = x (ij ⟨min (idx (ixP e)).toInt.toNat (N - 1), by omega⟩ j) := by
  unfold Host.gather
  congr 1
  funext a
  have hnb : ∀ a : Fin 2, a ∉ d.operandBatchingDims := fun a => by rw [hob]; exact List.not_mem_nil
  match a with
  | ⟨0, _⟩ =>
    apply Fin.ext
    have hb := d.batchCoord_eq_zero (ij e j) 0 (hnb 0)
    have ho := d.offCoord_eq_zero (ij e j) 0 (by rw [GatherDims.mem_sKept, hcoll]; simp)
    have hst : d.start (ij e j) idx 0 = min (idx (ixP e)).toInt.toNat (N - 1) :=
      gather_rows_start d hoff hcoll hsim hivd idx (ij e j)
    show d.start (ij e j) idx 0 + d.batchCoord (ij e j) 0 + d.offCoord (ij e j) 0 = min (idx (ixP e)).toInt.toNat (N - 1)
    omega
  | ⟨1, _⟩ =>
    apply Fin.ext
    have hb := d.batchCoord_eq_zero (ij e j) 1 (hnb 1)
    have ho : d.offCoord (ij e j) 1 = j.val := gather_rows_off1 d hoff hcoll hob (ij e j)
    have hst : d.start (ij e j) idx 1 = 0 := by
      unfold GatherDims.start
      rw [dif_neg (by rw [hsim]; simp)]
    show d.start (ij e j) idx 1 + d.batchCoord (ij e j) 1 + d.offCoord (ij e j) 1 = j.val
    omega

end Idealize.ShloMosaic.RowIndex
-- ==== Proof.LibVecIndex.lean ====
/-
  A scatter into, and a gather out of, a rank-1 table through an [n × 1] column of index words, at abstract
  extents: an update lands on the entry its index word names (read signed, not clamped: a word outside the
  table lands nowhere), so the updates that land on entry i are those whose word reads i; a gather reads
  the entry its word names, read signed and clamped into the table.
-/
import proofs.«429290_j51634096832829_1_alg».proof.Proof.LibRowIndex
import Idealize.ShloMosaic.PureOps.Ideal
import Idealize.ShloMosaic.Lib.ValueIdx

noncomputable section

namespace Idealize.ShloMosaic.RowIndex

open Idealize.ShloMosaic Idealize.ShloMosaic.StableHlo.Predicate Idealize.ShloMosaic.ValueIdx

/-- The start of update y's window on the table's one axis is its index word, read signed. -/
theorem scatter_vec_start {N n w : Nat} (d : ScatterDims ⟨1, ![N]⟩ ⟨2, ![n, 1]⟩ ⟨1, ![n]⟩)
    (hu : d.updateWindowDims = []) (hs : d.scatterDimsToOperandDims = [0]) (hv : d.indexVectorDim = 1)
    (idx : IVec ⟨2, ![n, 1]⟩ w) (y : (⟨1, ![n]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 1, (y q).val = (y 0).val := fun q => by
      have hq : q = 0 := Subsingleton.elim _ _
      subst hq; rfl
    exact e _
  | ⟨1, _⟩ =>
    unfold ScatterDims.siIdx
    rw [dif_pos (by simp)]
    apply Fin.ext
    show List.idxOf (0 : Fin 1) [0] = 0
    simp

/-- The table's one axis is inserted: an update has no window coordinate on it. -/
theorem scatter_vec_window0 {N n : Nat} (d : ScatterDims ⟨1, ![N]⟩ ⟨2, ![n, 1]⟩ ⟨1, ![n]⟩)
    (hi : d.insertedWindowDims = [0]) (y : (⟨1, ![n]⟩ : Shape).Idx) : d.window y 0 = 0 := by
  unfold ScatterDims.window
  rw [dif_neg (by rw [ScatterDims.sKept, hi]; simp [Shape.kept])]

/-- Update j of a scatter into a vector lands on entry i exactly when its index word reads i. -/
theorem scatter_vec_iff {N n w : Nat} (d : ScatterDims ⟨1, ![N]⟩ ⟨2, ![n, 1]⟩ ⟨1, ![n]⟩)
    (hu : d.updateWindowDims = []) (hi : d.insertedWindowDims = [0]) (hs : d.scatterDimsToOperandDims = [0])
    (hv : d.indexVectorDim = 1) (idx : IVec ⟨2, ![n, 1]⟩ w) (j : (⟨1, ![n]⟩ : Shape).Idx)
    (i : (⟨1, ![N]⟩ : Shape).Idx) :
    d.resultIdx? j idx = some i ↔ (idx (ixP (n := n) (j 0))).toInt = ((i 0).val : Int) := by
  have hst0 := scatter_vec_start d hu hs hv idx j
  have hw0 := scatter_vec_window0 d hi j
  have hiN : (i 0).val < N := (i 0).isLt
  constructor
  · intro h
    unfold ScatterDims.resultIdx? at h
    split at h
    · next hall =>
      have h0 := (hall 0).1
      have hi0 := congrArg Fin.val (congrFun (Option.some.inj h) 0)
      simp only [] at hi0
      omega
    · exact absurd h (by simp)
  · intro h0
    have hall : ∀ a, 0 ≤ d.start j idx a + d.window j a ∧ d.start j idx a + d.window j a < (⟨1, ![N]⟩ : Shape).size a := by
      intro a
      match a with
      | ⟨0, _⟩ =>
        show 0 ≤ d.start j idx 0 + d.window j 0 ∧ d.start j idx 0 + d.window j 0 < (N : Int)
        omega
    unfold ScatterDims.resultIdx?
    rw [dif_pos hall]
    congr 1
    funext a
    match a with
    | ⟨0, _⟩ =>
      apply Fin.ext
      show (d.start j idx 0 + d.window j 0).toNat = (i 0).val
      omega

/-- A sum over the updates of a scatter into a vector that land on entry i is the sum over the positions whose
    index word reads i. -/
theorem scatter_vec_sum {M : Type} [AddCommMonoid M] {N n w : Nat} (d : ScatterDims ⟨1, ![N]⟩ ⟨2, ![n, 1]⟩ ⟨1, ![n]⟩)
    (hu : d.updateWindowDims = []) (hi : d.insertedWindowDims = [0]) (hs : d.scatterDimsToOperandDims = [0])
    (hv : d.indexVectorDim = 1) (idx : IVec ⟨2, ![n, 1]⟩ w) (upd : (⟨1, ![n]⟩ : Shape).Idx → M)
    (i : (⟨1, ![N]⟩ : Shape).Idx) :
    ∑ j ∈ Finset.univ.filter (fun j => d.resultIdx? j idx = some i), upd j
      = ∑ e ∈ Finset.univ.filter (fun e : Fin n => (idx (ixP e)).toInt = ((i 0).val : Int)), upd (ix1 e) := by
  have key := scatter_vec_iff d hu hi hs hv idx
  refine Finset.sum_nbij' (fun j => (j 0 : Fin n)) (fun e => ix1 e) ?_ ?_ ?_ ?_ ?_
  · intro j hj
    exact Finset.mem_filter.mpr ⟨Finset.mem_univ _, (key j i).1 (Finset.mem_filter.mp hj).2⟩
  · intro e he
    exact Finset.mem_filter.mpr ⟨Finset.mem_univ _, (key (ix1 e) i).2 (Finset.mem_filter.mp he).2⟩
  · intro j _
    exact (eq_ix1 j).symm
  · intro e _
    rfl
  · intro j _
    exact congrArg upd (eq_ix1 j)

/-- A gather out of a vector read at position e: the entry its index word names, read signed and clamped into the table. -/
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) (hN : 0 < N) :
    Host.gather d x idx (ix1 e) = x (ix1 ⟨min (idx (ixP e)).toInt.toNat (N - 1), by omega⟩) := by
  have _ := hoff
  have h1 : ∀ (m : Nat) (p : Fin m), ix1 p = Shape.Idx.ofFin p := fun m p => by
    funext a
    match a with
    | ⟨0, _⟩ => rfl
  rw [h1 n e, h1 N _]
  exact gather_take d hcoll hob hsim hivd x idx e hN

end Idealize.ShloMosaic.RowIndex

end
-- ==== Proof.FinalNorm.lean ====
/-
  The weight of an edge is a non-negative real, whatever the edge list holds.  The degree of a node is a finite
  sum of ones, a non-negative real; its normalisation is 0, or the reciprocal square root of a positive real, a
  non-negative real again; a gather reads some entry of the table it is given; and the product of two
  non-negative reals is one.  Each step is stated once over any shapes and then read at the program's.
-/
import proofs.«429290_j51634096832829_1_alg».proof.Proof.KTerms
import Idealize.ShloMosaic.PureOps.Ideal.Laws
import Idealize.ShloMosaic.Lib.ValueIdx
import Idealize.ShloMosaic.Lib.IdealHost
import Idealize.ShloMosaic.Lib.StableHlo.Predicate

set_option maxRecDepth 16384

noncomputable section

namespace Cert.Final

open Idealize.ShloMosaic Idealize.ShloMosaic.ValueIdx Idealize.ShloMosaic.StableHlo.Predicate

/-- An extended real that is a non-negative real. -/
def NonnegReal (a : EReal) : Prop := ∃ r : ℝ, 0 ≤ r ∧ a = (r : EReal)

theorem NonnegReal.zero : NonnegReal 0 := ⟨0, le_refl _, by simp⟩

theorem NonnegReal.one : NonnegReal 1 := ⟨1, zero_le_one, by simp⟩

theorem NonnegReal.add {a b : EReal} (ha : NonnegReal a) (hb : NonnegReal b) : NonnegReal (a + b) := by
  obtain ⟨r1, h1, e1⟩ := ha
  obtain ⟨r2, h2, e2⟩ := hb
  exact ⟨r1 + r2, add_nonneg h1 h2, by rw [e1, e2, EReal.coe_add]⟩

theorem NonnegReal.mul {a b : EReal} (ha : NonnegReal a) (hb : NonnegReal b) : NonnegReal (a * b) := by
  obtain ⟨r1, h1, e1⟩ := ha
  obtain ⟨r2, h2, e2⟩ := hb
  exact ⟨r1 * r2, mul_nonneg h1 h2, by rw [e1, e2, EReal.coe_mul]⟩

/-- A finite sum of non-negative reals is a non-negative real. -/
theorem NonnegReal.sum {ι : Type} (t : Finset ι) (a : ι → EReal) (ha : ∀ j ∈ t, NonnegReal (a j)) :
    NonnegReal (∑ j ∈ t, a j) := by
  classical
  induction t using Finset.induction_on with
  | empty => simpa using NonnegReal.zero
  | insert x t hx ih =>
    rw [Finset.sum_insert hx]
    exact (ha x (Finset.mem_insert_self _ _)).add (ih (fun j hj => ha j (Finset.mem_insert_of_mem hj)))

/-- The reciprocal square root of a positive real is a non-negative real. -/
theorem rsqrt_pos_real (r : ℝ) (hr : 0 < r) : NonnegReal (Ideal.rsqrt (r : EReal)) := by
  refine ⟨(Real.sqrt r)⁻¹, inv_nonneg.mpr (Real.sqrt_nonneg r), ?_⟩
  rw [Ideal.rsqrt_coe, if_neg (not_lt.mpr hr.le), if_neg hr.ne']

/-- A constant array reads its one value everywhere. -/
theorem splat_apply {T : Shape} (h : (⟨0, ![]⟩ : Shape).BroadcastsInDim T ![]) (b : BitVec 32) (j : T.Idx) :
    broadcastInDim T ![] h (constant (F := Ideal) ⟨0, ![]⟩ .f32 b) j = Ideal.ofBits .f32 b := by
  rw [broadcastInDim_scalar_apply]
  rfl

/-- An accumulating scatter of non-negative reals into non-negative reals holds non-negative reals. -/
theorem scatterAdd_nonneg {s si su : Shape} {w : Nat} (d : ScatterDims s si su) (x : FVec Ideal s .f32) (idx : IVec si w)
    (u : FVec Ideal su .f32) (hx : ∀ i, NonnegReal (x i)) (hu : ∀ j, NonnegReal (u j)) (i : s.Idx) :
    NonnegReal (Host.scatterAdd (F := Ideal) d x idx u i) := by
  show NonnegReal (Ideal.hostScatterAdd d x idx u i)
  unfold Ideal.hostScatterAdd
  exact (hx i).add (NonnegReal.sum _ _ (fun j _ => hu j))

/-- The normalisation at one node, as a function of its degree: 0, or the reciprocal square root of a positive real. -/
theorem dinv_scalar (d : ℝ) : NonnegReal
    (Scalar.select (FloatOps.cmpf (F := Ideal) (φ := .f32) .ogt ((d : ℝ) : EReal) (0 : EReal))
      (FloatOps.hostUnary (F := Ideal) (φ := .f32) .rsqrt ((d : ℝ) : EReal)) (0 : EReal)) := by
  show NonnegReal (Scalar.select (Ideal.cmp .ogt ((d : ℝ) : EReal) 0) (Ideal.rsqrt ((d : ℝ) : EReal)) (0 : EReal))
  unfold Scalar.select
  by_cases hc : Ideal.cmp .ogt ((d : ℝ) : EReal) 0 = 1
  · rw [if_pos hc]
    have hpos : 0 < d := by
      simpa [Ideal.cmp, ofBool_eq_one_iff] using hc
    exact rsqrt_pos_real d hpos
  · rw [if_neg hc]
    exact NonnegReal.zero

/-- The normalisation of an array of non-negative reals, over any shape. -/
theorem dinv_array {s : Shape} (deg zeros : FVec Ideal s .f32) (hz : ∀ i, zeros i = 0) (hd : ∀ i, NonnegReal (deg i)) (i : s.Idx) :
    NonnegReal (select (cmpf .ogt deg zeros) (Host.rsqrt deg) zeros i) := by
  obtain ⟨d, _, ed⟩ := hd i
  show NonnegReal (Scalar.select (FloatOps.cmpf (F := Ideal) (φ := .f32) .ogt (deg i) (zeros i))
    (FloatOps.hostUnary (F := Ideal) (φ := .f32) .rsqrt (deg i)) (zeros i))
  rw [hz i, ed]
  exact dinv_scalar d

/-- A gather reads some entry of its table: whatever holds of every entry holds of every element gathered. -/
theorem gather_entry {s si t : Shape} {w : Nat} (d : GatherDims s si t) (x : s.Idx → EReal) (idx : IVec si w)
    (P : EReal → Prop) (hx : ∀ i, P (x i)) (j : t.Idx) : P (Host.gather d x idx j) :=
  hx _

/-- The product of two gathers out of a table of non-negative reals holds non-negative reals. -/
theorem gather_mul_nonneg {s si t : Shape} {w : Nat} (d : GatherDims s si t) (x : FVec Ideal s .f32) (idx₁ idx₂ : IVec si w)
    (hx : ∀ i, NonnegReal (x i)) (j : t.Idx) :
    NonnegReal (mulf (Host.gather d x idx₁) (Host.gather d x idx₂) j) := by
  rw [mulf_apply]
  exact (gather_entry d x idx₁ NonnegReal hx j).mul (gather_entry d x idx₂ NonnegReal hx j)

open Cert.KernelIdeal (S2x640000 KT.norm KT.dinv KT.deg)

variable (ei : IVec S2x640000 32)

/-- The degree of a node is a non-negative real. -/
theorem deg_nonneg (i : Cert.KernelIdeal.S10000.Idx) : NonnegReal (KT.deg (F := Ideal) ei i) :=
  scatterAdd_nonneg _ _ _ _
    (fun i => by rw [splat_apply, Ideal.ofBits_zero_f32]; exact NonnegReal.zero)
    (fun j => by rw [splat_apply, Ideal.ofBits_one_f32]; exact NonnegReal.one) i

/-- The normalisation of a node is a non-negative real. -/
theorem dinv_nonneg (i : Cert.KernelIdeal.S10000.Idx) : NonnegReal (KT.dinv (F := Ideal) ei i) :=
  dinv_array _ _ (fun i => by rw [splat_apply, Ideal.ofBits_zero_f32]) (deg_nonneg ei) i

/-- The weight of every edge is a non-negative real, whatever the edge list holds. -/
theorem norm_nonneg_any (e : Fin 650000) : ∃ r : ℝ, 0 ≤ r ∧ KT.norm (F := Ideal) ei (ix1 e) = (r : EReal) :=
  gather_mul_nonneg _ _ _ _ (dinv_nonneg ei) (ix1 e)

end Cert.Final

end
-- ==== Proof.FinalPrefix.lean ====
/-
  The edge words and their weights, once for both programs.  With every word of the edge list a node number,
  the source and destination words (the list's two rows, then one self loop per node) are node numbers too;
  reading a word as numpy does (a negative word counts from the end) changes none of them; the flat position
  destination · 10240 + source does not overflow; the weight of every edge is a non-negative real; and the
  reference's source words, destination words and weights are the kernel program's.
-/
import proofs.«429290_j51634096832829_1_alg».proof.Proof.KTerms
import proofs.«429290_j51634096832829_1_alg».proof.Proof.RefRead
import proofs.«429290_j51634096832829_1_alg».proof.Proof.LibVecIndex
import proofs.«429290_j51634096832829_1_alg».proof.Proof.FinalNorm
import Idealize.ShloMosaic.PureOps.Ideal.Laws
import Idealize.ShloMosaic.Lib.ValueIdx
import Idealize.ShloMosaic.Lib.Pipeline.Value
import Idealize.ShloMosaic.Lib.StableHlo.Predicate

set_option maxRecDepth 16384

noncomputable section

namespace Cert.Final

open Idealize.ShloMosaic Idealize.ShloMosaic.ValueIdx
open Cert.KernelIdeal (S2x640000 S650000 KT.src KT.dst KT.wrap KT.linear KT.norm KT.dinv KT.deg)

variable (ei : IVec S2x640000 32)

namespace Prefix

/-! ### Words -/

/-- A 32-bit word whose signed value is non-negative is not below zero. -/
theorem slt_zero_of_nonneg (a : BitVec 32) (h : 0 ≤ a.toInt) : IntOp.cmpi .slt a 0#32 = 0#1 := by
  have z : (0#32).toInt = 0 := by decide
  simp only [IntOp.cmpi, BitVec.slt, z, decide_eq_false (show ¬ a.toInt < 0 by omega)]
  rfl

/-- Words in [0, 10000): d · 10240 + s does not overflow 32 bits. -/
theorem word_linear (d s : BitVec 32) (hd0 : 0 ≤ d.toInt) (hd1 : d.toInt < 10000) (hs0 : 0 ≤ s.toInt) (hs1 : s.toInt < 10000) :
    (IntOp.addi (IntOp.muli d 10240#32) s).toInt = d.toInt * 10240 + s.toInt := by
  have t : (10240#32).toInt = 10240 := by decide
  simp only [IntOp.addi, IntOp.muli]
  rw [BitVec.toInt_add, BitVec.toInt_mul, t]
  simp only [Int.bmod_def]
  omega

/-- Counting a negative word from the end changes no vector of non-negative words. -/
theorem wrap_of_nonneg (v : IVec S650000 32) (h : ∀ i, 0 ≤ (v i).toInt) : KT.wrap v = v := by
  funext i
  show Scalar.select (IntOp.cmpi .slt (v i) 0#32) _ (v i) = v i
  rw [slt_zero_of_nonneg _ (h i)]
  exact select_zero _ _

/-- A word of the self loops: the position itself. -/
theorem loops_range (k : Fin 10000) :
    0 ≤ (Cert.KernelIdeal.KT.loops (ix1 k)).toInt ∧ (Cert.KernelIdeal.KT.loops (ix1 k)).toInt < 10000 := by
  show 0 ≤ (BitVec.ofNat 32 k.val).toInt ∧ (BitVec.ofNat 32 k.val).toInt < 10000
  rw [StableHlo.Predicate.toInt_ofNat_small _ (by have := k.isLt; omega)]
  have := k.isLt
  omega

end Prefix

open Prefix

/-- The reference's source words, destination words and weights are the kernel program's. -/
theorem ref_src : Cert.ReferenceIdeal.Read.val_main_v3 (F := Ideal) ei = KT.src ei := by
  rfl

theorem ref_dst : Cert.ReferenceIdeal.Read.val_main_v6 (F := Ideal) ei = KT.dst ei := by
  rfl

theorem ref_norm : Cert.ReferenceIdeal.Read.val_main_v29 (F := Ideal) ei = KT.norm (F := Ideal) ei := by
  rfl

variable (hei : ∀ i, 0 ≤ (ei i).toInt ∧ (ei i).toInt < 10000)
include hei

/-- Every source word is a node number. -/
theorem src_range (e : Fin 650000) : 0 ≤ (KT.src ei (ix1 e)).toInt ∧ (KT.src ei (ix1 e)).toInt < 10000 := by
  by_cases he : e.val < 640000
  · have h1 : KT.src ei (ix1 e) = Cert.ReferenceIdeal.Read.val_main_v2 (F := Ideal) ei (ix1 (n := 640000) ⟨e.val, he⟩) := by
      unfold Cert.KernelIdeal.KT.src
      exact concatenate_pair_apply_left (s₁ := Cert.KernelIdeal.S640000) (s₂ := Cert.KernelIdeal.S10000) _ _ _ _ (ix1 e) rfl
        (ix1 (n := 640000) ⟨e.val, he⟩) (fun b => by match b with | ⟨0, _⟩ => rfl)
    rw [h1, Cert.ReferenceIdeal.Read.val_main_v2_apply, Cert.ReferenceIdeal.Read.val_main_v1_apply]
    exact hei _
  · have hk : e.val - 640000 < 10000 := by have := e.isLt; omega
    have h1 : KT.src ei (ix1 e) = Cert.KernelIdeal.KT.loops (ix1 (n := 10000) ⟨e.val - 640000, hk⟩) := by
      unfold Cert.KernelIdeal.KT.src
      exact concatenate_pair_apply_right (s₁ := Cert.KernelIdeal.S640000) (s₂ := Cert.KernelIdeal.S10000) _ _ _ _ (ix1 e) rfl rfl
        (ix1 (n := 10000) ⟨e.val - 640000, hk⟩) (fun b hb => absurd (@Subsingleton.elim (Fin 1) inferInstance _ _) hb)
        (by show e.val - 640000 + 640000 = e.val; omega)
    rw [h1]
    exact loops_range _

/-- Every destination word is a node number. -/
theorem dst_range (e : Fin 650000) : 0 ≤ (KT.dst ei (ix1 e)).toInt ∧ (KT.dst ei (ix1 e)).toInt < 10000 := by
  by_cases he : e.val < 640000
  · have h1 : KT.dst ei (ix1 e) = Cert.ReferenceIdeal.Read.val_main_v5 (F := Ideal) ei (ix1 (n := 640000) ⟨e.val, he⟩) := by
      unfold Cert.KernelIdeal.KT.dst
      exact concatenate_pair_apply_left (s₁ := Cert.KernelIdeal.S640000) (s₂ := Cert.KernelIdeal.S10000) _ _ _ _ (ix1 e) rfl
        (ix1 (n := 640000) ⟨e.val, he⟩) (fun b => by match b with | ⟨0, _⟩ => rfl)
    rw [h1, Cert.ReferenceIdeal.Read.val_main_v5_apply, Cert.ReferenceIdeal.Read.val_main_v4_apply]
    exact hei _
  · have hk : e.val - 640000 < 10000 := by have := e.isLt; omega
    have h1 : KT.dst ei (ix1 e) = Cert.KernelIdeal.KT.loops (ix1 (n := 10000) ⟨e.val - 640000, hk⟩) := by
      unfold Cert.KernelIdeal.KT.dst
      exact concatenate_pair_apply_right (s₁ := Cert.KernelIdeal.S640000) (s₂ := Cert.KernelIdeal.S10000) _ _ _ _ (ix1 e) rfl rfl
        (ix1 (n := 10000) ⟨e.val - 640000, hk⟩) (fun b hb => absurd (@Subsingleton.elim (Fin 1) inferInstance _ _) hb)
        (by show e.val - 640000 + 640000 = e.val; omega)
    rw [h1]
    exact loops_range _

/-- Counting a negative word from the end changes no source word. -/
theorem wrap_src : KT.wrap (KT.src ei) = KT.src ei :=
  wrap_of_nonneg _ fun i => by rw [eq_ix1 i]; exact (src_range ei hei _).1

/-- Nor any destination word. -/
theorem wrap_dst : KT.wrap (KT.dst ei) = KT.dst ei :=
  wrap_of_nonneg _ fun i => by rw [eq_ix1 i]; exact (dst_range ei hei _).1

/-- The flat position of an edge, as an integer. -/
theorem linear_toInt (e : Fin 650000) :
    (KT.linear ei (ix1 e)).toInt = (KT.dst ei (ix1 e)).toInt * 10240 + (KT.src ei (ix1 e)).toInt :=
  word_linear _ _ (dst_range ei hei e).1 (dst_range ei hei e).2 (src_range ei hei e).1 (src_range ei hei e).2

/-- The weight of every edge is a non-negative real. -/
theorem norm_nonneg (e : Fin 650000) : ∃ r : ℝ, 0 ≤ r ∧ KT.norm (F := Ideal) ei (ix1 e) = (r : EReal) :=
  norm_nonneg_any ei e

end Cert.Final

end
-- ==== Proof.FinalAdj.lean ====
/-
  The dense adjacency read at an entry.  The flat position destination · 10240 + source of an edge names the
  entry (destination, source) and no other, so the entry at row r and column j is the sum of the weights of the
  edges from j to r; rows and columns from 10000 on receive nothing.
-/
import proofs.«429290_j51634096832829_1_alg».proof.Proof.FinalPrefix
import proofs.«429290_j51634096832829_1_alg».proof.Proof.LibVecIndex
import Idealize.ShloMosaic.PureOps.Ideal.Laws
import Idealize.ShloMosaic.Lib.ValueIdx
import Idealize.ShloMosaic.Lib.Pipeline.Value
import Idealize.ShloMosaic.Lib.StableHlo.Predicate

set_option maxRecDepth 16384

noncomputable section

namespace Cert.Final

open Idealize.ShloMosaic Idealize.ShloMosaic.ValueIdx Idealize.ShloMosaic.StableHlo.Predicate
open Cert.KernelIdeal (S2x640000 S650000 KT.src KT.dst KT.wrap KT.linear KT.norm KT.adj KT.adjFlat)

variable (ei : IVec S2x640000 32)

/-- The source node of an edge, as a row number of the padded matrices. -/
def sN (e : Fin 650000) : Fin 10240 := ⟨min (KT.src ei (ix1 e)).toInt.toNat 9999, by omega⟩

/-- The destination node of an edge, as a row number of the padded matrices. -/
def dN (e : Fin 650000) : Fin 10240 := ⟨min (KT.dst ei (ix1 e)).toInt.toNat 9999, by omega⟩

/-- The weight of an edge. -/
def wN (e : Fin 650000) : EReal := KT.norm (F := Ideal) ei (ix1 e)

theorem sN_lt (e : Fin 650000) : (sN ei e).val < 10000 := by
  show min _ 9999 < 10000
  omega

theorem dN_lt (e : Fin 650000) : (dN ei e).val < 10000 := by
  show min _ 9999 < 10000
  omega

variable (hei : ∀ i, 0 ≤ (ei i).toInt ∧ (ei i).toInt < 10000)
include hei

/-- A source word is its node's number. -/
theorem src_toInt (e : Fin 650000) : (KT.src ei (ix1 e)).toInt = ((sN ei e).val : Int) := by
  have h := src_range ei hei e
  show _ = ((min (KT.src ei (ix1 e)).toInt.toNat 9999 : Nat) : Int)
  omega

/-- A destination word is its node's number. -/
theorem dst_toInt (e : Fin 650000) : (KT.dst ei (ix1 e)).toInt = ((dN ei e).val : Int) := by
  have h := dst_range ei hei e
  show _ = ((min (KT.dst ei (ix1 e)).toInt.toNat 9999 : Nat) : Int)
  omega

/-- The weight of every edge is a non-negative real. -/
theorem wN_nonneg (e : Fin 650000) : ∃ r : ℝ, 0 ≤ r ∧ wN ei e = (r : EReal) := norm_nonneg ei hei e

omit hei in
/-- An accumulating scatter of a vector into a table of zeros through a column of index words, read at an entry:
    the updates whose index word reads that entry, added up. -/
private theorem scatterAdd_zeros_vec {N n w : Nat} (d : ScatterDims ⟨1, ![N]⟩ ⟨2, ![n, 1]⟩ ⟨1, ![n]⟩)
    (hu : d.updateWindowDims = []) (hi : d.insertedWindowDims = [0]) (hs : d.scatterDimsToOperandDims = [0])
    (hv : d.indexVectorDim = 1) (x : FVec Ideal ⟨1, ![N]⟩ .f32) (hx : ∀ i, x i = 0)
    (v : IVec ⟨1, ![n]⟩ w) (h₁ : (⟨1, ![n]⟩ : Shape).BroadcastsInDim ⟨2, ![n, 1]⟩ ![0])
    (upd : FVec Ideal ⟨1, ![n]⟩ .f32) (i : Fin N) :
    Host.scatterAdd d x (broadcastInDim ⟨2, ![n, 1]⟩ ![0] h₁ v) upd (ix1 i)
      = ∑ e ∈ Finset.univ.filter (fun e : Fin n => (v (ix1 e)).toInt = (i.val : Int)), upd (ix1 e) := by
  unfold Host.scatterAdd
  rw [Ideal.hostScatterAdd_def]
  unfold Ideal.hostScatterAdd
  rw [hx, zero_add, RowIndex.scatter_vec_sum d hu hi hs hv]
  refine Finset.sum_congr (Finset.filter_congr fun e _ => ?_) fun e _ => rfl
  have h2 : ix1 e = Shape.Idx.ofFin e := by
    funext a
    match a with
    | ⟨0, _⟩ => rfl
  rw [bcast_col1, ← h2]
  exact Iff.rfl

omit hei in
/-- A scalar constant spread over a shape reads the constant everywhere. -/
private theorem splat_read {T : Shape} (h : (⟨0, ![]⟩ : Shape).BroadcastsInDim T ![]) (b : BitVec (FTy.f32).bits) (i : T.Idx) :
    broadcastInDim T ![] h (constant (F := Ideal) ⟨0, ![]⟩ .f32 b) i = Ideal.ofBits .f32 b := rfl

omit hei in
/-- The flat adjacency at a position: the weights of the edges whose flat position it is, added up. -/
private theorem adjFlat_apply (i : Fin 104857600) :
    KT.adjFlat (F := Ideal) ei (ix1 i)
      = ∑ e ∈ Finset.univ.filter (fun e : Fin 650000 => (KT.linear ei (ix1 e)).toInt = (i.val : Int)), KT.norm (F := Ideal) ei (ix1 e) :=
  scatterAdd_zeros_vec _ rfl rfl rfl rfl _ (fun i => (splat_read _ _ i).trans Ideal.ofBits_zero_f32) _ _ _ i

omit hei in
/-- The matrix entry at row r and column j is the flat table's entry at r · 10240 + j. -/
private theorem adj_flat (r j : Fin 10240) (hlt : r.val * 10240 + j.val < 104857600) :
    KT.adj (F := Ideal) ei (ix2 r j) = KT.adjFlat (F := Ideal) ei (ix1 ⟨r.val * 10240 + j.val, hlt⟩) := by
  unfold KT.adj
  show shapeCast _ (KT.adjFlat (F := Ideal) ei) _ (ix2 r j) = _
  refine shapeCast_apply _ _ _ _ ?_
  rw [Shape.rowMajor_val_one, Shape.rowMajor_val_two]
  rfl

/-- The adjacency at row r and column j: the weights of the edges from j to r, added up. -/
theorem adj_apply (r j : Fin 10240) :
    KT.adj (F := Ideal) ei (ix2 r j)
      = ∑ e ∈ Finset.univ.filter (fun e : Fin 650000 => dN ei e = r ∧ sN ei e = j), wN ei e := by
  have hr := r.isLt
  have hj := j.isLt
  have hlt : r.val * 10240 + j.val < 104857600 := by omega
  rw [adj_flat ei r j hlt, adjFlat_apply ei ⟨r.val * 10240 + j.val, hlt⟩]
  refine Finset.sum_congr (Finset.filter_congr fun e _ => ?_) fun e _ => rfl
  rw [linear_toInt ei hei e, src_toInt ei hei e, dst_toInt ei hei e]
  have hs := sN_lt ei e
  have hd := dN_lt ei e
  show ((dN ei e).val : Int) * 10240 + ((sN ei e).val : Int) = ((r.val * 10240 + j.val : Nat) : Int) ↔ _
  rw [Fin.ext_iff, Fin.ext_iff]
  omega

end Cert.Final

end
-- ==== Proof.LibEdgeSum.lean ====
/-
  Sums over the edges of a graph grouped by endpoint.  With non-negative real weights w on the edges, source
  s and destination d: the matrix whose (r, j) entry adds up the weights of the edges from j to r, applied to
  a vector h of extended reals, is the sum over the edges into r of h at the edge's source times its weight —
  a sum of non-negative reals times ANY extended real distributes, so no finiteness of h is asked.
-/
import Mathlib.Data.EReal.Operations
import Mathlib.Algebra.BigOperators.Fin
import Mathlib.Algebra.Order.BigOperators.Group.Finset

noncomputable section

namespace Idealize.ShloMosaic.EdgeSum

/-- A finite sum of non-negative reals times an extended real is the sum of the products. -/
theorem sum_coe_nonneg_mul {ι : Type*} (t : Finset ι) (a : ι → EReal) (ha : ∀ j ∈ t, ∃ r : ℝ, 0 ≤ r ∧ a j = (r : EReal)) (y : EReal) :
    (∑ j ∈ t, a j) * y = ∑ j ∈ t, a j * y := by
  classical
  have nn : ∀ s : Finset ι, (∀ j ∈ s, ∃ r : ℝ, 0 ≤ r ∧ a j = (r : EReal)) → ∀ j ∈ s, 0 ≤ a j := by
    intro s hs j hj
    obtain ⟨r, hr, e⟩ := hs j hj
    rw [e]
    exact EReal.coe_nonneg.mpr hr
  induction t using Finset.induction_on with
  | empty => simp
  | insert j t hj ih =>
    have hj0 : 0 ≤ a j := nn _ ha j (Finset.mem_insert_self _ _)
    have hat : ∀ k ∈ t, ∃ r : ℝ, 0 ≤ r ∧ a k = (r : EReal) := fun k hk => ha k (Finset.mem_insert_of_mem hk)
    have ht0 : 0 ≤ ∑ k ∈ t, a k := Finset.sum_nonneg (nn t hat)
    rw [Finset.sum_insert hj, Finset.sum_insert hj, EReal.right_distrib_of_nonneg hj0 ht0, ih hat]

/-- The adjacency matrix applied to a vector is the sum over the edges into the row. -/
theorem matvec_eq_edge_sum {n N : Nat} (s d : Fin n → Fin N) (w : Fin n → EReal)
    (hw : ∀ e, ∃ r : ℝ, 0 ≤ r ∧ w e = (r : EReal)) (h : Fin N → EReal) (r : Fin N) :
    ∑ j : Fin N, (∑ e ∈ Finset.univ.filter (fun e => d e = r ∧ s e = j), w e) * h j
      = ∑ e ∈ Finset.univ.filter (fun e => d e = r), h (s e) * w e := by
  rw [← Finset.sum_fiberwise (Finset.univ.filter (fun e => d e = r)) s (fun e => h (s e) * w e)]
  refine Finset.sum_congr rfl (fun j _ => ?_)
  rw [sum_coe_nonneg_mul _ _ (fun e _ => hw e), Finset.filter_filter]
  refine Finset.sum_congr rfl (fun e he => ?_)
  rw [(Finset.mem_filter.mp he).2.2]
  exact EReal.mul_comm _ _

end Idealize.ShloMosaic.EdgeSum

end
-- ==== Proof.LibRowSum.lean ====
import proofs.«429290_j51634096832829_1_alg».proof.Proof.LibRowIndex
import Idealize.ShloMosaic.PureOps.Ideal
import Idealize.ShloMosaic.Lib.ValueIdx

/-!
# Row scatters summed, and rows of rank-3 tables

For a table of `N` rows indexed along its rows by a column of `n` index words:

* the updates of a row scatter that land on element `(r, col)` are exactly those in column `col` whose index word,
  read signed, is `r`; so a sum over the landing updates is a sum over those positions;
* the same for a table whose rows are `A × B` rectangles (the row axis inserted, both rectangle axes the window);
* a row gather from such a table reads, at `(e, a, b)`, row `idx[e]` (read signed, clamped into the table) at `(a, b)`.
-/

open scoped BigOperators

namespace Idealize.ShloMosaic.RowIndex

open Idealize.ShloMosaic Idealize.ShloMosaic.StableHlo.Predicate Idealize.ShloMosaic.ValueIdx

/-! ## The row scatter into an `[N, C]` table -/

/-- The column axis is the window: an update's window coordinate on it is its own column. -/
theorem scatter_rows_window1 {N C n : Nat} (d : ScatterDims ⟨2, ![N, C]⟩ ⟨2, ![n, 1]⟩ ⟨2, ![n, C]⟩)
    (hu : d.updateWindowDims = [1]) (hi : d.insertedWindowDims = [0]) (y : (⟨2, ![n, C]⟩ : Shape).Idx) :
    d.window y 1 = (y 1).val := by
  obtain ⟨uw, iw, sd, iv, wf⟩ := d
  dsimp only at hu hi
  subst hu hi
  unfold ScatterDims.window
  rw [dif_pos (by simp [ScatterDims.sKept, Shape.kept])]
  have e : ∀ q : Fin 2, q = 1 → (y q).val = (y 1).val := fun q hq => by subst hq; rfl
  exact e _ (by rfl)

/-- The column axis is not named by the scatter index: the window starts at column `0`. -/
theorem scatter_rows_start1 {N C n w : Nat} (d : ScatterDims ⟨2, ![N, C]⟩ ⟨2, ![n, 1]⟩ ⟨2, ![n, C]⟩)
    (hs : d.scatterDimsToOperandDims = [0]) (idx : IVec ⟨2, ![n, 1]⟩ w) (y : (⟨2, ![n, C]⟩ : Shape).Idx) :
    d.start y idx 1 = 0 := by
  unfold ScatterDims.start
  rw [dif_neg (by rw [hs]; simp)]

/-- Update `j` lands on `i` exactly when its index word reads row `i 0` and its column is `i 1`. -/
theorem scatter_rows_iff {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (j : (⟨2, ![n, C]⟩ : Shape).Idx)
    (i : (⟨2, ![N, C]⟩ : Shape).Idx) :
    d.resultIdx? j idx = some i ↔
      (idx (ixP (n := n) (j 0))).toInt = ((i 0).val : Int) ∧ (j 1).val = (i 1).val := by
  have hst0 := scatter_rows_start d hu hs hv idx j
  have hw0 := scatter_rows_window0 d hi j
  have hst1 := scatter_rows_start1 d hs idx j
  have hw1 := scatter_rows_window1 d hu hi j
  have hiN : (i 0).val < N := (i 0).isLt
  have hjC : (j 1).val < C := (j 1).isLt
  constructor
  · intro h
    unfold ScatterDims.resultIdx? at h
    split at h
    · next hall =>
      have h0 := (hall 0).1
      have hi0 := congrArg Fin.val (congrFun (Option.some.inj h) 0)
      have hi1 := congrArg Fin.val (congrFun (Option.some.inj h) 1)
      simp only [] at hi0 hi1
      constructor <;> omega
    · exact absurd h (by simp)
  · rintro ⟨h0, h1⟩
    have hall : ∀ a, 0 ≤ d.start j idx a + d.window j a ∧ d.start j idx a + d.window j a < (⟨2, ![N, C]⟩ : Shape).size a := by
      intro a
      match a with
      | ⟨0, _⟩ =>
        show 0 ≤ d.start j idx 0 + d.window j 0 ∧ d.start j idx 0 + d.window j 0 < (N : Int)
        omega
      | ⟨1, _⟩ =>
        show 0 ≤ d.start j idx 1 + d.window j 1 ∧ d.start j idx 1 + d.window j 1 < (C : Int)
        omega
    unfold ScatterDims.resultIdx?
    rw [dif_pos hall]
    congr 1
    funext a
    match a with
    | ⟨0, _⟩ =>
      apply Fin.ext
      show (d.start j idx 0 + d.window j 0).toNat = (i 0).val
      omega
    | ⟨1, _⟩ =>
      apply Fin.ext
      show (d.start j idx 1 + d.window j 1).toNat = (i 1).val
      omega

/-- A sum over the updates of a row scatter that land on `i = (r, col)` is the sum, over the positions whose index
    word reads `r`, of the update at `(position, col)`. -/
theorem scatter_rows_sum {M : Type} [AddCommMonoid M] {N C n w : Nat}
    (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (idx : IVec ⟨2, ![n, 1]⟩ w) (upd : (⟨2, ![n, C]⟩ : Shape).Idx → M)
    (i : (⟨2, ![N, C]⟩ : Shape).Idx) :
    ∑ j ∈ Finset.univ.filter (fun j => d.resultIdx? j idx = some i), upd j
      = ∑ e ∈ Finset.univ.filter (fun e : Fin n => (idx (ixP e)).toInt = ((i 0).val : Int)), upd (ij e (i 1)) := by
  have key := scatter_rows_iff d hu hi hs hv idx
  have back : ∀ j : (⟨2, ![n, C]⟩ : Shape).Idx, (j 1).val = (i 1).val → ij (n := n) (m := C) (j 0) (i 1) = j := by
    intro j h1
    funext b
    match b with
    | ⟨0, _⟩ => rfl
    | ⟨1, _⟩ => exact Fin.ext h1.symm
  refine Finset.sum_nbij' (fun j => (j 0 : Fin n)) (fun e => ij e (i 1)) ?_ ?_ ?_ ?_ ?_
  · intro j hj
    exact Finset.mem_filter.mpr ⟨Finset.mem_univ _, ((key j i).1 (Finset.mem_filter.mp hj).2).1⟩
  · intro e he
    exact Finset.mem_filter.mpr ⟨Finset.mem_univ _, (key (ij e (i 1)) i).2 ⟨(Finset.mem_filter.mp he).2, rfl⟩⟩
  · intro j hj
    rw [Finset.mem_filter] at hj
    exact back j ((key j i).1 hj.2).2
  · intro e _
    rfl
  · intro j hj
    rw [Finset.mem_filter] at hj
    show upd j = upd (ij (j 0) (i 1))
    rw [back j ((key j i).1 hj.2).2]

/-! ## The row scatter into an `[N, A, B]` table -/

/-- The start of update `y`'s window on the row axis is its scatter index, read signed. -/
theorem scatter_rows3_start {N A B n w : Nat} (d : ScatterDims ⟨3, ![N, A, B]⟩ ⟨2, ![n, 1]⟩ ⟨3, ![n, A, B]⟩)
    (hu : d.updateWindowDims = [1, 2]) (hs : d.scatterDimsToOperandDims = [0]) (hv : d.indexVectorDim = 1)
    (idx : IVec ⟨2, ![n, 1]⟩ w) (y : (⟨3, ![n, A, B]⟩ : Shape).Idx) :
    d.start y idx 0 = (idx (ixP (n := n) (y 0))).toInt := by
  obtain ⟨uw, iw, sd, iv, wf⟩ := d
  dsimp only at hu hs hv
  subst hu hs hv
  unfold ScatterDims.start
  rw [dif_pos (List.mem_singleton.mpr rfl)]
  congr 2
  funext b
  match b with
  | ⟨0, _⟩ =>
    unfold ScatterDims.siIdx
    rw [dif_neg (by simp)]
    unfold ScatterDims.siCoord
    apply Fin.ext
    simp only [Fin.val_cast]
    have e : ∀ q : Fin 3, q = 0 → (y q).val = (y 0).val := fun q hq => by subst hq; rfl
    exact e _ (by rfl)
  | ⟨1, _⟩ =>
    unfold ScatterDims.siIdx
    rw [dif_pos (by simp)]
    apply Fin.ext
    show List.idxOf (0 : Fin 3) [0] = 0
    simp

/-- The two rectangle axes are not named by the scatter index: the window starts at `0` on them. -/
theorem scatter_rows3_start_ne {N A B n w : Nat} (d : ScatterDims ⟨3, ![N, A, B]⟩ ⟨2, ![n, 1]⟩ ⟨3, ![n, A, B]⟩)
    (hs : d.scatterDimsToOperandDims = [0]) (idx : IVec ⟨2, ![n, 1]⟩ w) (y : (⟨3, ![n, A, B]⟩ : Shape).Idx)
    (a : Fin 3) (ha : a ≠ 0) : d.start y idx a = 0 := by
  unfold ScatterDims.start
  rw [dif_neg (by rw [hs]; simpa using ha)]

/-- The row axis is inserted: an update has no window coordinate on it. -/
theorem scatter_rows3_window0 {N A B n : Nat} (d : ScatterDims ⟨3, ![N, A, B]⟩ ⟨2, ![n, 1]⟩ ⟨3, ![n, A, B]⟩)
    (hi : d.insertedWindowDims = [0]) (y : (⟨3, ![n, A, B]⟩ : Shape).Idx) : d.window y 0 = 0 := by
  unfold ScatterDims.window
  rw [dif_neg (by rw [ScatterDims.sKept, hi]; simp [Shape.kept])]

/-- The first rectangle axis is a window axis: an update's window coordinate on it is its own. -/
theorem scatter_rows3_window1 {N A B n : Nat} (d : ScatterDims ⟨3, ![N, A, B]⟩ ⟨2, ![n, 1]⟩ ⟨3, ![n, A, B]⟩)
    (hu : d.updateWindowDims = [1, 2]) (hi : d.insertedWindowDims = [0]) (y : (⟨3, ![n, A, B]⟩ : Shape).Idx) :
    d.window y 1 = (y 1).val := by
  obtain ⟨uw, iw, sd, iv, wf⟩ := d
  dsimp only at hu hi
  subst hu hi
  unfold ScatterDims.window
  rw [dif_pos (by simp [ScatterDims.sKept, Shape.kept])]
  have e : ∀ q : Fin 3, q = 1 → (y q).val = (y 1).val := fun q hq => by subst hq; rfl
  exact e _ (by rfl)

/-- The second rectangle axis is a window axis: an update's window coordinate on it is its own. -/
theorem scatter_rows3_window2 {N A B n : Nat} (d : ScatterDims ⟨3, ![N, A, B]⟩ ⟨2, ![n, 1]⟩ ⟨3, ![n, A, B]⟩)
    (hu : d.updateWindowDims = [1, 2]) (hi : d.insertedWindowDims = [0]) (y : (⟨3, ![n, A, B]⟩ : Shape).Idx) :
    d.window y 2 = (y 2).val := by
  obtain ⟨uw, iw, sd, iv, wf⟩ := d
  dsimp only at hu hi
  subst hu hi
  unfold ScatterDims.window
  rw [dif_pos (by simp [ScatterDims.sKept, Shape.kept])]
  have e : ∀ q : Fin 3, q = 2 → (y q).val = (y 2).val := fun q hq => by subst hq; rfl
  exact e _ (by rfl)

/-- Update `j` lands on `i` exactly when its index word reads row `i 0` and its rectangle coordinates are `i`'s. -/
theorem scatter_rows3_iff {N A B n w : Nat} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (idx : IVec ⟨2, ![n, 1]⟩ w) (j : (⟨3, ![n, A, B]⟩ : Shape).Idx)
    (i : (⟨3, ![N, A, B]⟩ : Shape).Idx) :
    d.resultIdx? j idx = some i ↔
      (idx (ixP (n := n) (j 0))).toInt = ((i 0).val : Int) ∧ (j 1).val = (i 1).val ∧ (j 2).val = (i 2).val := by
  have hst0 := scatter_rows3_start d hu hs hv idx j
  have hw0 := scatter_rows3_window0 d hi j
  have hst1 := scatter_rows3_start_ne d hs idx j 1 (by decide)
  have hst2 := scatter_rows3_start_ne d hs idx j 2 (by decide)
  have hw1 := scatter_rows3_window1 d hu hi j
  have hw2 := scatter_rows3_window2 d hu hi j
  have hiN : (i 0).val < N := (i 0).isLt
  have hjA : (j 1).val < A := (j 1).isLt
  have hjB : (j 2).val < B := (j 2).isLt
  constructor
  · intro h
    unfold ScatterDims.resultIdx? at h
    split at h
    · next hall =>
      have h0 := (hall 0).1
      have hi0 := congrArg Fin.val (congrFun (Option.some.inj h) 0)
      have hi1 := congrArg Fin.val (congrFun (Option.some.inj h) 1)
      have hi2 := congrArg Fin.val (congrFun (Option.some.inj h) 2)
      simp only [] at hi0 hi1 hi2
      refine ⟨?_, ?_, ?_⟩ <;> omega
    · exact absurd h (by simp)
  · rintro ⟨h0, h1, h2⟩
    have hall : ∀ a, 0 ≤ d.start j idx a + d.window j a ∧ d.start j idx a + d.window j a < (⟨3, ![N, A, B]⟩ : Shape).size a := by
      intro a
      match a with
      | ⟨0, _⟩ =>
        show 0 ≤ d.start j idx 0 + d.window j 0 ∧ d.start j idx 0 + d.window j 0 < (N : Int)
        omega
      | ⟨1, _⟩ =>
        show 0 ≤ d.start j idx 1 + d.window j 1 ∧ d.start j idx 1 + d.window j 1 < (A : Int)
        omega
      | ⟨2, _⟩ =>
        show 0 ≤ d.start j idx 2 + d.window j 2 ∧ d.start j idx 2 + d.window j 2 < (B : Int)
        omega
    unfold ScatterDims.resultIdx?
    rw [dif_pos hall]
    congr 1
    funext a
    match a with
    | ⟨0, _⟩ =>
      apply Fin.ext
      show (d.start j idx 0 + d.window j 0).toNat = (i 0).val
      omega
    | ⟨1, _⟩ =>
      apply Fin.ext
      show (d.start j idx 1 + d.window j 1).toNat = (i 1).val
      omega
    | ⟨2, _⟩ =>
      apply Fin.ext
      show (d.start j idx 2 + d.window j 2).toNat = (i 2).val
      omega

/-- The same for rows that are `A × B` rectangles. -/
theorem scatter_rows3_sum {M : Type} [AddCommMonoid M] {N A B n w : Nat}
    (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1) (idx : IVec ⟨2, ![n, 1]⟩ w) (upd : (⟨3, ![n, A, B]⟩ : Shape).Idx → M)
    (i : (⟨3, ![N, A, B]⟩ : Shape).Idx) :
    ∑ j ∈ Finset.univ.filter (fun j => d.resultIdx? j idx = some i), upd j
      = ∑ e ∈ Finset.univ.filter (fun e : Fin n => (idx (ixP e)).toInt = ((i 0).val : Int)), upd (ix3 e (i 1) (i 2)) := by
  have key := scatter_rows3_iff d hu hi hs hv idx
  have back : ∀ j : (⟨3, ![n, A, B]⟩ : Shape).Idx, (j 1).val = (i 1).val → (j 2).val = (i 2).val →
      ix3 (n0 := n) (n1 := A) (n2 := B) (j 0) (i 1) (i 2) = j := by
    intro j h1 h2
    funext b
    match b with
    | ⟨0, _⟩ => rfl
    | ⟨1, _⟩ => exact Fin.ext h1.symm
    | ⟨2, _⟩ => exact Fin.ext h2.symm
  refine Finset.sum_nbij' (fun j => (j 0 : Fin n)) (fun e => ix3 e (i 1) (i 2)) ?_ ?_ ?_ ?_ ?_
  · intro j hj
    exact Finset.mem_filter.mpr ⟨Finset.mem_univ _, ((key j i).1 (Finset.mem_filter.mp hj).2).1⟩
  · intro e he
    exact Finset.mem_filter.mpr ⟨Finset.mem_univ _, (key (ix3 e (i 1) (i 2)) i).2 ⟨(Finset.mem_filter.mp he).2, rfl, rfl⟩⟩
  · intro j hj
    rw [Finset.mem_filter] at hj
    have hk := (key j i).1 hj.2
    exact back j hk.2.1 hk.2.2
  · intro e _
    rfl
  · intro j hj
    rw [Finset.mem_filter] at hj
    have hk := (key j i).1 hj.2
    show upd j = upd (ix3 (j 0) (i 1) (i 2))
    rw [back j hk.2.1 hk.2.2]

/-! ## The row gather from an `[N, A, B]` table -/

/-- The start of result `y`'s slice on the row axis is its start index, read signed and clamped into the table. -/
theorem gather_rows3_start {N A B n w : Nat} (d : GatherDims ⟨3, ![N, A, B]⟩ ⟨2, ![n, 1]⟩ ⟨3, ![n, A, B]⟩)
    (hoff : d.offsetDims = [1, 2]) (hcoll : d.collapsedSliceDims = [0])
    (hsim : d.startIndexMap = [0]) (hivd : d.indexVectorDim = 1)
    (idx : IVec ⟨2, ![n, 1]⟩ w) (y : (⟨3, ![n, A, B]⟩ : Shape).Idx) :
    d.start y idx 0 = min (idx (ixP (n := n) (y 0))).toInt.toNat (N - 1) := by
  have hsl : d.sliceSizes 0 = 1 := d.slice_collapsed 0 (by rw [hcoll]; exact List.mem_singleton.mpr rfl)
  obtain ⟨od, cd, ob, sb, sm, iv, ss, wf⟩ := d
  dsimp only at hoff hcoll hsim hivd hsl
  subst hoff hcoll hsim hivd
  unfold GatherDims.start
  rw [dif_pos (List.mem_singleton.mpr rfl)]
  show min _ (N - ss 0) = _
  rw [hsl]
  congr 3
  congr 1
  funext b
  match b with
  | ⟨0, _⟩ =>
    unfold GatherDims.siIdx
    rw [dif_neg (by simp)]
    unfold GatherDims.siCoord
    apply Fin.ext
    simp only [Fin.val_cast]
    have e : ∀ q : Fin 3, q = 0 → (y q).val = (y 0).val := fun q hq => by subst hq; rfl
    exact e _ (by rfl)
  | ⟨1, _⟩ =>
    unfold GatherDims.siIdx
    rw [dif_pos (by simp)]
    apply Fin.ext
    show List.idxOf (0 : Fin 3) [0] = 0
    simp

/-- The first rectangle axis is kept: result `y`'s offset on it is its own coordinate. -/
theorem gather_rows3_off1 {N A B n : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (y : (⟨3, ![n, A, B]⟩ : Shape).Idx) : d.offCoord y 1 = (y 1).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 3, q = 1 → (y q).val = (y 1).val := fun q hq => by subst hq; rfl
  exact e _ (by rfl)

/-- The second rectangle axis is kept: result `y`'s offset on it is its own coordinate. -/
theorem gather_rows3_off2 {N A B n : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (y : (⟨3, ![n, A, B]⟩ : Shape).Idx) : d.offCoord y 2 = (y 2).val := by
  obtain ⟨od, cd, ob, sb, sm, iv, ss, wf⟩ := d
  dsimp only at hoff hcoll hob
  subst hoff hcoll hob
  unfold GatherDims.offCoord
  rw [dif_pos (by rw [GatherDims.mem_sKept]; simp)]
  have e : ∀ q : Fin 3, q = 2 → (y q).val = (y 2).val := fun q hq => by subst hq; rfl
  exact e _ (by rfl)

/-- A row gather from a table of `A × B` rows read at `(e, a, b)`: row `idx[e]`, read signed and clamped into the
    table, at `(a, b)`. -/
theorem gather_rows3 {α : Type} {N A B n w : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![n, 1]⟩ w) (e : Fin n) (a : Fin A) (b : Fin B) (hN : 0 < N) :
    Host.gather d x idx (ix3 e a b) = x (ix3 ⟨min (idx (ixP e)).toInt.toNat (N - 1), by omega⟩ a b) := by
  unfold Host.gather
  congr 1
  funext c
  have hnb : ∀ c : Fin 3, c ∉ d.operandBatchingDims := fun c => by rw [hob]; exact List.not_mem_nil
  have hst0 : ∀ c : Fin 3, c ≠ 0 → d.start (ix3 e a b) idx c = 0 := fun c hc => by
    unfold GatherDims.start
    rw [dif_neg (by rw [hsim]; simpa using hc)]
  match c with
  | ⟨0, _⟩ =>
    apply Fin.ext
    have hb := d.batchCoord_eq_zero (ix3 e a b) 0 (hnb 0)
    have ho := d.offCoord_eq_zero (ix3 e a b) 0 (by rw [GatherDims.mem_sKept, hcoll]; simp)
    have hst : d.start (ix3 e a b) idx 0 = min (idx (ixP e)).toInt.toNat (N - 1) :=
      gather_rows3_start d hoff hcoll hsim hivd idx (ix3 e a b)
    show d.start (ix3 e a b) idx 0 + d.batchCoord (ix3 e a b) 0 + d.offCoord (ix3 e a b) 0 = min (idx (ixP e)).toInt.toNat (N - 1)
    omega
  | ⟨1, _⟩ =>
    apply Fin.ext
    have hb := d.batchCoord_eq_zero (ix3 e a b) 1 (hnb 1)
    have ho : d.offCoord (ix3 e a b) 1 = a.val := gather_rows3_off1 d hoff hcoll hob (ix3 e a b)
    have hst := hst0 1 (by decide)
    show d.start (ix3 e a b) idx 1 + d.batchCoord (ix3 e a b) 1 + d.offCoord (ix3 e a b) 1 = a.val
    omega
  | ⟨2, _⟩ =>
    apply Fin.ext
    have hb := d.batchCoord_eq_zero (ix3 e a b) 2 (hnb 2)
    have ho : d.offCoord (ix3 e a b) 2 = b.val := gather_rows3_off2 d hoff hcoll hob (ix3 e a b)
    have hst := hst0 2 (by decide)
    show d.start (ix3 e a b) idx 2 + d.batchCoord (ix3 e a b) 2 + d.offCoord (ix3 e a b) 2 = b.val
    omega

end Idealize.ShloMosaic.RowIndex
-- ==== Proof.FinalLayer.lean ====
/-
  One layer of the graph convolution, at any feature width D.  The kernel's program multiplies row r of the dense
  adjacency into column q of the (padded) features; the reference gathers the source rows of the features,
  scales each by its edge's weight and adds them up at the destinations.  Both are the sum, over the edges into
  node r, of the feature at the edge's source times the edge's weight.
-/
import proofs.«429290_j51634096832829_1_alg».proof.Proof.FinalAdj
import proofs.«429290_j51634096832829_1_alg».proof.Proof.Spec
import proofs.«429290_j51634096832829_1_alg».proof.Proof.LibEdgeSum
import proofs.«429290_j51634096832829_1_alg».proof.Proof.LibRowSum
import Idealize.ShloMosaic.PureOps.Ideal.Laws
import Idealize.ShloMosaic.Lib.ValueIdx
import Idealize.ShloMosaic.Lib.Pipeline.Value
import Idealize.ShloMosaic.Lib.StableHlo.Predicate

set_option maxRecDepth 16384

noncomputable section

namespace Cert.Final

open Idealize.ShloMosaic Idealize.ShloMosaic.ValueIdx Idealize.ShloMosaic.StableHlo.Predicate
open Cert.KernelIdeal (S2x640000 S650000 KT.src KT.dst KT.wrap KT.norm KT.adj)

variable (ei : IVec S2x640000 32)
variable (hei : ∀ i, 0 ≤ (ei i).toInt ∧ (ei i).toInt < 10000)
include hei

/-- The kernel's side: row r of the adjacency times column q of the features is the sum over the edges into r. -/
theorem kernel_agg {D : Nat} (h : (⟨2, ![10240, D]⟩ : Shape).Idx → EReal) (b : (⟨2, ![1, D]⟩ : Shape).Idx → EReal)
    (r : Fin 10240) (q : Fin D) :
    Cert.Spec.aggAt (KT.adj (F := Ideal) ei) h b r q
      = (∑ e ∈ Finset.univ.filter (fun e : Fin 650000 => dN ei e = r), h (ix2 (sN ei e) q) * wN ei e) + b (ix2 (0 : Fin 1) q) := by
  unfold Cert.Spec.aggAt
  rw [← EdgeSum.matvec_eq_edge_sum (sN ei) (dN ei) (wN ei) (wN_nonneg ei hei) (fun j => h (ix2 j q)) r]
  refine congrArg (fun t => t + b (ix2 (0 : Fin 1) q)) (Finset.sum_congr rfl fun j _ => ?_)
  rw [adj_apply ei hei r j]

/-- The destination word of edge e, read in the index column, names row r exactly when e's destination node is r. -/
private theorem dst_col_iff (hc : (⟨1, ![650000]⟩ : Shape).BroadcastsInDim ⟨2, ![650000, 1]⟩ ![0])
    (e : Fin 650000) (r : Fin 10000) :
    (broadcastInDim ⟨2, ![650000, 1]⟩ ![0] hc (KT.dst ei) (ixP e)).toInt = (r.val : Int)
      ↔ dN ei e = Fin.castLE (by omega) r := by
  have h1 : ix1 e = Shape.Idx.ofFin e := by
    funext a
    match a with
    | ⟨0, _⟩ => rfl
  rw [bcast_col1, ← h1, dst_toInt ei hei e, Fin.ext_iff]
  show ((dN ei e).val : Int) = (r.val : Int) ↔ (dN ei e).val = r.val
  omega

/-- The gathered row of edge e is the features' row at e's source node: the source word counts from the front, and
    clamping a node number into the table changes nothing. -/
private theorem src_row {D : Nat}
    (dG : GatherDims ⟨2, ![10000, D]⟩ ⟨2, ![650000, 1]⟩ ⟨2, ![650000, D]⟩)
    (hoff : dG.offsetDims = [1]) (hcoll : dG.collapsedSliceDims = [0]) (hob : dG.operandBatchingDims = [])
    (hsim : dG.startIndexMap = [0]) (hivd : dG.indexVectorDim = 1)
    (hc : (⟨1, ![650000]⟩ : Shape).BroadcastsInDim ⟨2, ![650000, 1]⟩ ![0])
    (g : (⟨2, ![10000, D]⟩ : Shape).Idx → EReal) (e : Fin 650000) (q : Fin D) :
    Host.gather dG g (broadcastInDim ⟨2, ![650000, 1]⟩ ![0] hc (KT.wrap (KT.src ei))) (ij e q)
      = g (ix2 ⟨(sN ei e).val, sN_lt ei e⟩ q) := by
  have h1 : ix1 e = Shape.Idx.ofFin e := by
    funext a
    match a with
    | ⟨0, _⟩ => rfl
  have hs := sN_lt ei e
  rw [RowIndex.gather_rows dG hoff hcoll hob hsim hivd g _ e q (by norm_num)]
  refine congrArg g (funext fun a => ?_)
  match a with
  | ⟨0, _⟩ =>
    apply Fin.ext
    show min (broadcastInDim ⟨2, ![650000, 1]⟩ ![0] hc (KT.wrap (KT.src ei)) (ixP e)).toInt.toNat (10000 - 1) = (sN ei e).val
    rw [wrap_src ei hei, bcast_col1, ← h1, src_toInt ei hei e]
    omega
  | ⟨1, _⟩ => rfl

omit hei in
/-- The weight column laid along the rows reads, at (e, q), the weight of edge e. -/
private theorem weight_at {D : Nat}
    (hc : (⟨1, ![650000]⟩ : Shape).BroadcastsInDim ⟨2, ![650000, 1]⟩ ![0])
    (hw : (⟨2, ![650000, 1]⟩ : Shape).BroadcastsInDim ⟨2, ![650000, D]⟩ ![0, 1]) (e : Fin 650000) (q : Fin D) :
    broadcastInDim ⟨2, ![650000, D]⟩ ![0, 1] hw (broadcastInDim ⟨2, ![650000, 1]⟩ ![0] hc (KT.norm (F := Ideal) ei)) (ij e q)
      = wN ei e := by
  have h1 : ix1 e = Shape.Idx.ofFin e := by
    funext a
    match a with
    | ⟨0, _⟩ => rfl
  rw [bcast_rows hc hw, ← h1]
  rfl

omit hei in
/-- An accumulating row scatter into the zero table, read at (r, q): the sum, over the positions whose index word reads
    r, of the update at (position, q). -/
private theorem scatter_rows_zero {N C n w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) (hz : (⟨0, ![]⟩ : Shape).BroadcastsInDim ⟨2, ![N, C]⟩ ![])
    (idx : IVec ⟨2, ![n, 1]⟩ w) (upd : (⟨2, ![n, C]⟩ : Shape).Idx → EReal) (r : Fin N) (q : Fin C) :
    Host.scatterAdd (F := Ideal) (φ := .f32) d
        (broadcastInDim ⟨2, ![N, C]⟩ ![] hz (constant (F := Ideal) ⟨0, ![]⟩ .f32 0x00000000#32)) idx upd (ix2 r q)
      = ∑ e ∈ Finset.univ.filter (fun e : Fin n => (idx (ixP e)).toInt = (r.val : Int)), upd (ij e q) := by
  unfold Host.scatterAdd
  rw [Ideal.hostScatterAdd_def]
  unfold Ideal.hostScatterAdd
  rw [bcast_scalar hz (by decide)]
  show (Ideal.ofBits .f32 0x00000000#32 : EReal) + _ = _
  rw [Ideal.ofBits_zero_f32, zero_add, RowIndex.scatter_rows_sum d hu hi hs hv]
  rfl

/-- The reference's side: the scaled source rows added up at the destinations, read at row r and column q. -/
theorem ref_layer {D : Nat}
    (dS : ScatterDims ⟨2, ![10000, D]⟩ ⟨2, ![650000, 1]⟩ ⟨2, ![650000, D]⟩)
    (hu : dS.updateWindowDims = [1]) (hi : dS.insertedWindowDims = [0]) (hs : dS.scatterDimsToOperandDims = [0])
    (hv : dS.indexVectorDim = 1)
    (dG : GatherDims ⟨2, ![10000, D]⟩ ⟨2, ![650000, 1]⟩ ⟨2, ![650000, D]⟩)
    (hoff : dG.offsetDims = [1]) (hcoll : dG.collapsedSliceDims = [0]) (hob : dG.operandBatchingDims = [])
    (hsim : dG.startIndexMap = [0]) (hivd : dG.indexVectorDim = 1)
    (hz : (⟨0, ![]⟩ : Shape).BroadcastsInDim ⟨2, ![10000, D]⟩ ![])
    (hc : (⟨1, ![650000]⟩ : Shape).BroadcastsInDim ⟨2, ![650000, 1]⟩ ![0])
    (hw : (⟨2, ![650000, 1]⟩ : Shape).BroadcastsInDim ⟨2, ![650000, D]⟩ ![0, 1])
    (g : (⟨2, ![10000, D]⟩ : Shape).Idx → EReal) (r : Fin 10000) (q : Fin D) :
    Host.scatterAdd (F := Ideal) (φ := .f32) dS
        (broadcastInDim ⟨2, ![10000, D]⟩ ![] hz (constant (F := Ideal) ⟨0, ![]⟩ .f32 0x00000000#32))
        (broadcastInDim ⟨2, ![650000, 1]⟩ ![0] hc (KT.dst ei))
        (mulf (Host.gather dG g (broadcastInDim ⟨2, ![650000, 1]⟩ ![0] hc (KT.wrap (KT.src ei))))
          (broadcastInDim ⟨2, ![650000, D]⟩ ![0, 1] hw (broadcastInDim ⟨2, ![650000, 1]⟩ ![0] hc (KT.norm (F := Ideal) ei))))
        (ix2 r q)
      = ∑ e ∈ Finset.univ.filter (fun e : Fin 650000 => dN ei e = Fin.castLE (by omega) r),
          g (ix2 ⟨(sN ei e).val, sN_lt ei e⟩ q) * wN ei e := by
  refine (scatter_rows_zero dS hu hi hs hv hz _ _ r q).trans ?_
  refine Finset.sum_congr (Finset.filter_congr fun e _ => dst_col_iff ei hei hc e r) fun e _ => ?_
  exact (mulf_apply _ _ (ij e q)).trans
    (congrArg₂ (· * ·) (src_row ei hei dG hoff hcoll hob hsim hivd hc g e q) (weight_at ei hc hw e q))

end Cert.Final

end
-- ==== Proof.FinalDots.lean ====
/-
  The matrix products and the biases of the two programs read at an index.  The kernel's program pads the
  features with zero rows before the first product and keeps 10240 rows throughout; on the first 10000 rows its
  products are the reference's, entry by entry, and its bias rows hold the reference's bias.
-/
import proofs.«429290_j51634096832829_1_alg».proof.Proof.KTerms
import proofs.«429290_j51634096832829_1_alg».proof.Proof.RefRead
import proofs.«429290_j51634096832829_1_alg».proof.Proof.LibPlainDot
import Idealize.ShloMosaic.PureOps.Ideal.Laws
import Idealize.ShloMosaic.Lib.ValueIdx
import Idealize.ShloMosaic.Lib.Pipeline.Value
import Idealize.ShloMosaic.Lib.KernelVsHost

set_option maxRecDepth 16384

noncomputable section

namespace Cert.Final

open Idealize.ShloMosaic Idealize.ShloMosaic.ValueIdx
open Cert.KernelIdeal (S10000x128 S2x640000 S128x128 S128 S128x40 S40 S10000x40 S10240x128 S10240x40)
open Cert.KernelIdeal.Gen
open Cert.ReferenceIdeal (Read.val_main_v30 Read.val_main_v45 Read.val_main_v63 Read.val_main_v48 Read.val_main_v47)

/-- A product of a [R, 128] array with a [128, C] array, read at an entry. -/
theorem dot_apply {R C : Nat} (d : DotDims ⟨2, ![R, 128]⟩ ⟨2, ![128, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, 128]⟩ : Shape).Idx → EReal) (r : (⟨2, ![128, C]⟩ : Shape).Idx → EReal) (p : Fin R) (q : Fin C) :
    Host.dotGeneral (F := Ideal) (φ₁ := .f32) (φ₂ := .f32) d none l r (ix2 p q) = ∑ k : Fin 128, l (ix2 p k) * r (ix2 k q) := by
  simp only [Host.dotGeneral]
  rw [Ideal.dotGeneral_apply]
  exact PlainDot.sum_eq d hlb hln hlc hrb hrn hrc l r p q

/-- The first product of the kernel's program, on a row below 10000, is the reference's first product. -/
theorem hm1_apply (x : FVec Ideal S10000x128 .f32) (W1 : FVec Ideal S128x128 .f32) (j : Fin 10240) (hj : j.val < 10000) (k : Fin 128) :
    Cert.KernelIdeal.KT.hm1 (F := Ideal) x W1 (ix2 j k) = Read.val_main_v30 (F := Ideal) x W1 (ix2 ⟨j.val, hj⟩ k) := by
  rw [Cert.ReferenceIdeal.Read.val_main_v30_apply]
  unfold Cert.KernelIdeal.KT.hm1
  rw [truncf_apply, dot_apply _ rfl rfl rfl rfl rfl rfl]
  refine Finset.sum_congr rfl fun c _ => ?_
  congr 1
  · refine (pad_apply_of_inside _ _ _ x _ pads_S10000x128_S10240x128_02400_000 h_S_ (ix2 j c) (ix2 ⟨j.val, hj⟩ c) (fun a => ?_)).trans ?_
    · match a with
      | ⟨0, _⟩ => show j.val = 0 + j.val * (0 + 1); omega
      | ⟨1, _⟩ => show c.val = 0 + c.val * (0 + 1); omega
    · congr 1
      funext a
      match a with
      | ⟨0, _⟩ => rfl
      | ⟨1, _⟩ => rfl
  · congr 1
    funext a
    match a with
    | ⟨0, _⟩ => rfl
    | ⟨1, _⟩ => rfl

/-- The second product of the kernel's program read at an entry. -/
theorem hm2_apply (h : FVec Ideal S10240x128 .f32) (W2 : FVec Ideal S128x40 .f32) (j : Fin 10240) (q : Fin 40) :
    Cert.KernelIdeal.KT.hm2 (F := Ideal) h W2 (ix2 j q) = ∑ k : Fin 128, h (ix2 j k) * W2 (ix2 k q) := by
  unfold Cert.KernelIdeal.KT.hm2
  rw [truncf_apply, dot_apply _ rfl rfl rfl rfl rfl rfl]

/-- The reference's second product read at an entry. -/
theorem ref_v48_apply (x : FVec Ideal S10000x128 .f32) (ei : IVec S2x640000 32) (W1 : FVec Ideal S128x128 .f32) (b1 : FVec Ideal S128 .f32)
    (W2 : FVec Ideal S128x40 .f32) (r : Fin 10000) (q : Fin 40) :
    Read.val_main_v48 (F := Ideal) x ei W1 b1 W2 (ix2 r q)
      = ∑ k : Fin 128, Read.val_main_v47 (F := Ideal) x ei W1 b1 (ix2 r k) * W2 (ix2 k q) := by
  rw [Cert.ReferenceIdeal.Read.val_main_v48_apply]
  refine Finset.sum_congr rfl fun c _ => ?_
  have el : Cert.ReferenceIdeal.Read.lidx_main_v48 (ix2 r q) c = ix2 r c := by
    funext a
    match a with
    | ⟨0, _⟩ => rfl
    | ⟨1, _⟩ => rfl
  have er : Cert.ReferenceIdeal.Read.ridx_main_v48 (ix2 r q) c = ix2 c q := by
    funext a
    match a with
    | ⟨0, _⟩ => rfl
    | ⟨1, _⟩ => rfl
  rw [el, er]

/-- The kernel's first bias row holds the bias. -/
theorem b1r_apply (b1 : FVec Ideal S128 .f32) (k : Fin 128) :
    Cert.KernelIdeal.KT.b1r (F := Ideal) b1 (ix2 (0 : Fin 1) k) = b1 (ix1 k) := by
  unfold Cert.KernelIdeal.KT.b1r
  exact shapeCast_apply b1 shapeCasts_S128_S1x128 (ix2 (0 : Fin 1) k) (ix1 k)
    (by rw [Shape.rowMajor_val_two, Shape.rowMajor_val_one]; show k.val = 0 * 128 + k.val; omega)

/-- The kernel's second bias row holds the bias. -/
theorem b2r_apply (b2 : FVec Ideal S40 .f32) (k : Fin 40) :
    Cert.KernelIdeal.KT.b2r (F := Ideal) b2 (ix2 (0 : Fin 1) k) = b2 (ix1 k) := by
  unfold Cert.KernelIdeal.KT.b2r
  exact shapeCast_apply b2 shapeCasts_S40_S1x40 (ix2 (0 : Fin 1) k) (ix1 k)
    (by rw [Shape.rowMajor_val_two, Shape.rowMajor_val_one]; show k.val = 0 * 40 + k.val; omega)

/-- The reference's first bias, laid along the rows, holds the bias at every row. -/
theorem ref_v45_apply (b1 : FVec Ideal S128 .f32) (r : Fin 10000) (k : Fin 128) :
    Read.val_main_v45 (F := Ideal) b1 (ix2 r k) = b1 (ix1 k) := by
  rw [Cert.ReferenceIdeal.Read.val_main_v45_apply, Cert.ReferenceIdeal.Read.val_main_v44_apply]
  congr 1
  funext a
  match a with
  | ⟨0, _⟩ => rfl

/-- The reference's second bias, laid along the rows, holds the bias at every row. -/
theorem ref_v63_apply (b2 : FVec Ideal S40 .f32) (r : Fin 10000) (k : Fin 40) :
    Read.val_main_v63 (F := Ideal) b2 (ix2 r k) = b2 (ix1 k) := by
  rw [Cert.ReferenceIdeal.Read.val_main_v63_apply, Cert.ReferenceIdeal.Read.val_main_v62_apply]
  congr 1
  funext a
  match a with
  | ⟨0, _⟩ => rfl

end Cert.Final

end
-- ==== Proof.Final.lean ====
/-
  The two programs compute one function.  The kernel's program builds the dense normalised adjacency
  A[r, j] = Σ { norm e : edges e from j to r } and applies it twice as a matrix product; the reference gathers
  the source rows, scales them by norm and adds them up at the destinations.  With every edge's endpoints
  node numbers and norm a non-negative real, Σ_j A[r, j] · h[j, q] = Σ { h[src e, q] · norm e : edges e into r }.
-/
import proofs.«429290_j51634096832829_1_alg».proof.Proof.KTerms
import proofs.«429290_j51634096832829_1_alg».proof.Proof.Spec
import proofs.«429290_j51634096832829_1_alg».proof.Proof.RefRead
import proofs.«429290_j51634096832829_1_alg».proof.Proof.FinalPrefix
import proofs.«429290_j51634096832829_1_alg».proof.Proof.FinalAdj
import proofs.«429290_j51634096832829_1_alg».proof.Proof.FinalLayer
import proofs.«429290_j51634096832829_1_alg».proof.Proof.FinalDots
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Final

open Idealize.ShloMosaic Idealize.ShloMosaic.ValueIdx
open Cert.KernelIdeal (S10000x128 S2x640000 S128x128 S128 S128x40 S40 S10000x40 S10240x128 S10240x40)

/-- The kernel's result as a function of the arguments: the cut of the second aggregation of the second
    layer's features, themselves made from the relu of the first aggregation. -/
def kernelOut (x : FVec Ideal S10000x128 .f32) (ei : IVec S2x640000 32) (W1 : FVec Ideal S128x128 .f32) (b1 : FVec Ideal S128 .f32)
    (W2 : FVec Ideal S128x40 .f32) (b2 : FVec Ideal S40 .f32) : FVec Ideal S10000x40 .f32 :=
  Cert.KernelIdeal.KT.cut (F := Ideal) (fun i : S10240x40.Idx =>
    Cert.Spec.aggAt (Cert.KernelIdeal.KT.adj (F := Ideal) ei)
      (Cert.KernelIdeal.KT.hm2 (F := Ideal) (fun i' : S10240x128.Idx =>
        max (Cert.Spec.aggAt (Cert.KernelIdeal.KT.adj (F := Ideal) ei) (Cert.KernelIdeal.KT.hm1 (F := Ideal) x W1) (Cert.KernelIdeal.KT.b1r (F := Ideal) b1) (i' 0) (i' 1)) 0) W2)
      (Cert.KernelIdeal.KT.b2r (F := Ideal) b2) (i 0) (i 1))

section Pieces

open Cert.KernelIdeal (KT.src KT.dst KT.wrap KT.norm KT.adj KT.hm1 KT.hm2 KT.b1r KT.b2r KT.cut)
open Cert.ReferenceIdeal (Read.val_main_v30 Read.val_main_v43 Read.val_main_v45 Read.val_main_v46 Read.val_main_v47
  Read.val_main_v48 Read.val_main_v61 Read.val_main_v63 Read.val_main_v64 Read.val_main_v35 Read.val_main_v53 Read.val_main_v3)

variable (x : FVec Ideal S10000x128 .f32) (ei : IVec S2x640000 32) (W1 : FVec Ideal S128x128 .f32) (b1 : FVec Ideal S128 .f32)
  (W2 : FVec Ideal S128x40 .f32) (b2 : FVec Ideal S40 .f32)

/-- The cut keeps the first 10000 rows. -/
theorem cut_apply (o : FVec Ideal S10240x40 .f32) (p : Fin 10000) (q : Fin 40) :
    KT.cut (F := Ideal) o (ix2 p q) = o (ix2 (Fin.castLE (by omega) p : Fin 10240) q) := by
  unfold Cert.KernelIdeal.KT.cut
  exact extractStridedSlice_apply ![0, 0] o Cert.KernelIdeal.Gen.slices_S10240x40_S10000x40_0_0 (ix2 p q) _ (fun a =>
    match a with
    | ⟨0, _⟩ => by show p.val = 0 + p.val; omega
    | ⟨1, _⟩ => by show q.val = 0 + q.val; omega)

/-- The reference reads its source words as numpy does where it gathers the first layer's rows: the kernel program's words. -/
theorem ref_v35 : Read.val_main_v35 (F := Ideal) ei = KT.wrap (KT.src ei) := by
  show select (cmpi .slt (Read.val_main_v3 (F := Ideal) ei) _) (addi (Read.val_main_v3 (F := Ideal) ei) _) (Read.val_main_v3 (F := Ideal) ei) = _
  rw [ref_src]
  rfl

/-- Likewise where it gathers the second layer's rows. -/
theorem ref_v53 : Read.val_main_v53 (F := Ideal) ei = KT.wrap (KT.src ei) := by
  show select (cmpi .slt (Read.val_main_v3 (F := Ideal) ei) _) (addi (Read.val_main_v3 (F := Ideal) ei) _) (Read.val_main_v3 (F := Ideal) ei) = _
  rw [ref_src]
  rfl

variable (hei : ∀ i, 0 ≤ (ei i).toInt ∧ (ei i).toInt < 10000)
include hei

/-- The reference's first aggregation at row r and column k: the sum over the edges into r. -/
theorem ref_v43_apply (r : Fin 10000) (k : Fin 128) :
    Read.val_main_v43 (F := Ideal) x ei W1 (ix2 r k)
      = ∑ e ∈ Finset.univ.filter (fun e : Fin 650000 => dN ei e = Fin.castLE (by omega) r),
          Read.val_main_v30 (F := Ideal) x W1 (ix2 ⟨(sN ei e).val, sN_lt ei e⟩ k) * wN ei e := by
  rw [← ref_layer ei hei (D := 128) Cert.ReferenceIdeal.scatter_S10000x128_S650000x1_S650000x128_1_0_0_1 rfl rfl rfl rfl
    Cert.ReferenceIdeal.gather_S10000x128_S650000x1_S650000x128_1_0_n_n_0_1_1128 rfl rfl rfl rfl rfl
    Cert.ReferenceIdeal.Gen.bcast_S_S10000x128 Cert.ReferenceIdeal.Gen.bcast_S650000_S650000x1_0
    Cert.ReferenceIdeal.Gen.bcast_S650000x1_S650000x128_0_1 (Read.val_main_v30 (F := Ideal) x W1) r k]
  unfold Cert.ReferenceIdeal.Read.val_main_v43 Cert.ReferenceIdeal.Read.val_main_v42 Cert.ReferenceIdeal.Read.val_main_v40
    Cert.ReferenceIdeal.Read.val_main_v39 Cert.ReferenceIdeal.Read.val_main_v38 Cert.ReferenceIdeal.Read.val_main_v37
    Cert.ReferenceIdeal.Read.val_main_v36
  rw [ref_dst, ref_norm, ref_v35]
  rfl

/-- The reference's second aggregation at row r and column q: the sum over the edges into r. -/
theorem ref_v61_apply (r : Fin 10000) (q : Fin 40) :
    Read.val_main_v61 (F := Ideal) x ei W1 b1 W2 (ix2 r q)
      = ∑ e ∈ Finset.univ.filter (fun e : Fin 650000 => dN ei e = Fin.castLE (by omega) r),
          Read.val_main_v48 (F := Ideal) x ei W1 b1 W2 (ix2 ⟨(sN ei e).val, sN_lt ei e⟩ q) * wN ei e := by
  rw [← ref_layer ei hei (D := 40) Cert.ReferenceIdeal.scatter_S10000x40_S650000x1_S650000x40_1_0_0_1 rfl rfl rfl rfl
    Cert.ReferenceIdeal.gather_S10000x40_S650000x1_S650000x40_1_0_n_n_0_1_140 rfl rfl rfl rfl rfl
    Cert.ReferenceIdeal.Gen.bcast_S_S10000x40 Cert.ReferenceIdeal.Gen.bcast_S650000_S650000x1_0
    Cert.ReferenceIdeal.Gen.bcast_S650000x1_S650000x40_0_1 (Read.val_main_v48 (F := Ideal) x ei W1 b1 W2) r q]
  unfold Cert.ReferenceIdeal.Read.val_main_v61 Cert.ReferenceIdeal.Read.val_main_v60 Cert.ReferenceIdeal.Read.val_main_v58
    Cert.ReferenceIdeal.Read.val_main_v57 Cert.ReferenceIdeal.Read.val_main_v56 Cert.ReferenceIdeal.Read.val_main_v55
    Cert.ReferenceIdeal.Read.val_main_v54
  rw [ref_dst, ref_norm, ref_v53]
  rfl

/-- The first layer: the kernel's aggregation under max · 0, on a row below 10000, is the reference's relu. -/
theorem layer1 (r : Fin 10000) (k : Fin 128) :
    max (Cert.Spec.aggAt (KT.adj (F := Ideal) ei) (KT.hm1 (F := Ideal) x W1) (KT.b1r (F := Ideal) b1) (Fin.castLE (by omega) r : Fin 10240) k) 0
      = Read.val_main_v47 (F := Ideal) x ei W1 b1 (ix2 r k) := by
  have hz : Cert.ReferenceIdeal.Read.val_main_call1_v0 (F := Ideal) (ix2 r k) = 0 := by
    rw [Cert.ReferenceIdeal.Read.val_main_call1_v0_apply, Cert.ReferenceIdeal.Read.val_main_call1_cst_apply]
    exact Ideal.ofBits_zero_f32
  have hs : (∑ e ∈ Finset.univ.filter (fun e : Fin 650000 => dN ei e = (Fin.castLE (by omega) r : Fin 10240)),
        KT.hm1 (F := Ideal) x W1 (ix2 (sN ei e) k) * wN ei e)
      = ∑ e ∈ Finset.univ.filter (fun e : Fin 650000 => dN ei e = (Fin.castLE (by omega) r : Fin 10240)),
        Read.val_main_v30 (F := Ideal) x W1 (ix2 ⟨(sN ei e).val, sN_lt ei e⟩ k) * wN ei e :=
    Finset.sum_congr rfl fun e _ => by rw [hm1_apply x W1 (sN ei e) (sN_lt ei e) k]
  rw [Cert.ReferenceIdeal.Read.val_main_v47_apply, Cert.ReferenceIdeal.Read.val_main_v46_apply, hz,
    ref_v43_apply x ei W1 hei r k, ref_v45_apply b1 r k, kernel_agg ei hei, b1r_apply b1 k, hs]
  rfl

/-- The second layer's features of the kernel's program, on a row below 10000, are the reference's. -/
theorem hm2_rows (j : Fin 10240) (hj : j.val < 10000) (q : Fin 40) :
    KT.hm2 (F := Ideal) (fun i' : S10240x128.Idx =>
        max (Cert.Spec.aggAt (KT.adj (F := Ideal) ei) (KT.hm1 (F := Ideal) x W1) (KT.b1r (F := Ideal) b1) (i' 0) (i' 1)) 0) W2 (ix2 j q)
      = Read.val_main_v48 (F := Ideal) x ei W1 b1 W2 (ix2 ⟨j.val, hj⟩ q) := by
  rw [hm2_apply, ref_v48_apply]
  refine Finset.sum_congr rfl fun k _ => ?_
  rw [← layer1 x ei W1 b1 hei ⟨j.val, hj⟩ k]
  rfl

end Pieces

/-- Under the precondition (every float input real, every edge endpoint a node number) the kernel's result is the reference's. -/
theorem kernelOut_eq_ref (x : FVec Ideal S10000x128 .f32) (ei : IVec S2x640000 32) (W1 : FVec Ideal S128x128 .f32) (b1 : FVec Ideal S128 .f32)
    (W2 : FVec Ideal S128x40 .f32) (b2 : FVec Ideal S40 .f32)
    (hx : ∀ i, ∃ r : ℝ, x i = (r : EReal)) (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (hei : ∀ i, 0 ≤ (ei i).toInt ∧ (ei i).toInt < 10000) :
    kernelOut x ei W1 b1 W2 b2 = Cert.ReferenceIdeal.Read.val_main_v64 (F := Ideal) x ei W1 b1 W2 b2 := by
  funext i
  obtain ⟨p, q, rfl⟩ : ∃ (p : Fin 10000) (q : Fin 40), i = ix2 p q := ⟨i 0, i 1, eq_ix2 i⟩
  have hs : (∑ e ∈ Finset.univ.filter (fun e : Fin 650000 => dN ei e = (Fin.castLE (by omega) p : Fin 10240)),
        Cert.KernelIdeal.KT.hm2 (F := Ideal) (fun i' : S10240x128.Idx =>
          max (Cert.Spec.aggAt (Cert.KernelIdeal.KT.adj (F := Ideal) ei) (Cert.KernelIdeal.KT.hm1 (F := Ideal) x W1) (Cert.KernelIdeal.KT.b1r (F := Ideal) b1) (i' 0) (i' 1)) 0) W2
          (ix2 (sN ei e) q) * wN ei e)
      = ∑ e ∈ Finset.univ.filter (fun e : Fin 650000 => dN ei e = (Fin.castLE (by omega) p : Fin 10240)),
        Cert.ReferenceIdeal.Read.val_main_v48 (F := Ideal) x ei W1 b1 W2 (ix2 ⟨(sN ei e).val, sN_lt ei e⟩ q) * wN ei e :=
    Finset.sum_congr rfl fun e _ => by rw [hm2_rows x ei W1 b1 W2 hei (sN ei e) (sN_lt ei e) q]
  rw [Cert.ReferenceIdeal.Read.val_main_v64_apply, ref_v61_apply x ei W1 b1 W2 hei p q, ref_v63_apply b2 p q]
  unfold kernelOut
  rw [cut_apply]
  show Cert.Spec.aggAt _ _ _ (Fin.castLE (by omega) p : Fin 10240) q = _
  rw [kernel_agg ei hei, b2r_apply b2 q, hs]
  rfl

end Cert.Final

end
-- ==== Proof.KernelValue.lean ====
/-
  The kernel's run with its result named as a function of the arguments: the last host stretch cuts what
  the second call leaves; the second call leaves the aggregation of the arrays it is entered with; those are
  the adjacency, the product of what the first call leaves with the second weight, and the second bias; and
  the first call leaves the relu of the aggregation of the adjacency, the padded features times the first
  weight, and the first bias.
-/
import proofs.«429290_j51634096832829_1_alg».proof.Proof.Run
import proofs.«429290_j51634096832829_1_alg».proof.Proof.HostRead
import proofs.«429290_j51634096832829_1_alg».proof.Proof.R0Value
import proofs.«429290_j51634096832829_1_alg».proof.Proof.R1Value
import proofs.«429290_j51634096832829_1_alg».proof.Proof.Final

set_option maxRecDepth 16384

noncomputable section

namespace Cert.KernelIdeal.KV

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- What the first call leaves: the relu of the first aggregation. -/
theorem out6_eq (c : Dev nD) :
    Run.out6 m c = fun i' : S10240x128.Idx =>
      max (Cert.Spec.aggAt (KT.adj (F := Ideal) (m ((c : Thread nD τ).loc main_arg1)))
        (KT.hm1 (F := Ideal) (m ((c : Thread nD τ).loc main_arg0)) (m ((c : Thread nD τ).loc main_arg2)))
        (KT.b1r (F := Ideal) (m ((c : Thread nD τ).loc main_arg3))) (i' 0) (i' 1)) 0 := by
  funext i'
  obtain ⟨r, q, rfl⟩ : ∃ (r : Fin 10240) (q : Fin 128), i' = ix2 r q := ⟨i' 0, i' 1, eq_ix2 i'⟩
  unfold Run.out6
  rw [R0.arrAt_out (Run.VR0 m) c r q]
  show max (Cert.Spec.aggAt (V5 m c main_v37) (V5 m c main_v40) (V5 m c main_v41) r q) 0 = _
  rw [HostRead.V5_v37, HostRead.V5_v40, HostRead.V5_v41]

/-- What the second call leaves: the second aggregation. -/
theorem out8_eq (c : Dev nD) :
    Run.out8 m c = fun i : S10240x40.Idx =>
      Cert.Spec.aggAt (KT.adj (F := Ideal) (m ((c : Thread nD τ).loc main_arg1)))
        (KT.hm2 (F := Ideal) (Run.out6 m c) (m ((c : Thread nD τ).loc main_arg4)))
        (KT.b2r (F := Ideal) (m ((c : Thread nD τ).loc main_arg5))) (i 0) (i 1) := by
  funext i
  obtain ⟨r, q, rfl⟩ : ∃ (r : Fin 10240) (q : Fin 40), i = ix2 r q := ⟨i 0, i 1, eq_ix2 i⟩
  unfold Run.out8
  rw [R1.arrAt_out (Run.VR1 m) c r q]
  show Cert.Spec.aggAt (V7 m (Run.outsA m) c main_v37) (V7 m (Run.outsA m) c main_v44) (V7 m (Run.outsA m) c main_v45) r q = _
  rw [HostRead.V7_v37, HostRead.V7_v44, HostRead.V7_v45]
  have e : Run.outsA m 6 main_v42 c = Run.out6 m c := by
    unfold Run.outsA; rw [dif_pos rfl]
  rw [e]

/-- The result array after the run is the kernel's function of the arguments. -/
theorem result_eq (c : Dev nD) :
    V9 m (Run.outs m) c main_v47
      = Cert.Final.kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [HostRead.V9_v47, Run.outs_v46, out8_eq, out6_eq]
  rfl

end Cert.KernelIdeal.KV

end
-- ==== Proof.PreDecode.lean ====
/-
  The precondition read back: the printed predicate is all ones exactly when every float input is a real
  number and every entry of the edge list is a node number, 0 ≤ e < 10000.
-/
import proofs.«429290_j51634096832829_1_alg».proof.Pre_finite_inputs
import proofs.«429290_j51634096832829_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs

/-- The scalar shape has one index. -/
instance : Subsingleton S_.Idx := ⟨fun a b => funext fun d => d.elim0⟩

/-- The pattern 0x7F800000 denotes +∞. -/
theorem inf_pattern : Ideal.ofBits .f32 0x7F800000#32 = (⊤ : EReal) := by
  simp [Ideal.ofBits, Ideal.ieee]

/-- An extended real whose absolute value max a (−a) is below +∞ is a real: at ⊤ and at ⊥ the maximum is ⊤. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- One element of the test |a| < +∞: the compared word is 1 only at a real. -/
theorem real_of_elem (a : Ideal .f32)
    (h : FloatOps.cmpf (F := Ideal) (φ := .f32) .olt (FloatOps.hostAbsf a) (FloatOps.ofBits .f32 0x7F800000#32) = 1#1) :
    ∃ r : ℝ, a = (r : EReal) := by
  apply real_of_abs_lt_top
  have h' : Ideal.cmp .olt (max a (-a)) (Ideal.ofBits .f32 0x7F800000#32) = 1#1 := h
  rw [inf_pattern] at h'
  simpa [Ideal.cmp, StableHlo.Predicate.ofBool_eq_one_iff] using h'

/-- The conjunction over a whole array of |x| < +∞ is 1: every entry is a real. -/
theorem all_real {s : Shape} {axes : List (Fin s.rank)} (x : FVec Ideal s .f32) (hb : S_.BroadcastsInDim s (![] : Fin 0 → Fin s.rank))
    (hr : s.ReducesTo axes S_) (h0 : 0 < S_.numel)
    (h : Host.reduce IntOp.andi (cmpf .olt (Host.absf x) (broadcastInDim s ![] hb (constant S_ .f32 0x7F800000#32)))
      (constantI S_ 1 1#1) hr h0 ValueIdx.ix0 = 1#1) (i : s.Idx) : ∃ r : ℝ, x i = (r : EReal) := by
  have e := Host.reduce_andi_all _ _ hr h0 _ h i
  exact real_of_elem (x i) e

/-- One element of the test 0 ≤ e ∧ e < 10000 on signed 32-bit words: both compares are 1 only when the
    word's signed value lies in [0, 10000). -/
theorem range_of_elem (a : BitVec 32)
    (h : IntOp.andi (IntOp.cmpi .sge a 0#32) (IntOp.cmpi .slt a 10000#32) = 1#1) : 0 ≤ a.toInt ∧ a.toInt < 10000 := by
  obtain ⟨h1, h2⟩ := IntOp.andi_eq_one.1 h
  simp only [IntOp.cmpi, StableHlo.Predicate.ofBool_eq_one_iff, BitVec.sle, BitVec.slt, decide_eq_true_eq] at h1 h2
  have z : (0#32).toInt = 0 := by decide
  have t : (10000#32).toInt = 10000 := by decide
  rw [z] at h1; rw [t] at h2
  exact ⟨h1, h2⟩

/-- The conjunction over the whole edge list of (e ≥ 0) ∧ (e < 10000) is 1: every entry is a node number. -/
theorem all_range {s : Shape} {axes : List (Fin s.rank)} (e : IVec s 32) (hb : S_.BroadcastsInDim s (![] : Fin 0 → Fin s.rank))
    (hr : s.ReducesTo axes S_) (h0 : 0 < S_.numel)
    (h : Host.reduce IntOp.andi (andi (cmpi .sge e (broadcastInDim s ![] hb (constantI S_ 32 0#32)))
        (cmpi .slt e (broadcastInDim s ![] hb (constantI S_ 32 10000#32))))
      (constantI S_ 1 1#1) hr h0 ValueIdx.ix0 = 1#1) (i : s.Idx) : 0 ≤ (e i).toInt ∧ (e i).toInt < 10000 := by
  have q := Host.reduce_andi_all _ _ hr h0 _ h i
  exact range_of_elem (e i) q

/-- A conjunction of two one-bit arrays that is 1 at an index has both 1 there. -/
theorem andi_at {s : Shape} (a b : IVec s 1) (i : s.Idx) (h : andi a b i = 1#1) : a i = 1#1 ∧ b i = 1#1 :=
  IntOp.andi_eq_one.1 h

/-- What the precondition says of the inputs at the ideal instance. -/
theorem decode [Cert.Pre_finite_inputs.Facts]
    (x : FVec Ideal S10000x128 .f32) (ei : IVec S2x640000 32) (W1 : FVec Ideal S128x128 .f32) (b1 : FVec Ideal S128 .f32)
    (W2 : FVec Ideal S128x40 .f32) (b2 : FVec Ideal S40 .f32)
    (h : Cert.Pre_finite_inputs.fn (F := Ideal) x ei W1 b1 W2 b2 = fun _ => 1#1) :
    (∀ i, ∃ r : ℝ, x i = (r : EReal)) ∧ (∀ i, ∃ r : ℝ, W1 i = (r : EReal)) ∧ (∀ i, ∃ r : ℝ, b1 i = (r : EReal))
      ∧ (∀ i, ∃ r : ℝ, W2 i = (r : EReal)) ∧ (∀ i, ∃ r : ℝ, b2 i = (r : EReal))
      ∧ (∀ i, 0 ≤ (ei i).toInt ∧ (ei i).toInt < 10000) := by
  have h0 := congrFun h ValueIdx.ix0
  dsimp only [Cert.Pre_finite_inputs.fn, Cert.Pre_finite_inputs.fn_part1] at h0
  obtain ⟨h1, hei⟩ := andi_at _ _ _ h0
  obtain ⟨h2, hb2⟩ := andi_at _ _ _ h1
  obtain ⟨h3, hW2⟩ := andi_at _ _ _ h2
  obtain ⟨h4, hb1⟩ := andi_at _ _ _ h3
  obtain ⟨hx, hW1⟩ := andi_at _ _ _ h4
  exact ⟨all_real x _ _ _ hx, all_real W1 _ _ _ hW1, all_real b1 _ _ _ hb1, all_real W2 _ _ _ hW2,
    all_real b2 _ _ _ hb2, all_range ei _ _ _ hei⟩

end Cert.PreDecode

end
-- ==== Proof.lean ====
/-
  A two-layer graph convolution with symmetric normalisation over 10000 nodes: the kernel's program
  materialises the normalised adjacency as a dense 10240 × 10240 matrix and aggregates by two tiled matrix
  products on the accelerator (each row block accumulated over five column blocks in a scratch buffer, bias
  and relu applied at the last), the reference gathers, scales and scatter-adds along the edges.  Over the
  extended reals, with every float input finite and every edge endpoint a node number, the two compute one
  function: a sum of non-negative reals times an extended real distributes, so the matrix product regroups
  into the sum over the edges.
  The three frames: the two programs with pallas_calls through the run of their segments (each call a
  pipelined region whose invariant carries the accumulator), the reference through its run.  The idealization
  rewrote nothing, so `preserves` is trivial.
-/
import proofs.«429290_j51634096832829_1_alg».proof.Defs
import proofs.«429290_j51634096832829_1_alg».proof.Proof.Gen.Kernel
import proofs.«429290_j51634096832829_1_alg».proof.Proof.Gen.KernelIdeal
import proofs.«429290_j51634096832829_1_alg».proof.Proof.Gen.ReferenceIdeal
import proofs.«429290_j51634096832829_1_alg».proof.Proof.Gen.Pre_finite_inputs
import proofs.«429290_j51634096832829_1_alg».proof.Proof.BitsRun
import proofs.«429290_j51634096832829_1_alg».proof.Proof.Run
import proofs.«429290_j51634096832829_1_alg».proof.Proof.KernelValue
import proofs.«429290_j51634096832829_1_alg».proof.Proof.PreDecode
import proofs.«429290_j51634096832829_1_alg».proof.Proof.Final
import proofs.«429290_j51634096832829_1_alg».proof.Proof.RefRun
import proofs.«429290_j51634096832829_1_alg».proof.Proof.RefRead
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Run.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Run.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at the kernel's function of the (agreeing) arguments: the kernel's by its
    run read back, the reference's by its run and the equality of the two functions under the precondition. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Final.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KV.result_eq m c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, hW1, hb1, hW2, hb2, hei⟩ := Cert.PreDecode.decode _ _ _ _ _ _ (hpre c)
    rw [Cert.ReferenceIdeal.Read.val_main_v64_eq, (hagree c).1, (hagree c).2.1, (hagree c).2.2.1, (hagree c).2.2.2.1,
      (hagree c).2.2.2.2.1, (hagree c).2.2.2.2.2]
    exact (Cert.Final.kernelOut_eq_ref _ _ _ _ _ _ hx hW1 hb1 hW2 hb2 hei).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
